-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S128x16 .f32) (main_arg9 : FVec F S16 .f32) (main_v33 : IVec S_ 1) : IVec S_ 1 :=
  let main_v34 : FVec F S128x16 .f32 := Host.absf main_arg8
  let main_cst_12 : FVec F S_ .f32 := constant S_ .f32 0x7F800000#32
  let main_v35 : FVec F S128x16 .f32 := broadcastInDim S128x16 ![] bcast_S_S128x16 main_cst_12
  let main_v36 : IVec S128x16 1 := cmpf .olt main_v34 main_v35
  let main_c_13 : IVec S_ 1 := constantI S_ 1 1#1
  let main_v37 : IVec S_ 1 := (fun x v => Host.reduce IntOp.andi x v reducesTo_S128x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x16 .f32) (main_arg9 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x16 .f32) (main_arg9 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S1x16 : Shape := ⟨2, ![1, 16]⟩
abbrev S100000x16 : Shape := ⟨2, ![100000, 16]⟩
abbrev S5000x16 : Shape := ⟨2, ![5000, 16]⟩
abbrev S5000 : Shape := ⟨1, ![5000]⟩
abbrev S5000x1 : Shape := ⟨2, ![5000, 1]⟩

abbrev nBuf : Space → Nat
  | .hbm => 97
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x16, .f32⟩
  | .hbm, ⟨9, _⟩ => ⟨S16, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S1700000x1, .f32⟩
  | .hbm, ⟨44, _⟩ => ⟨S100000x128, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x128, .f32⟩
  | .hbm, ⟨55, _⟩ => ⟨S1700000x128, .f32⟩
  | .hbm, ⟨56, _⟩ => ⟨S_, .f32⟩
  | .hbm, ⟨57, _⟩ => ⟨S100000x128, .f32⟩
  | .hbm, ⟨58, _⟩ => ⟨S1700000x1, .i32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x128, .f32⟩
  | .hbm, ⟨71, _⟩ => ⟨S1700000x128, .f32⟩
  | .hbm, ⟨72, _⟩ => ⟨S1700000x128, .f32⟩
  | .hbm, ⟨73, _⟩ => ⟨S_, .f32⟩
  | .hbm, ⟨74, _⟩ => ⟨S100000x128, .f32⟩
  | .hbm, ⟨75, _⟩ => ⟨S1700000x1, .i32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000x128, .f32⟩
  | .hbm, ⟨88, _⟩ => ⟨S1700000x128, .f32⟩
  | .hbm, ⟨89, _⟩ => ⟨S1700000x128, .f32⟩
  | .hbm, ⟨90, _⟩ => ⟨S_, .f32⟩
  | .hbm, ⟨91, _⟩ => ⟨S100000x128, .f32⟩
  | .hbm, ⟨92, _⟩ => ⟨S1700000x1, .i32⟩
  | .hbm, ⟨93, _⟩ => ⟨S100000x128, .f32⟩
  | .hbm, ⟨94, _⟩ => ⟨S1x128, .f32⟩
  | .hbm, ⟨95, _⟩ => ⟨S1x16, .f32⟩
  | .hbm, ⟨96, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S128x16, .f32⟩
  | .local _ .vmem, ⟨21, _⟩ => ⟨S1x16, .f32⟩
  | .local _ .vmem, ⟨22, _⟩ => ⟨S5000x16, .f32⟩
  | .local _ .vmem, ⟨23, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_7 : Ref sig .tc := ⟨.hbm, 62, rfl⟩
abbrev main_v43 : Ref sig .tc := ⟨.hbm, 63, rfl⟩
abbrev main_v44 : Ref sig .tc := ⟨.hbm, 64, rfl⟩
abbrev main_c_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_12 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x16.size a ≤ S128x16.size a
  hwx3_2 : ∀ i : grid3.Coords, EltTy.bits .f32 = 32 ∨ (Rect.block (s := S128x16) S128x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x16.size a ≤ S100000x16.size a
  hwx3_4 : ∀ i : grid3.Coords, EltTy.bits .f32 = 32 ∨ (Rect.block (s := S100000x16) S5000x16.size (cc3_transform_4 i) (hinb3_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v54) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v68) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v69) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v71) S5000x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x16 : Shape := ⟨2, ![100000, 16]⟩
abbrev S1x16 : Shape := ⟨2, ![1, 16]⟩
abbrev S100000x1 : Shape := ⟨2, ![100000, 1]⟩

abbrev nBuf : Space → Nat
  | .hbm => 167
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x16, .f32⟩
  | 9 => ⟨S16, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S100000, .f32⟩
  | 24 => ⟨S_, .i32⟩
  | 25 => ⟨S1700000, .i32⟩
  | 26 => ⟨S1700000, .i1⟩
  | 27 => ⟨S_, .i32⟩
  | 28 => ⟨S1700000, .i32⟩
  | 29 => ⟨S1700000, .i32⟩
  | 30 => ⟨S1700000, .i32⟩
  | 31 => ⟨S1700000x1, .i32⟩
  | 32 => ⟨S1700000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S1700000, .f32⟩
  | 43 => ⟨S100000x128, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000x128, .f32⟩
  | 53 => ⟨S1700000x1, .f32⟩
  | 54 => ⟨S1700000x128, .f32⟩
  | 55 => ⟨S1700000x128, .f32⟩
  | 56 => ⟨S_, .f32⟩
  | 57 => ⟨S100000x128, .f32⟩
  | 58 => ⟨S1700000x1, .i32⟩
  | 59 => ⟨S100000x128, .f32⟩
  | 60 => ⟨S1x128, .f32⟩
  | 61 => ⟨S100000x128, .f32⟩
  | 62 => ⟨S100000x128, .f32⟩
  | 63 => ⟨S_, .f32⟩
  | 64 => ⟨S100000x128, .f32⟩
  | 65 => ⟨S100000x128, .i1⟩
  | 66 => ⟨S_, .f32⟩
  | 67 => ⟨S100000x128, .f32⟩
  | 68 => ⟨S100000x128, .i1⟩
  | 69 => ⟨S_, .f32⟩
  | 70 => ⟨S_, .f32⟩
  | 71 => ⟨S100000x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S100000x128, .f32⟩
  | 79 => ⟨S_, .i32⟩
  | 80 => ⟨S1700000, .i32⟩
  | 81 => ⟨S1700000, .i1⟩
  | 82 => ⟨S_, .i32⟩
  | 83 => ⟨S1700000, .i32⟩
  | 84 => ⟨S1700000, .i32⟩
  | 85 => ⟨S1700000, .i32⟩
  | 86 => ⟨S1700000x1, .i32⟩
  | 87 => ⟨S1700000x128, .f32⟩
  | 88 => ⟨S1700000x1, .f32⟩
  | 89 => ⟨S1700000x128, .f32⟩
  | 90 => ⟨S1700000x128, .f32⟩
  | 91 => ⟨S_, .f32⟩
  | 92 => ⟨S100000x128, .f32⟩
  | 93 => ⟨S1700000x1, .i32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .i1⟩
  | 101 => ⟨S_, .f32⟩
  | 102 => ⟨S100000x128, .f32⟩
  | 103 => ⟨S100000x128, .i1⟩
  | 104 => ⟨S_, .f32⟩
  | 105 => ⟨S_, .f32⟩
  | 106 => ⟨S100000x128, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S100000x128, .f32⟩
  | 113 => ⟨S100000x128, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000x128, .f32⟩
  | 123 => ⟨S1700000x1, .f32⟩
  | 124 => ⟨S1700000x128, .f32⟩
  | 125 => ⟨S1700000x128, .f32⟩
  | 126 => ⟨S_, .f32⟩
  | 127 => ⟨S100000x128, .f32⟩
  | _ => ⟨S100000x128, .f32⟩

abbrev hbmTy0_1 (i : Nat) : BufTy := match i % 128 with
  | 0 => ⟨S1700000x1, .i32⟩
  | 1 => ⟨S100000x128, .f32⟩
  | 2 => ⟨S1x128, .f32⟩
  | 3 => ⟨S100000x128, .f32⟩
  | 4 => ⟨S100000x128, .f32⟩
  | 5 => ⟨S_, .f32⟩
  | 6 => ⟨S100000x128, .f32⟩
  | 7 => ⟨S100000x128, .i1⟩
  | 8 => ⟨S_, .f32⟩
  | 9 => ⟨S100000x128, .f32⟩
  | 10 => ⟨S100000x128, .i1⟩
  | 11 => ⟨S_, .f32⟩
  | 12 => ⟨S_, .f32⟩
  | 13 => ⟨S100000x128, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S100000x128, .f32⟩
  | 20 => ⟨S100000x16, .f32⟩
  | 21 => ⟨S1x16, .f32⟩
  | 22 => ⟨S100000x16, .f32⟩
  | 23 => ⟨S100000x16, .f32⟩
  | 24 => ⟨S_, .f32⟩
  | 25 => ⟨S100000, .f32⟩
  | 26 => ⟨S_, .f32⟩
  | 27 => ⟨S100000, .f32⟩
  | 28 => ⟨S100000, .f32⟩
  | 29 => ⟨S100000x1, .f32⟩
  | 30 => ⟨S100000x16, .f32⟩
  | 31 => ⟨S100000x16, .f32⟩
  | 32 => ⟨S100000x16, .f32⟩
  | 33 => ⟨S_, .f32⟩
  | 34 => ⟨S100000, .f32⟩
  | 35 => ⟨S100000x1, .f32⟩
  | 36 => ⟨S100000x1, .f32⟩
  | 37 => ⟨S100000x16, .f32⟩
  | 38 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_call0_v1 : Ref sig .tc := ⟨.hbm, 65, rfl⟩
abbrev main_call0_cst_0 : Ref sig .tc := ⟨.hbm, 66, rfl⟩
abbrev main_call0_v2 : Ref sig .tc := ⟨.hbm, 67, rfl⟩
abbrev main_call0_v3 : Ref sig .tc := ⟨.hbm, 68, rfl⟩
abbrev main_call0_cst_1 : Ref sig .tc := ⟨.hbm, 69, rfl⟩
abbrev main_call0_call0_v0 : Ref sig .tc := ⟨.hbm, 70, rfl⟩
abbrev main_call0_call0_v1 : Ref sig .tc := ⟨.hbm, 71, rfl⟩
abbrev main_call0_v4 : Ref sig .tc := ⟨.hbm, 72, rfl⟩
abbrev main_call0_v5 : Ref sig .tc := ⟨.hbm, 73, rfl⟩
abbrev main_call0_cst_2 : Ref sig .tc := ⟨.hbm, 74, rfl⟩
abbrev main_call0_v6 : Ref sig .tc := ⟨.hbm, 75, rfl⟩
abbrev main_call0_v7 : Ref sig .tc := ⟨.hbm, 76, rfl⟩
abbrev main_v44 : Ref sig .tc := ⟨.hbm, 77, rfl⟩
abbrev main_v45 : Ref sig .tc := ⟨.hbm, 78, rfl⟩
abbrev main_c_7 : Ref sig .tc := ⟨.hbm, 79, rfl⟩
abbrev main_v46 : Ref sig .tc := ⟨.hbm, 80, rfl⟩
abbrev main_v47 : Ref sig .tc := ⟨.hbm, 81, rfl⟩
abbrev main_c_8 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_9 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_call1_cst : Ref sig .tc := ⟨.hbm, 98, rfl⟩
abbrev main_call1_v0 : Ref sig .tc := ⟨.hbm, 99, rfl⟩
abbrev main_call1_v1 : Ref sig .tc := ⟨.hbm, 100, rfl⟩
abbrev main_call1_cst_0 : Ref sig .tc := ⟨.hbm, 101, rfl⟩
abbrev main_call1_v2 : Ref sig .tc := ⟨.hbm, 102, rfl⟩
abbrev main_call1_v3 : Ref sig .tc := ⟨.hbm, 103, rfl⟩
abbrev main_call1_cst_1 : Ref sig .tc := ⟨.hbm, 104, rfl⟩
abbrev main_call1_call0_v0 : Ref sig .tc := ⟨.hbm, 105, rfl⟩
abbrev main_call1_call0_v1 : Ref sig .tc := ⟨.hbm, 106, rfl⟩
abbrev main_call1_v4 : Ref sig .tc := ⟨.hbm, 107, rfl⟩
abbrev main_call1_v5 : Ref sig .tc := ⟨.hbm, 108, rfl⟩
abbrev main_call1_cst_2 : Ref sig .tc := ⟨.hbm, 109, rfl⟩
abbrev main_call1_v6 : Ref sig .tc := ⟨.hbm, 110, rfl⟩
abbrev main_call1_v7 : Ref sig .tc := ⟨.hbm, 111, rfl⟩
abbrev main_v62 : Ref sig .tc := ⟨.hbm, 112, rfl⟩
abbrev main_v63 : Ref sig .tc := ⟨.hbm, 113, rfl⟩
abbrev main_c_10 : Ref sig .tc := ⟨.hbm, 114, rfl⟩
abbrev main_v64 : Ref sig .tc := ⟨.hbm, 115, rfl⟩
abbrev main_v65 : Ref sig .tc := ⟨.hbm, 116, rfl⟩
abbrev main_c_11 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_cst_12 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_call2_cst : Ref sig .tc := ⟨.hbm, 133, rfl⟩
abbrev main_call2_v0 : Ref sig .tc := ⟨.hbm, 134, rfl⟩
abbrev main_call2_v1 : Ref sig .tc := ⟨.hbm, 135, rfl⟩
abbrev main_call2_cst_0 : Ref sig .tc := ⟨.hbm, 136, rfl⟩
abbrev main_call2_v2 : Ref sig .tc := ⟨.hbm, 137, rfl⟩
abbrev main_call2_v3 : Ref sig .tc := ⟨.hbm, 138, rfl⟩
abbrev main_call2_cst_1 : Ref sig .tc := ⟨.hbm, 139, rfl⟩
abbrev main_call2_call0_v0 : Ref sig .tc := ⟨.hbm, 140, rfl⟩
abbrev main_call2_call0_v1 : Ref sig .tc := ⟨.hbm, 141, rfl⟩
abbrev main_call2_v4 : Ref sig .tc := ⟨.hbm, 142, rfl⟩
abbrev main_call2_v5 : Ref sig .tc := ⟨.hbm, 143, rfl⟩
abbrev main_call2_cst_2 : Ref sig .tc := ⟨.hbm, 144, rfl⟩
abbrev main_call2_v6 : Ref sig .tc := ⟨.hbm, 145, rfl⟩
abbrev main_call2_v7 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_call3_cst : Ref sig .tc := ⟨.hbm, 152, rfl⟩
abbrev main_call3_v0 : Ref sig .tc := ⟨.hbm, 153, rfl⟩
abbrev main_call3_cst_0 : Ref sig .tc := ⟨.hbm, 154, rfl⟩
abbrev main_call3_v1 : Ref sig .tc := ⟨.hbm, 155, rfl⟩
abbrev main_call3_v2 : Ref sig .tc := ⟨.hbm, 156, rfl⟩
abbrev main_call3_v3 : Ref sig .tc := ⟨.hbm, 157, rfl⟩
abbrev main_call3_v4 : Ref sig .tc := ⟨.hbm, 158, rfl⟩
abbrev main_call3_v5 : Ref sig .tc := ⟨.hbm, 159, rfl⟩
abbrev main_call3_v6 : Ref sig .tc := ⟨.hbm, 160, rfl⟩
abbrev main_call3_cst_1 : Ref sig .tc := ⟨.hbm, 161, rfl⟩
abbrev main_call3_v7 : Ref sig .tc := ⟨.hbm, 162, rfl⟩
abbrev main_call3_v8 : Ref sig .tc := ⟨.hbm, 163, rfl⟩
abbrev main_call3_v9 : Ref sig .tc := ⟨.hbm, 164, rfl⟩
abbrev main_call3_v10 : Ref sig .tc := ⟨.hbm, 165, rfl⟩
abbrev main_v85 : Ref sig .tc := ⟨.hbm, 166, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x16_S100000x16_1_0_0_1_n_n_wf : DotDims.WF S100000x128 S128x16 S100000x16 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.KSpec.lean ====
/-
  The idealized kernel's value, stated as whole-array functions.

  The program is a three-layer graph convolution followed by a linear classifier and a log-softmax.  On the host it
  builds the edge lists with self loops (`srcK`, `dstK`), the node degrees (`degK`: how many edges end at a node),
  the symmetric normalisation of an edge, deg(src)^(-1/2) · deg(dst)^(-1/2) (`nrm1K`), and, per layer, the
  aggregation `aggK`: row i of the result is the sum over the edges that end at node i of the source node's row
  scaled by the edge's normalisation.  Between the aggregations run four row-blocked kernels; what each leaves in its
  whole output array is: `G0` a matrix product; `G1` (used twice) bias, ELU, matrix product; `G3` bias, ELU, matrix
  product, bias and a log-softmax along each row.
-/
import proofs.«145280_j30794915512600_1_alg».proof.Proof.Gen.KernelIdeal
import Idealize.ShloMosaic.Lib.ValueIdx
import Idealize.ShloMosaic.PureOps.Ideal

noncomputable section

namespace Cert.KSpec

open Cert.KernelIdeal Cert.KernelIdeal.Facts₀ Idealize.ShloMosaic Idealize.ShloMosaic.ValueIdx

variable {F : FTy → Type} [FloatOps F]

/-! ## The host side: edge lists, degrees, normalisation, aggregation -/

/-- Row 0 of the edge table followed by 0 … N-1: every edge's source, then one self loop per node. -/
def srcK (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- Row 1 of the edge table followed by 0 … N-1: every edge's destination, then the self loops'. -/
def dstK (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- A list of node numbers as gather start indices: a negative number counts from the end (N is added to it). -/
def nidxK (s : IVec S1700000 32) : IVec S1700000x1 32 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- A node's degree: the number of list entries (edges and self loops) whose destination it is. -/
def degK (ei : IVec S2x1600000 32) : FVec F S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (dstK ei))
    (broadcastInDim S1700000 ![] bcast_S_S1700000 (constant S_ .f32 0x3F800000#32))

/-- An edge's normalisation: deg(src)^(-1/2) · deg(dst)^(-1/2). -/
def nrm1K (ei : IVec S2x1600000 32) : FVec F S1700000 .f32 :=
  mulf (Host.gather gather_S100000_S1700000x1_S1700000_n_0_n_n_0_1_1 (Host.rsqrt (degK ei)) (nidxK (srcK ei)))
    (Host.gather gather_S100000_S1700000x1_S1700000_n_0_n_n_0_1_1 (Host.rsqrt (degK ei)) (nidxK (dstK ei)))

/-- One aggregation: row i of the result is the sum, over the list entries whose destination is i, of the source
    node's row of `h` times the entry's normalisation. -/
def aggK (ei : IVec S2x1600000 32) (h : FVec F S100000x128 .f32) : FVec F S100000x128 .f32 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 (dstK ei))
    (mulf (Host.gather gather_S100000x128_S1700000x1_S1700000x128_1_0_n_n_0_1_1128 h (nidxK (srcK ei)))
      (broadcastInDim S1700000x128 ![0, 1] bcast_S1700000x1_S1700000x128_0_1
        (broadcastInDim S1700000x1 ![0] bcast_S1700000_S1700000x1_0 (nrm1K ei))))

/-! ## The four kernels, each as one function of whole arrays (extended reals) -/

/-- ELU as the kernels compute it: a if a > 0, else exp a - 1. -/
def eluS (a : EReal) : EReal :=
  Scalar.select (FloatOps.cmpf (F := Ideal) (φ := .f32) .ogt a (Ideal.ofBits .f32 0x00000000#32)) a
    (Ideal.exp a - Ideal.ofBits .f32 0x3F800000#32)

/-- Kernel 0: the matrix product x · W. -/
def G0 (x : FVec Ideal S100000x128 .f32) (W : FVec Ideal S128x128 .f32) : FVec Ideal S100000x128 .f32 :=
  fun i => ∑ k : Fin 128, x (ix2 (i 0) k) * W (ix2 k (i 1))

/-- Kernels 1 and 2: ELU (a + b) · W, the bias b a one-row matrix added to every row. -/
def G1 (a : FVec Ideal S100000x128 .f32) (b : FVec Ideal S1x128 .f32) (W : FVec Ideal S128x128 .f32) :
    FVec Ideal S100000x128 .f32 :=
  fun i => ∑ k : Fin 128, eluS (a (ix2 (i 0) k) + b (ix2 0 k)) * W (ix2 k (i 1))

/-- Kernel 3's logits at row r: ELU (a + b) · W + c. -/
def logitK (a : FVec Ideal S100000x128 .f32) (b : FVec Ideal S1x128 .f32) (W : FVec Ideal S128x16 .f32)
    (c : FVec Ideal S1x16 .f32) (r : Fin 100000) (j : Fin 16) : EReal :=
  (∑ k : Fin 128, eluS (a (ix2 r k) + b (ix2 0 k)) * W (ix2 k j)) + c (ix2 0 j)

/-- The maximum of sixteen numbers (starting from -∞). -/
def rowMaxK (z : Fin 16 → EReal) : EReal :=
  (Finset.univ : Finset (Fin 16)).fold max (Ideal.ofBits .f32 0xFF800000#32) z

/-- Kernel 3: the log-softmax of the logits along each row, as z - (max + log Σ exp (z - max)). -/
def G3 (a : FVec Ideal S100000x128 .f32) (b : FVec Ideal S1x128 .f32) (W : FVec Ideal S128x16 .f32)
    (c : FVec Ideal S1x16 .f32) : FVec Ideal S100000x16 .f32 :=
  fun i => logitK a b W c (i 0) (i 1)
    - (rowMaxK (logitK a b W c (i 0))
        + Ideal.log (∑ j : Fin 16, Ideal.exp (logitK a b W c (i 0) j - rowMaxK (logitK a b W c (i 0)))))

/-- The whole program: three aggregations between the four kernels. -/
def kerOut (x : FVec Ideal S100000x128 .f32) (ei : IVec S2x1600000 32) (W1 : FVec Ideal S128x128 .f32)
    (b1 : FVec Ideal S128 .f32) (W2 : FVec Ideal S128x128 .f32) (b2 : FVec Ideal S128 .f32)
    (W3 : FVec Ideal S128x128 .f32) (b3 : FVec Ideal S128 .f32) (Wfc : FVec Ideal S128x16 .f32)
    (bfc : FVec Ideal S16 .f32) : FVec Ideal S100000x16 .f32 :=
  G3 (aggK ei (G1 (aggK ei (G1 (aggK ei (G0 x W1)) (shapeCast S1x128 b1 shapeCasts_S128_S1x128) W2))
        (shapeCast S1x128 b2 shapeCasts_S128_S1x128) W3))
    (shapeCast S1x128 b3 shapeCasts_S128_S1x128) Wfc (shapeCast S1x16 bfc shapeCasts_S16_S1x16)

end Cert.KSpec

end
-- ==== Proof.KReg0.lean ====
/-
  Kernel 0 (the matrix product x · W over twenty row blocks of 5000 rows): whatever the arrays hold when the
  kernel is entered, its output array ends at the whole matrix product of the two input arrays.

  The steps.  One block's arithmetic, read at entry (p, q), is the sum over the contracted axis k of
  x0[p, k] · x1[k, q]: narrowing to bf16 is the identity on extended reals, and a contraction into the zero
  accumulator is the bare sum.  At grid point t the left block is rows 5000·t … 5000·t + 4999 of x (all columns),
  the right block is all of W, and the output block is rows 5000·t … 5000·t + 4999 of the result; so what point t
  writes back is block t of the whole product.  Row r lies in the block of point r / 5000, so the twenty blocks
  cover the output array and it ends at the product everywhere.
-/
import proofs.«145280_j30794915512600_1_alg».proof.Proof.Gen.KernelIdeal.Frame
import proofs.«145280_j30794915512600_1_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KReg0

open Cert.KernelIdeal Cert.KernelIdeal.Gen Cert.KSpec
open Idealize.ShloMosaic Idealize.ShloMosaic.TcCoe Idealize.ShloMosaic.ValueIdx Idealize.SL.Sem
open Idealize.ShloMosaic.Pipeline (Dat Cfg Window)

/-! ## The contraction's operand indices, axis by axis

The product contracts axis 1 of the left operand with axis 0 of the right: at output entry j and contraction
position k the left operand is read at (j 0, k) and the right at (k, j 1). -/

/-- The left operand's row is the output's row. -/
theorem lhs_row (j : S5000x128.Idx) (k : dot_S5000x128_S128x128_S5000x128_1_0_0_1_n_n.contr.Idx) :
    (dot_S5000x128_S128x128_S5000x128_1_0_0_1_n_n.lhsIdx j k 0 : ℕ) = j 0 := by
  simp [DotDims.lhsIdx, dot_S5000x128_S128x128_S5000x128_1_0_0_1_n_n]; rfl
/-- The left operand's column is the contraction position. -/
theorem lhs_col (j : S5000x128.Idx) (k : dot_S5000x128_S128x128_S5000x128_1_0_0_1_n_n.contr.Idx) :
    (dot_S5000x128_S128x128_S5000x128_1_0_0_1_n_n.lhsIdx j k 1 : ℕ) = k ⟨0, by decide⟩ :=
  dot_S5000x128_S128x128_S5000x128_1_0_0_1_n_n.lhsIdx_val_of_single rfl j k
/-- The right operand's row is the contraction position. -/
theorem rhs_row (j : S5000x128.Idx) (k : dot_S5000x128_S128x128_S5000x128_1_0_0_1_n_n.contr.Idx) :
    (dot_S5000x128_S128x128_S5000x128_1_0_0_1_n_n.rhsIdx j k 0 : ℕ) = k ⟨0, by decide⟩ :=
  dot_S5000x128_S128x128_S5000x128_1_0_0_1_n_n.rhsIdx_val_of_single rfl j k
/-- The right operand's column is the output's column. -/
theorem rhs_col (j : S5000x128.Idx) (k : dot_S5000x128_S128x128_S5000x128_1_0_0_1_n_n.contr.Idx) :
    (dot_S5000x128_S128x128_S5000x128_1_0_0_1_n_n.rhsIdx j k 1 : ℕ) = j 1 := by
  simp [DotDims.rhsIdx, dot_S5000x128_S128x128_S5000x128_1_0_0_1_n_n]; rfl

/-! ## One block's arithmetic at an entry -/

/-- Entry (p, q) of one block's result is Σ_k x0[p, k] · x1[k, q]: the narrowing to bf16 is the identity on the
    extended reals, the product into the zero accumulator is the sum over the contraction's positions, and those
    positions are the 128 values of the one contracted coordinate. -/
theorem block_product_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  refine (Ideal.matmul_constant_zero_apply dot_S5000x128_S128x128_S5000x128_1_0_0_1_n_n none
    (truncf .bf16 x0 bitsLt_bf16_f32) (truncf .bf16 x1 bitsLt_bf16_f32) (ix2 p q)).trans ?_
  rw [← Equiv.sum_comp (contrEquiv1 dot_S5000x128_S128x128_S5000x128_1_0_0_1_n_n 128 rfl rfl).symm]
  refine Finset.sum_congr rfl fun k _ => ?_
  simp only [truncf_apply]
  have hl : dot_S5000x128_S128x128_S5000x128_1_0_0_1_n_n.lhsIdx (ix2 p q)
      ((contrEquiv1 dot_S5000x128_S128x128_S5000x128_1_0_0_1_n_n 128 rfl rfl).symm k) = ix2 p k := by
    funext a; apply Fin.ext
    match a with
    | ⟨0, _⟩ => exact lhs_row _ _
    | ⟨1, _⟩ => exact (lhs_col _ _).trans (contrEquiv1_symm_val _ 128 rfl rfl k)
  have hr : dot_S5000x128_S128x128_S5000x128_1_0_0_1_n_n.rhsIdx (ix2 p q)
      ((contrEquiv1 dot_S5000x128_S128x128_S5000x128_1_0_0_1_n_n 128 rfl rfl).symm k) = ix2 k q := by
    funext a; apply Fin.ext
    match a with
    | ⟨0, _⟩ => exact (rhs_row _ _).trans (contrEquiv1_symm_val _ 128 rfl rfl k)
    | ⟨1, _⟩ => exact rhs_col _ _
  rw [hl, hr]

/-- A block's result against the whole product: if the left block x0 is rows T·5000 … of X and the right block x1
    is W, then entry j of the block's result is entry i of X · W whenever i is j moved down by T·5000 rows. -/
theorem block_product_eq (x0 : Vec Ideal S5000x128 .f32) (x1 : Vec Ideal S128x128 .f32)
    (X : FVec Ideal S100000x128 .f32) (W : FVec Ideal S128x128 .f32) (T : ℕ)
    (h0 : ∀ (p : Fin 5000) (k : Fin 128) (r : Fin 100000), r.val = T * 5000 + p.val → x0 (ix2 p k) = X (ix2 r k))
    (h1 : ∀ (k q : Fin 128), x1 (ix2 k q) = W (ix2 k q))
    (j : S5000x128.Idx) (i : S100000x128.Idx) (hi0 : (i 0).val = T * 5000 + (j 0).val) (hi1 : (i 1).val = (j 1).val) :
    k0_pay1 x0 x1 j = G0 X W i := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  rw [block_product_apply]
  show _ = ∑ k : Fin 128, X (ix2 r k) * W (ix2 k s)
  obtain rfl : s = q := Fin.ext hi1
  refine Finset.sum_congr rfl fun k _ => ?_
  rw [h0 p k r hi0, h1]

/-! ## Where the blocks sit in the arrays -/

variable (V : (c : Dev nD) → (b : Ref sig .tc) → Buf (Elt Ideal) ((c : Thread nD τ).loc b))

/-- The block origin (0, 0) is the zero offset on both axes. -/
theorem origin_zero : (![0, 0] : Fin 2 → Nat) = fun _ => 0 := funext fun a => by fin_cases a <;> rfl

/-- The three index maps over the twenty points: the left operand's and the output's block row is the point's
    number, every other block coordinate is 0. -/
theorem block_index_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The left block at point t is rows t·5000 … t·5000 + 4999 of x: its entry (p, k) is x[t·5000 + p, k]. -/
theorem x_block_apply (c : Dev nD) (t : Fin cfg0.N) (p : Fin 5000) (k : Fin 128) (r : Fin 100000)
    (hr : r.val = t.val * 5000 + p.val) :
    (iblk0 V c 0 t : Vec Ideal S5000x128 .f32) (ix2 p k) = (V c main_arg0 : S100000x128.Idx → EReal) (ix2 r k) := by
  obtain ⟨e0, e1, -⟩ := block_index_facts t
  unfold iblk0
  rw [View.read_apply]
  show V c main_arg0 _ = V c main_arg0 _
  congr 1
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

/-- The right block at every point is all of W. -/
theorem w_block_apply (c : Dev nD) (t : Fin cfg0.N) (k q : Fin 128) :
    (iblk0 V c 1 t : Vec Ideal S128x128 .f32) (ix2 k q) = (V c main_arg2 : S128x128.Idx → EReal) (ix2 k q) := by
  obtain ⟨-, -, e2, e3, -⟩ := block_index_facts t
  unfold iblk0
  rw [View.read_apply]
  show V c main_arg2 _ = V c main_arg2 _
  congr 1
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-! ## From the blocks to the array -/

/-- What point t writes back is block t of the whole product x · W: the one store fills the staging buffer with
    the block's arithmetic, whose entry j is entry (t·5000 + j 0, j 1) of the product. -/
theorem flushed_eq (c : Dev nD) (t : Fin cfg0.N) :
    (dat0 (F := Ideal) V c).flushed 2 t
      = ((cfg0.win 2).blk t).view.read (Elt Ideal) (G0 (V c main_arg0) (V c main_arg2)) := by
  show (cfg0.win 2).cut (grid0.coords t) ((dat0 V c).after 2 t) = _
  rw [after0_2]
  unfold out0_2
  rw [View.canon_unit_zero origin_zero]
  simp only [View.ld_unit_zero (S := S5000x128) origin_zero, View.ld_unit_zero (S := S128x128) origin_zero]
  obtain ⟨-, -, -, -, e4, e5⟩ := block_index_facts t
  funext j
  refine block_product_eq (iblk0 V c 0 t) (iblk0 V c 1 t) (V c main_arg0) (V c main_arg2) t.val
    (fun p k r hr => x_block_apply V c t p k r hr) (fun k q => w_block_apply V c t k q) j (((cfg0.win 2).blk t).view.emb j) ?_ ?_
  · show win0_2.index t (0 : Fin 2) * 5000 + 1 * (j 0).val = t.val * 5000 + (j 0).val; omega
  · show win0_2.index t (1 : Fin 2) * 128 + 1 * (j 1).val = (j 1).val; omega

/-- An index of the output array is in point t's block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v28).slice (win0_2.rect t)).set ↔ _
  rw [View.set_slice_whole, Rect.mem_set_unit]
  exact Iff.rfl

/-- Every index of the output array is in some point's block: row r is in the block of point r / 5000, and every
    block spans all 128 columns. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, e4, e5⟩ := block_index_facts t
  have ht : t.val = (i 0).val / 5000 := rfl
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the twenty grid points the output array holds G0 of the two input arrays as the kernel found them. -/
theorem final0 (c : Dev nD) :
    (dat0 (F := Ideal) V c).arrAt 2 cfg0.N = G0 (V c main_arg0) (V c main_arg2) := by
  exact (dat0 (F := Ideal) V c).arrAt_eq_of_cover 2 (G0 (V c main_arg0) (V c main_arg2)) (fun t _ => flushed_eq V c t) covered

end Cert.KReg0

end
-- ==== Proof.KReg1.lean ====
/-
  Kernel 1 (bias, ELU, matrix product over twenty row blocks): whatever the arrays hold when the kernel is
  entered, its output array ends at G1 of the three input arrays.
-/
import proofs.«145280_j30794915512600_1_alg».proof.Proof.Gen.KernelIdeal.Frame
import proofs.«145280_j30794915512600_1_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KReg1

open Cert.KernelIdeal Cert.KernelIdeal.Gen Cert.KSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's arithmetic at one entry of a block -/

/-- A block is stored and loaded from its origin: both offsets are zero. -/
theorem zero_offsets : (![0, 0] : Fin 2 → Nat) = fun _ => 0 := funext fun a => by fin_cases a <;> rfl

/-- The matrix product's left operand is read at the output's row and the contraction's position, -/
theorem lhs_rows (j : S5000x128.Idx) (k : dot_S5000x128_S128x128_S5000x128_1_0_0_1_n_n.contr.Idx) :
    (dot_S5000x128_S128x128_S5000x128_1_0_0_1_n_n.lhsIdx j k 0 : ℕ) = j 0 := by
  simp [DotDims.lhsIdx, dot_S5000x128_S128x128_S5000x128_1_0_0_1_n_n]; rfl
theorem lhs_cols (j : S5000x128.Idx) (k : dot_S5000x128_S128x128_S5000x128_1_0_0_1_n_n.contr.Idx) :
    (dot_S5000x128_S128x128_S5000x128_1_0_0_1_n_n.lhsIdx j k 1 : ℕ) = k ⟨0, by decide⟩ := by
  simp [DotDims.lhsIdx, dot_S5000x128_S128x128_S5000x128_1_0_0_1_n_n]; rfl
/-- and its right operand at the contraction's position and the output's column. -/
theorem rhs_rows (j : S5000x128.Idx) (k : dot_S5000x128_S128x128_S5000x128_1_0_0_1_n_n.contr.Idx) :
    (dot_S5000x128_S128x128_S5000x128_1_0_0_1_n_n.rhsIdx j k 0 : ℕ) = k ⟨0, by decide⟩ := by
  simp [DotDims.rhsIdx, dot_S5000x128_S128x128_S5000x128_1_0_0_1_n_n]; rfl
theorem rhs_cols (j : S5000x128.Idx) (k : dot_S5000x128_S128x128_S5000x128_1_0_0_1_n_n.contr.Idx) :
    (dot_S5000x128_S128x128_S5000x128_1_0_0_1_n_n.rhsIdx j k 1 : ℕ) = j 1 := by
  simp [DotDims.rhsIdx, dot_S5000x128_S128x128_S5000x128_1_0_0_1_n_n]; rfl

/-- Before the activation, entry (p, k) is the block's entry plus the bias row's entry of column k: the
    bias, one row, is repeated down the block's rows. -/
theorem preact_apply (x0 : Vec Ideal S5000x128 .f32) (x2 : Vec Ideal S1x128 .f32) (p : Fin 5000) (k : Fin 128) :
    addf (F := Ideal) (s := S5000x128) (φ := .f32) (shapeCast S5000x128 x0 shapeCasts_S5000x128_S5000x128)
        (broadcastTo S5000x128 (shapeCast S1x128 x2 shapeCasts_S1x128_S1x128) broadcasts_S1x128_S5000x128) (ix2 p k)
      = x0 (ix2 p k) + x2 (ix2 (0 : Fin 1) k) := by
  rw [addf_apply, shapeCast_self, shapeCast_self, broadcastTo_1b_ab_apply]

/-- The activation, entry by entry: v where v > 0, exp v - 1 elsewhere; the change of number format that
    follows is the identity on extended reals. -/
theorem elu_apply (v : FVec Ideal S5000x128 .f32) (i : S5000x128.Idx) :
    (truncf .bf16 (select (cmpf .ogt v (broadcast S5000x128 (Scalar.ofBits .f32 0x00000000#32))) v
        (subf (exp v) (broadcast S5000x128 (Scalar.ofBits .f32 0x3F800000#32)))) bitsLt_bf16_f32 : FVec Ideal S5000x128 .bf16) i
      = eluS (v i) := rfl

/-- The body's result at entry (p, q) of a block: the sum over k of ELU (x0[p, k] + x2[0, k]) · x13[k, q].
    The product accumulates into zero, and its contraction runs over one axis of 128 positions. -/
theorem payload_apply (x0 : Vec Ideal S5000x128 .f32) (x2 : Vec Ideal S1x128 .f32) (x13 : Vec Ideal S128x128 .f32)
    (p : Fin 5000) (q : Fin 128) :
    k1_pay1 (F := Ideal) x0 x2 x13 (ix2 p q)
      = ∑ k : Fin 128, eluS (x0 (ix2 p k) + x2 (ix2 (0 : Fin 1) k)) * x13 (ix2 k q) := by
  unfold k1_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have hl : dot_S5000x128_S128x128_S5000x128_1_0_0_1_n_n.lhsIdx (ix2 p q)
      ((contrEquiv1 dot_S5000x128_S128x128_S5000x128_1_0_0_1_n_n 128 rfl rfl).symm k) = ix2 p k := by
    funext a; apply Fin.ext
    match a with
    | ⟨0, _⟩ => exact lhs_rows _ _
    | ⟨1, _⟩ => exact (lhs_cols _ _).trans hk
  have hr : dot_S5000x128_S128x128_S5000x128_1_0_0_1_n_n.rhsIdx (ix2 p q)
      ((contrEquiv1 dot_S5000x128_S128x128_S5000x128_1_0_0_1_n_n 128 rfl rfl).symm k) = ix2 k q := by
    funext a; apply Fin.ext
    match a with
    | ⟨0, _⟩ => exact (rhs_rows _ _).trans hk
    | ⟨1, _⟩ => exact rhs_cols _ _
  rw [hl, hr, elu_apply, preact_apply]
  rfl

/-- So a block's entry (p, q) is G1's entry (r, q) as soon as the block's row p holds row r of the first array,
    the bias block is the bias and the weight block is the weights. -/
theorem payload_eq_G (a : FVec Ideal S100000x128 .f32) (b : FVec Ideal S1x128 .f32) (W : FVec Ideal S128x128 .f32)
    (x0 : Vec Ideal S5000x128 .f32) (x2 : Vec Ideal S1x128 .f32) (x13 : Vec Ideal S128x128 .f32)
    (p : Fin 5000) (q : Fin 128) (r : Fin 100000)
    (hx0 : ∀ k : Fin 128, x0 (ix2 p k) = a (ix2 r k))
    (hx2 : ∀ k : Fin 128, x2 (ix2 (0 : Fin 1) k) = b (ix2 (0 : Fin 1) k))
    (hx13 : ∀ k : Fin 128, x13 (ix2 k q) = W (ix2 k q)) :
    k1_pay1 (F := Ideal) x0 x2 x13 (ix2 p q) = G1 a b W (ix2 r q) := by
  rw [payload_apply]
  show _ = ∑ k : Fin 128, eluS (a (ix2 r k) + b (ix2 (0 : Fin 1) k)) * W (ix2 k q)
  exact Finset.sum_congr rfl fun k _ => by rw [hx0, hx2, hx13]

/-! ## From blocks to the array -/

/-- The index maps over the twenty points: the first input and the output are at block (t, 0), the bias and the
    weights at block (0, 0). -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- The first input's block at point t, row p, is row 5000·t + p of its array. -/
theorem rows_block (c : Dev nD) (t : Fin cfg1.N) (p : Fin 5000) (k : Fin 128) (r : Fin 100000)
    (hr : r.val = t.val * 5000 + p.val) :
    (iblk1 V c 0 t : Vec Ideal S5000x128 .f32) (ix2 p k) = (V c main_v40 : S100000x128.Idx → EReal) (ix2 r k) := by
  obtain ⟨ha, hb, -⟩ := idx_facts t
  unfold iblk1
  rw [View.read_apply]
  show V c main_v40 _ = V c main_v40 _
  congr 1
  funext a
  apply Fin.ext
  match a with
  | ⟨0, _⟩ => show win1_0.index t (0 : Fin 2) * 5000 + 1 * p.val = r.val; rw [ha, hr]; omega
  | ⟨1, _⟩ => show win1_0.index t (1 : Fin 2) * 128 + 1 * k.val = k.val; rw [hb]; omega

/-- The bias's block at every point is the whole one-row array. -/
theorem bias_block (c : Dev nD) (t : Fin cfg1.N) (k : Fin 128) :
    (iblk1 V c 1 t : Vec Ideal S1x128 .f32) (ix2 (0 : Fin 1) k) = (V c main_v41 : S1x128.Idx → EReal) (ix2 (0 : Fin 1) k) := by
  obtain ⟨-, -, ha, hb, -⟩ := idx_facts t
  unfold iblk1
  rw [View.read_apply]
  show V c main_v41 _ = V c main_v41 _
  congr 1
  funext a
  apply Fin.ext
  match a with
  | ⟨0, _⟩ => show win1_1.index t (0 : Fin 2) * 1 + 1 * 0 = 0; rw [ha]
  | ⟨1, _⟩ => show win1_1.index t (1 : Fin 2) * 128 + 1 * k.val = k.val; rw [hb]; omega

/-- The weights' block at every point is the whole weight array. -/
theorem weight_block (c : Dev nD) (t : Fin cfg1.N) (k : Fin 128) (q : Fin 128) :
    (iblk1 V c 2 t : Vec Ideal S128x128 .f32) (ix2 k q) = (V c main_arg4 : S128x128.Idx → EReal) (ix2 k q) := by
  obtain ⟨-, -, -, -, ha, hb, -⟩ := idx_facts t
  unfold iblk1
  rw [View.read_apply]
  show V c main_arg4 _ = V c main_arg4 _
  congr 1
  funext a
  apply Fin.ext
  match a with
  | ⟨0, _⟩ => show win1_2.index t (0 : Fin 2) * 128 + 1 * k.val = k.val; rw [ha]; omega
  | ⟨1, _⟩ => show win1_2.index t (1 : Fin 2) * 128 + 1 * q.val = q.val; rw [hb]; omega

/-- What point t writes back is block t of G1 of the three arrays as the kernel found them: rows
    5000·t … 5000·t + 4999, every column. -/
theorem flushed_eq (c : Dev nD) (t : Fin cfg1.N) :
    (dat1 (F := Ideal) V c).flushed 3 t
      = ((cfg1.win 3).blk t).view.read (Elt Ideal) (G1 (V c main_v40) (V c main_v41) (V c main_arg4)) := by
  show (cfg1.win 3).cut (grid1.coords t) ((dat1 (F := Ideal) V c).after 3 t) = _
  rw [after1_3]
  unfold out1_3
  rw [View.canon_unit_zero zero_offsets]
  simp only [View.ld_unit_zero (S := S5000x128) zero_offsets, View.ld_unit_zero (S := S1x128) zero_offsets,
    View.ld_unit_zero (S := S128x128) zero_offsets]
  obtain ⟨-, -, -, -, -, -, ha, hb⟩ := idx_facts t
  funext j
  have ht : t.val < 20 := t.isLt
  have hp : (j 0).val < 5000 := (j 0).isLt
  have hq : (j 1).val < 128 := (j 1).isLt
  have hj : (cfg1.win 3).xinj (grid1.coords t) j = ix2 (⟨(j 0).val, hp⟩ : Fin 5000) (⟨(j 1).val, hq⟩ : Fin 128) := by
    funext a
    match a with
    | ⟨0, _⟩ => rfl
    | ⟨1, _⟩ => rfl
  have hi : ((cfg1.win 3).blk t).view.emb j
      = ix2 (⟨t.val * 5000 + (j 0).val, by omega⟩ : Fin 100000) (⟨(j 1).val, hq⟩ : Fin 128) := by
    funext a
    apply Fin.ext
    match a with
    | ⟨0, _⟩ => show win1_3.index t (0 : Fin 2) * 5000 + 1 * (j 0).val = t.val * 5000 + (j 0).val; rw [ha]; omega
    | ⟨1, _⟩ => show win1_3.index t (1 : Fin 2) * 128 + 1 * (j 1).val = (j 1).val; rw [hb]; omega
  rw [View.read_apply]
  exact (congrArg (k1_pay1 (F := Ideal) (iblk1 V c 0 t) (iblk1 V c 1 t) (iblk1 V c 2 t)) hj).trans
    ((payload_eq_G (V c main_v40) (V c main_v41) (V c main_arg4) (iblk1 V c 0 t) (iblk1 V c 1 t) (iblk1 V c 2 t)
        ⟨(j 0).val, hp⟩ ⟨(j 1).val, hq⟩ ⟨t.val * 5000 + (j 0).val, by omega⟩
        (fun k => rows_block V c t _ k _ rfl) (fun k => bias_block V c t k) (fun k => weight_block V c t k _)).trans
      (congrArg (G1 (V c main_v40) (V c main_v41) (V c main_arg4)) hi.symm))

/-- An index of the output array is in point t's block iff each coordinate is in the block's range on its axis. -/
theorem mem_blk (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v42).slice (win1_3.rect t)).set ↔ _
  rw [View.set_slice_whole, Rect.mem_set_unit]
  exact Iff.rfl

/-- The twenty blocks of 5000 rows fill the 100000 rows: row r is in the block of point r / 5000. -/
theorem cover (i : S100000x128.Idx) :
    ∃ t : Fin cfg1.N, (cfg1.win 3).flush t = true ∧ i ∈ ((cfg1.win 3).blk t).view.set := by
  have hr : (i 0).val < 100000 := (i 0).isLt
  have hs : (i 1).val < 128 := (i 1).isLt
  refine ⟨⟨(i 0).val / 5000, by show (i 0).val / 5000 < 20; omega⟩, flush1_3 _, ?_⟩
  obtain ⟨-, -, -, -, -, -, ha, hb⟩ := idx_facts ⟨(i 0).val / 5000, by show (i 0).val / 5000 < 20; omega⟩
  rw [mem_blk]
  intro a
  match a with
  | ⟨0, _⟩ =>
    show win1_3.index ⟨(i 0).val / 5000, _⟩ (0 : Fin 2) * 5000 ≤ (i 0).val
      ∧ (i 0).val < win1_3.index ⟨(i 0).val / 5000, _⟩ (0 : Fin 2) * 5000 + 5000
    rw [ha]; show (i 0).val / 5000 * 5000 ≤ (i 0).val ∧ (i 0).val < (i 0).val / 5000 * 5000 + 5000; omega
  | ⟨1, _⟩ =>
    show win1_3.index ⟨(i 0).val / 5000, _⟩ (1 : Fin 2) * 128 ≤ (i 1).val
      ∧ (i 1).val < win1_3.index ⟨(i 0).val / 5000, _⟩ (1 : Fin 2) * 128 + 128
    rw [hb]; omega

/-- After the twenty grid points the output array holds G1 of the three input arrays as the kernel found them. -/
theorem final1 (c : Dev nD) :
    (dat1 (F := Ideal) V c).arrAt 3 cfg1.N = G1 (V c main_v40) (V c main_v41) (V c main_arg4) :=
  (dat1 (F := Ideal) V c).arrAt_eq_of_cover 3 (G1 (V c main_v40) (V c main_v41) (V c main_arg4))
    (fun t _ => flushed_eq V c t) cover

end Cert.KReg1

end
-- ==== Proof.KReg2.lean ====
/-
  Kernel 2 (bias, ELU, matrix product over twenty row blocks): whatever the arrays hold when the kernel is
  entered, its output array ends at G1 of the three input arrays.
-/
import proofs.«145280_j30794915512600_1_alg».proof.Proof.Gen.KernelIdeal.Frame
import proofs.«145280_j30794915512600_1_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KReg2

open Cert.KernelIdeal Cert.KernelIdeal.Gen Cert.KSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's arithmetic at one entry of a block -/

/-- A block is stored and loaded from its origin: both offsets are zero. -/
theorem zero_offsets : (![0, 0] : Fin 2 → Nat) = fun _ => 0 := funext fun a => by fin_cases a <;> rfl

/-- The matrix product's left operand is read at the output's row and the contraction's position, -/
theorem lhs_rows (j : S5000x128.Idx) (k : dot_S5000x128_S128x128_S5000x128_1_0_0_1_n_n.contr.Idx) :
    (dot_S5000x128_S128x128_S5000x128_1_0_0_1_n_n.lhsIdx j k 0 : ℕ) = j 0 := by
  simp [DotDims.lhsIdx, dot_S5000x128_S128x128_S5000x128_1_0_0_1_n_n]; rfl
theorem lhs_cols (j : S5000x128.Idx) (k : dot_S5000x128_S128x128_S5000x128_1_0_0_1_n_n.contr.Idx) :
    (dot_S5000x128_S128x128_S5000x128_1_0_0_1_n_n.lhsIdx j k 1 : ℕ) = k ⟨0, by decide⟩ := by
  simp [DotDims.lhsIdx, dot_S5000x128_S128x128_S5000x128_1_0_0_1_n_n]; rfl
/-- and its right operand at the contraction's position and the output's column. -/
theorem rhs_rows (j : S5000x128.Idx) (k : dot_S5000x128_S128x128_S5000x128_1_0_0_1_n_n.contr.Idx) :
    (dot_S5000x128_S128x128_S5000x128_1_0_0_1_n_n.rhsIdx j k 0 : ℕ) = k ⟨0, by decide⟩ := by
  simp [DotDims.rhsIdx, dot_S5000x128_S128x128_S5000x128_1_0_0_1_n_n]; rfl
theorem rhs_cols (j : S5000x128.Idx) (k : dot_S5000x128_S128x128_S5000x128_1_0_0_1_n_n.contr.Idx) :
    (dot_S5000x128_S128x128_S5000x128_1_0_0_1_n_n.rhsIdx j k 1 : ℕ) = j 1 := by
  simp [DotDims.rhsIdx, dot_S5000x128_S128x128_S5000x128_1_0_0_1_n_n]; rfl

/-- Before the activation, entry (p, k) is the block's entry plus the bias row's entry of column k: the
    bias, one row, is repeated down the block's rows. -/
theorem preact_apply (x0 : Vec Ideal S5000x128 .f32) (x2 : Vec Ideal S1x128 .f32) (p : Fin 5000) (k : Fin 128) :
    addf (F := Ideal) (s := S5000x128) (φ := .f32) (shapeCast S5000x128 x0 shapeCasts_S5000x128_S5000x128)
        (broadcastTo S5000x128 (shapeCast S1x128 x2 shapeCasts_S1x128_S1x128) broadcasts_S1x128_S5000x128) (ix2 p k)
      = x0 (ix2 p k) + x2 (ix2 (0 : Fin 1) k) := by
  rw [addf_apply, shapeCast_self, shapeCast_self, broadcastTo_1b_ab_apply]

/-- The activation, entry by entry: v where v > 0, exp v - 1 elsewhere; the change of number format that
    follows is the identity on extended reals. -/
theorem elu_apply (v : FVec Ideal S5000x128 .f32) (i : S5000x128.Idx) :
    (truncf .bf16 (select (cmpf .ogt v (broadcast S5000x128 (Scalar.ofBits .f32 0x00000000#32))) v
        (subf (exp v) (broadcast S5000x128 (Scalar.ofBits .f32 0x3F800000#32)))) bitsLt_bf16_f32 : FVec Ideal S5000x128 .bf16) i
      = eluS (v i) := rfl

/-- The body's result at entry (p, q) of a block: the sum over k of ELU (x0[p, k] + x2[0, k]) · x13[k, q].
    The product accumulates into zero, and its contraction runs over one axis of 128 positions. -/
theorem payload_apply (x0 : Vec Ideal S5000x128 .f32) (x2 : Vec Ideal S1x128 .f32) (x13 : Vec Ideal S128x128 .f32)
    (p : Fin 5000) (q : Fin 128) :
    k2_pay1 (F := Ideal) x0 x2 x13 (ix2 p q)
      = ∑ k : Fin 128, eluS (x0 (ix2 p k) + x2 (ix2 (0 : Fin 1) k)) * x13 (ix2 k q) := by
  unfold k2_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have hl : dot_S5000x128_S128x128_S5000x128_1_0_0_1_n_n.lhsIdx (ix2 p q)
      ((contrEquiv1 dot_S5000x128_S128x128_S5000x128_1_0_0_1_n_n 128 rfl rfl).symm k) = ix2 p k := by
    funext a; apply Fin.ext
    match a with
    | ⟨0, _⟩ => exact lhs_rows _ _
    | ⟨1, _⟩ => exact (lhs_cols _ _).trans hk
  have hr : dot_S5000x128_S128x128_S5000x128_1_0_0_1_n_n.rhsIdx (ix2 p q)
      ((contrEquiv1 dot_S5000x128_S128x128_S5000x128_1_0_0_1_n_n 128 rfl rfl).symm k) = ix2 k q := by
    funext a; apply Fin.ext
    match a with
    | ⟨0, _⟩ => exact (rhs_rows _ _).trans hk
    | ⟨1, _⟩ => exact rhs_cols _ _
  rw [hl, hr, elu_apply, preact_apply]
  rfl

/-- So a block's entry (p, q) is G1's entry (r, q) as soon as the block's row p holds row r of the first array,
    the bias block is the bias and the weight block is the weights. -/
theorem payload_eq_G (a : FVec Ideal S100000x128 .f32) (b : FVec Ideal S1x128 .f32) (W : FVec Ideal S128x128 .f32)
    (x0 : Vec Ideal S5000x128 .f32) (x2 : Vec Ideal S1x128 .f32) (x13 : Vec Ideal S128x128 .f32)
    (p : Fin 5000) (q : Fin 128) (r : Fin 100000)
    (hx0 : ∀ k : Fin 128, x0 (ix2 p k) = a (ix2 r k))
    (hx2 : ∀ k : Fin 128, x2 (ix2 (0 : Fin 1) k) = b (ix2 (0 : Fin 1) k))
    (hx13 : ∀ k : Fin 128, x13 (ix2 k q) = W (ix2 k q)) :
    k2_pay1 (F := Ideal) x0 x2 x13 (ix2 p q) = G1 a b W (ix2 r q) := by
  rw [payload_apply]
  show _ = ∑ k : Fin 128, eluS (a (ix2 r k) + b (ix2 (0 : Fin 1) k)) * W (ix2 k q)
  exact Finset.sum_congr rfl fun k _ => by rw [hx0, hx2, hx13]

/-! ## From blocks to the array -/

/-- The index maps over the twenty points: the first input and the output are at block (t, 0), the bias and the
    weights at block (0, 0). -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- The first input's block at point t, row p, is row 5000·t + p of its array. -/
theorem rows_block (c : Dev nD) (t : Fin cfg2.N) (p : Fin 5000) (k : Fin 128) (r : Fin 100000)
    (hr : r.val = t.val * 5000 + p.val) :
    (iblk2 V c 0 t : Vec Ideal S5000x128 .f32) (ix2 p k) = (V c main_v54 : S100000x128.Idx → EReal) (ix2 r k) := by
  obtain ⟨ha, hb, -⟩ := idx_facts t
  unfold iblk2
  rw [View.read_apply]
  show V c main_v54 _ = V c main_v54 _
  congr 1
  funext a
  apply Fin.ext
  match a with
  | ⟨0, _⟩ => show win2_0.index t (0 : Fin 2) * 5000 + 1 * p.val = r.val; rw [ha, hr]; omega
  | ⟨1, _⟩ => show win2_0.index t (1 : Fin 2) * 128 + 1 * k.val = k.val; rw [hb]; omega

/-- The bias's block at every point is the whole one-row array. -/
theorem bias_block (c : Dev nD) (t : Fin cfg2.N) (k : Fin 128) :
    (iblk2 V c 1 t : Vec Ideal S1x128 .f32) (ix2 (0 : Fin 1) k) = (V c main_v55 : S1x128.Idx → EReal) (ix2 (0 : Fin 1) k) := by
  obtain ⟨-, -, ha, hb, -⟩ := idx_facts t
  unfold iblk2
  rw [View.read_apply]
  show V c main_v55 _ = V c main_v55 _
  congr 1
  funext a
  apply Fin.ext
  match a with
  | ⟨0, _⟩ => show win2_1.index t (0 : Fin 2) * 1 + 1 * 0 = 0; rw [ha]
  | ⟨1, _⟩ => show win2_1.index t (1 : Fin 2) * 128 + 1 * k.val = k.val; rw [hb]; omega

/-- The weights' block at every point is the whole weight array. -/
theorem weight_block (c : Dev nD) (t : Fin cfg2.N) (k : Fin 128) (q : Fin 128) :
    (iblk2 V c 2 t : Vec Ideal S128x128 .f32) (ix2 k q) = (V c main_arg6 : S128x128.Idx → EReal) (ix2 k q) := by
  obtain ⟨-, -, -, -, ha, hb, -⟩ := idx_facts t
  unfold iblk2
  rw [View.read_apply]
  show V c main_arg6 _ = V c main_arg6 _
  congr 1
  funext a
  apply Fin.ext
  match a with
  | ⟨0, _⟩ => show win2_2.index t (0 : Fin 2) * 128 + 1 * k.val = k.val; rw [ha]; omega
  | ⟨1, _⟩ => show win2_2.index t (1 : Fin 2) * 128 + 1 * q.val = q.val; rw [hb]; omega

/-- What point t writes back is block t of G1 of the three arrays as the kernel found them: rows
    5000·t … 5000·t + 4999, every column. -/
theorem flushed_eq (c : Dev nD) (t : Fin cfg2.N) :
    (dat2 (F := Ideal) V c).flushed 3 t
      = ((cfg2.win 3).blk t).view.read (Elt Ideal) (G1 (V c main_v54) (V c main_v55) (V c main_arg6)) := by
  show (cfg2.win 3).cut (grid2.coords t) ((dat2 (F := Ideal) V c).after 3 t) = _
  rw [after2_3]
  unfold out2_3
  rw [View.canon_unit_zero zero_offsets]
  simp only [View.ld_unit_zero (S := S5000x128) zero_offsets, View.ld_unit_zero (S := S1x128) zero_offsets,
    View.ld_unit_zero (S := S128x128) zero_offsets]
  obtain ⟨-, -, -, -, -, -, ha, hb⟩ := idx_facts t
  funext j
  have ht : t.val < 20 := t.isLt
  have hp : (j 0).val < 5000 := (j 0).isLt
  have hq : (j 1).val < 128 := (j 1).isLt
  have hj : (cfg2.win 3).xinj (grid2.coords t) j = ix2 (⟨(j 0).val, hp⟩ : Fin 5000) (⟨(j 1).val, hq⟩ : Fin 128) := by
    funext a
    match a with
    | ⟨0, _⟩ => rfl
    | ⟨1, _⟩ => rfl
  have hi : ((cfg2.win 3).blk t).view.emb j
      = ix2 (⟨t.val * 5000 + (j 0).val, by omega⟩ : Fin 100000) (⟨(j 1).val, hq⟩ : Fin 128) := by
    funext a
    apply Fin.ext
    match a with
    | ⟨0, _⟩ => show win2_3.index t (0 : Fin 2) * 5000 + 1 * (j 0).val = t.val * 5000 + (j 0).val; rw [ha]; omega
    | ⟨1, _⟩ => show win2_3.index t (1 : Fin 2) * 128 + 1 * (j 1).val = (j 1).val; rw [hb]; omega
  rw [View.read_apply]
  exact (congrArg (k2_pay1 (F := Ideal) (iblk2 V c 0 t) (iblk2 V c 1 t) (iblk2 V c 2 t)) hj).trans
    ((payload_eq_G (V c main_v54) (V c main_v55) (V c main_arg6) (iblk2 V c 0 t) (iblk2 V c 1 t) (iblk2 V c 2 t)
        ⟨(j 0).val, hp⟩ ⟨(j 1).val, hq⟩ ⟨t.val * 5000 + (j 0).val, by omega⟩
        (fun k => rows_block V c t _ k _ rfl) (fun k => bias_block V c t k) (fun k => weight_block V c t k _)).trans
      (congrArg (G1 (V c main_v54) (V c main_v55) (V c main_arg6)) hi.symm))

/-- An index of the output array is in point t's block iff each coordinate is in the block's range on its axis. -/
theorem mem_blk (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v56).slice (win2_3.rect t)).set ↔ _
  rw [View.set_slice_whole, Rect.mem_set_unit]
  exact Iff.rfl

/-- The twenty blocks of 5000 rows fill the 100000 rows: row r is in the block of point r / 5000. -/
theorem cover (i : S100000x128.Idx) :
    ∃ t : Fin cfg2.N, (cfg2.win 3).flush t = true ∧ i ∈ ((cfg2.win 3).blk t).view.set := by
  have hr : (i 0).val < 100000 := (i 0).isLt
  have hs : (i 1).val < 128 := (i 1).isLt
  refine ⟨⟨(i 0).val / 5000, by show (i 0).val / 5000 < 20; omega⟩, flush2_3 _, ?_⟩
  obtain ⟨-, -, -, -, -, -, ha, hb⟩ := idx_facts ⟨(i 0).val / 5000, by show (i 0).val / 5000 < 20; omega⟩
  rw [mem_blk]
  intro a
  match a with
  | ⟨0, _⟩ =>
    show win2_3.index ⟨(i 0).val / 5000, _⟩ (0 : Fin 2) * 5000 ≤ (i 0).val
      ∧ (i 0).val < win2_3.index ⟨(i 0).val / 5000, _⟩ (0 : Fin 2) * 5000 + 5000
    rw [ha]; show (i 0).val / 5000 * 5000 ≤ (i 0).val ∧ (i 0).val < (i 0).val / 5000 * 5000 + 5000; omega
  | ⟨1, _⟩ =>
    show win2_3.index ⟨(i 0).val / 5000, _⟩ (1 : Fin 2) * 128 ≤ (i 1).val
      ∧ (i 1).val < win2_3.index ⟨(i 0).val / 5000, _⟩ (1 : Fin 2) * 128 + 128
    rw [hb]; omega

/-- After the twenty grid points the output array holds G1 of the three input arrays as the kernel found them. -/
theorem final2 (c : Dev nD) :
    (dat2 (F := Ideal) V c).arrAt 3 cfg2.N = G1 (V c main_v54) (V c main_v55) (V c main_arg6) :=
  (dat2 (F := Ideal) V c).arrAt_eq_of_cover 3 (G1 (V c main_v54) (V c main_v55) (V c main_arg6))
    (fun t _ => flushed_eq V c t) cover

end Cert.KReg2

end
-- ==== Proof.KReg3.lean ====
/-
  Kernel 3 (bias, ELU, matrix product, bias, log-softmax over twenty row blocks): whatever the arrays hold when
  the kernel is entered, its output array ends at G3 of the four input arrays.
-/
import proofs.«145280_j30794915512600_1_alg».proof.Proof.Gen.KernelIdeal.Frame
import proofs.«145280_j30794915512600_1_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KReg3

open Cert.KernelIdeal Cert.KernelIdeal.Gen Cert.KSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The logits of one block, as the body computes them. -/
def logitsBlk (x0 : FVec Ideal S5000x128 .f32) (x1 : FVec Ideal S1x128 .f32) (x2 : FVec Ideal S128x16 .f32)
    (x3 : FVec Ideal S1x16 .f32) : FVec Ideal S5000x16 .f32 :=
  have v1 : FVec Ideal S5000x128 .f32 := shapeCast S5000x128 x0 shapeCasts_S5000x128_S5000x128
  have v3 : FVec Ideal S1x128 .f32 := shapeCast S1x128 x1 shapeCasts_S1x128_S1x128
  have v4 : FVec Ideal S5000x128 .f32 := broadcastTo S5000x128 v3 broadcasts_S1x128_S5000x128
  have v5 : FVec Ideal S5000x128 .f32 := addf v1 v4
  have cst : Ideal .f32 := Scalar.ofBits .f32 0x00000000#32
  have v6 : FVec Ideal S5000x128 .f32 := broadcast S5000x128 cst
  have v7 : IVec S5000x128 1 := cmpf .ogt v5 v6
  have v8 : FVec Ideal S5000x128 .f32 := exp v5
  have cst_3 : Ideal .f32 := Scalar.ofBits .f32 0x3F800000#32
  have v9 : FVec Ideal S5000x128 .f32 := broadcast S5000x128 cst_3
  have v10 : FVec Ideal S5000x128 .f32 := subf v8 v9
  have v11 : FVec Ideal S5000x128 .f32 := select v7 v5 v10
  have v12 : FVec Ideal S5000x128 .bf16 := truncf .bf16 v11 bitsLt_bf16_f32
  have v14 : FVec Ideal S128x16 .bf16 := truncf .bf16 x2 bitsLt_bf16_f32
  have cst_6 : FVec Ideal S5000x16 .f32 := constant S5000x16 .f32 0x00000000#32
  have v15 : FVec Ideal S5000x16 .f32 := matmul dot_S5000x128_S128x16_S5000x16_1_0_0_1_n_n none v12 v14 cst_6
  have v17 : FVec Ideal S1x16 .f32 := shapeCast S1x16 x3 shapeCasts_S1x16_S1x16
  have v18 : FVec Ideal S5000x16 .f32 := broadcastTo S5000x16 v17 broadcasts_S1x16_S5000x16
  addf v15 v18

/-- The log-softmax along the rows of a block of logits, as the body computes it. -/
def lsmBlk (v19 : FVec Ideal S5000x16 .f32) : FVec Ideal S5000x16 .f32 :=
  have v20 : FVec Ideal S5000 .f32 := multiReduction .maximumf [1] S5000 v19 0xFF800000#32 reduces_S5000x16_S5000 (.inl rfl) rfl
  have v21 : FVec Ideal S5000x1 .f32 := shapeCast S5000x1 v20 shapeCasts_S5000_S5000x1
  have v22 : FVec Ideal S5000x16 .f32 := broadcastTo S5000x16 v21 broadcasts_S5000x1_S5000x16
  have v23 : FVec Ideal S5000x16 .f32 := subf v19 v22
  have v24 : FVec Ideal S5000x16 .f32 := exp v23
  have v25 : FVec Ideal S5000 .f32 := multiReduction .add [1] S5000 v24 0x00000000#32 reduces_S5000x16_S5000 (.inl rfl) rfl
  have v26 : FVec Ideal S5000x1 .f32 := shapeCast S5000x1 v25 shapeCasts_S5000_S5000x1
  have v27 : FVec Ideal S5000x1 .f32 := log v26
  have v28 : FVec Ideal S5000x1 .f32 := addf v21 v27
  have v29 : FVec Ideal S5000x16 .f32 := broadcastTo S5000x16 v28 broadcasts_S5000x1_S5000x16
  subf v19 v29

theorem pay_split (x0 : FVec Ideal S5000x128 .f32) (x1 : FVec Ideal S1x128 .f32) (x2 : FVec Ideal S128x16 .f32)
    (x3 : FVec Ideal S1x16 .f32) : k3_pay1 (F := Ideal) x0 x1 x2 x3 = lsmBlk (logitsBlk x0 x1 x2 x3) := rfl

/-! ## Column forms of the layout operations -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two row reductions -/

/-- The row maximum of a block of sixteen columns, at row `p`. -/
theorem rowmax_apply (z : FVec Ideal S5000x16 .f32) (p : Fin 5000) :
    multiReduction (F := Ideal) .maximumf [1] S5000 z 0xFF800000#32 reduces_S5000x16_S5000 (.inl rfl) rfl (ix1 p)
      = rowMaxK (fun j => z (ix2 p j)) := by
  refine (Ideal.multiReduction_maximumf_single z _ reduces_S5000x16_S5000 (.inl rfl) rfl (ix1 p)).trans ?_
  unfold rowMaxK
  have e : (z ∘ reduces_S5000x16_S5000.lift (ix1 p)) = fun j : Fin 16 => z (ix2 p j) := by
    funext k
    show z _ = z _
    congr 1
    funext a
    match a with
    | ⟨0, _⟩ => rfl
    | ⟨1, _⟩ => rfl
  rw [e]
  rfl

/-- The row sum of a block of sixteen columns, at row `p`. -/
theorem rowsum_apply (w : FVec Ideal S5000x16 .f32) (p : Fin 5000) :
    multiReduction (F := Ideal) .add [1] S5000 w 0x00000000#32 reduces_S5000x16_S5000 (.inl rfl) rfl (ix1 p)
      = ∑ j : Fin 16, w (ix2 p j) := by
  refine (Ideal.multiReduction_add_single w _ reduces_S5000x16_S5000 (.inl rfl) rfl (ix1 p)).trans ?_
  refine Finset.sum_congr rfl fun k _ => ?_
  congr 1
  funext a
  match a with
  | ⟨0, _⟩ => rfl
  | ⟨1, _⟩ => rfl

/-! ## The log-softmax of a block of logits, read at an index -/

/-- At `(p, q)` the body's tail is the logit less (row maximum + log of the row's sum of exponentials of the
    shifted logits). -/
theorem lsmBlk_apply (z : FVec Ideal S5000x16 .f32) (p : Fin 5000) (q : Fin 16) :
    lsmBlk z (ix2 p q) = z (ix2 p q)
      - (rowMaxK (fun j => z (ix2 p j))
          + Ideal.log (∑ j : Fin 16, Ideal.exp (z (ix2 p j) - rowMaxK (fun j => z (ix2 p j))))) := by
  unfold lsmBlk
  dsimp only
  rw [subf_apply, broadcastTo_a1_ab_apply, addf_apply, shapeCast_a_a1_apply, rowmax_apply]
  refine congrArg (fun t => z (ix2 p q) - (rowMaxK (fun j => z (ix2 p j)) + t)) ?_
  show Ideal.log (shapeCast S5000x1 _ shapeCasts_S5000_S5000x1 (ix2 p (0 : Fin 1))) = _
  rw [shapeCast_a_a1_apply, rowsum_apply]
  refine congrArg Ideal.log (Finset.sum_congr rfl fun j _ => ?_)
  show Ideal.exp (subf z _ (ix2 p j)) = _
  rw [subf_apply, broadcastTo_a1_ab_apply, shapeCast_a_a1_apply, rowmax_apply]

/-! ## The matrix product's operand indices -/

theorem lhs_axis0 (j : S5000x16.Idx) (k : dot_S5000x128_S128x16_S5000x16_1_0_0_1_n_n.contr.Idx) :
    (dot_S5000x128_S128x16_S5000x16_1_0_0_1_n_n.lhsIdx j k 0).val = (j 0).val := by
  simp [DotDims.lhsIdx, dot_S5000x128_S128x16_S5000x16_1_0_0_1_n_n]; rfl

theorem lhs_axis1 (j : S5000x16.Idx) (k : dot_S5000x128_S128x16_S5000x16_1_0_0_1_n_n.contr.Idx) :
    (dot_S5000x128_S128x16_S5000x16_1_0_0_1_n_n.lhsIdx j k 1).val = (k ⟨0, by decide⟩).val :=
  dot_S5000x128_S128x16_S5000x16_1_0_0_1_n_n.lhsIdx_val_of_single (cl := 1) rfl j k

theorem rhs_axis0 (j : S5000x16.Idx) (k : dot_S5000x128_S128x16_S5000x16_1_0_0_1_n_n.contr.Idx) :
    (dot_S5000x128_S128x16_S5000x16_1_0_0_1_n_n.rhsIdx j k 0).val = (k ⟨0, by decide⟩).val :=
  dot_S5000x128_S128x16_S5000x16_1_0_0_1_n_n.rhsIdx_val_of_single (cr := 0) rfl j k

theorem rhs_axis1 (j : S5000x16.Idx) (k : dot_S5000x128_S128x16_S5000x16_1_0_0_1_n_n.contr.Idx) :
    (dot_S5000x128_S128x16_S5000x16_1_0_0_1_n_n.rhsIdx j k 1).val = (j 1).val := by
  simp [DotDims.rhsIdx, dot_S5000x128_S128x16_S5000x16_1_0_0_1_n_n]; rfl

/-! ## The logits of a block, read at an index -/

/-- The logits of a block at its own row `p`: ELU (block + bias row) · W + the classifier's bias row. -/
def blkLogit (x0 : FVec Ideal S5000x128 .f32) (x1 : FVec Ideal S1x128 .f32) (x2 : FVec Ideal S128x16 .f32)
    (x3 : FVec Ideal S1x16 .f32) (p : Fin 5000) (j : Fin 16) : EReal :=
  (∑ k : Fin 128, eluS (x0 (ix2 p k) + x1 (ix2 0 k)) * x2 (ix2 k j)) + x3 (ix2 0 j)

theorem logitsBlk_apply (x0 : FVec Ideal S5000x128 .f32) (x1 : FVec Ideal S1x128 .f32) (x2 : FVec Ideal S128x16 .f32)
    (x3 : FVec Ideal S1x16 .f32) (p : Fin 5000) (q : Fin 16) :
    logitsBlk x0 x1 x2 x3 (ix2 p q) = blkLogit x0 x1 x2 x3 p q := by
  unfold logitsBlk blkLogit
  try dsimp only
  rw [addf_apply, broadcastTo_1b_ab_apply, shapeCast_self x3]
  refine congrArg (· + x3 (ix2 0 q)) ?_
  refine (Ideal.matmul_constant_zero_apply _ none _ _ (ix2 p q)).trans ?_
  refine ((Equiv.sum_comp (contrEquiv1 dot_S5000x128_S128x16_S5000x16_1_0_0_1_n_n 128 rfl rfl).symm _).symm).trans ?_
  refine Finset.sum_congr rfl fun k _ => ?_
  have hk := contrEquiv1_symm_val dot_S5000x128_S128x16_S5000x16_1_0_0_1_n_n 128 rfl rfl k
  have hl : dot_S5000x128_S128x16_S5000x16_1_0_0_1_n_n.lhsIdx (ix2 p q)
      ((contrEquiv1 dot_S5000x128_S128x16_S5000x16_1_0_0_1_n_n 128 rfl rfl).symm k) = ix2 p k := by
    funext a
    apply Fin.ext
    match a with
    | ⟨0, _⟩ => exact lhs_axis0 _ _
    | ⟨1, _⟩ => exact (lhs_axis1 _ _).trans hk
  have hr : dot_S5000x128_S128x16_S5000x16_1_0_0_1_n_n.rhsIdx (ix2 p q)
      ((contrEquiv1 dot_S5000x128_S128x16_S5000x16_1_0_0_1_n_n 128 rfl rfl).symm k) = ix2 k q := by
    funext a
    apply Fin.ext
    match a with
    | ⟨0, _⟩ => exact (rhs_axis0 _ _).trans hk
    | ⟨1, _⟩ => exact rhs_axis1 _ _
  rw [hl, hr, truncf_apply, truncf_apply, select_apply, cmpf_apply, subf_apply, addf_apply, shapeCast_self, shapeCast_self,
    broadcastTo_1b_ab_apply]
  show Scalar.select _ _ (Ideal.exp (addf x0 _ (ix2 p k)) - _) * _ = _
  rw [addf_apply, broadcastTo_1b_ab_apply]
  rfl

/-! ## The payload at an index -/

/-- What the body stores at `(p, q)` of its block: the log-softmax of the block's logits along row `p`. -/
theorem pay_apply (x0 : FVec Ideal S5000x128 .f32) (x1 : FVec Ideal S1x128 .f32) (x2 : FVec Ideal S128x16 .f32)
    (x3 : FVec Ideal S1x16 .f32) (p : Fin 5000) (q : Fin 16) :
    k3_pay1 (F := Ideal) x0 x1 x2 x3 (ix2 p q) = blkLogit x0 x1 x2 x3 p q
      - (rowMaxK (blkLogit x0 x1 x2 x3 p)
          + Ideal.log (∑ j : Fin 16, Ideal.exp (blkLogit x0 x1 x2 x3 p j - rowMaxK (blkLogit x0 x1 x2 x3 p)))) := by
  rw [pay_split, lsmBlk_apply]
  simp only [logitsBlk_apply]

/-- A block whose rows are rows `n · 5000 + p` of the array `A`, with the three whole operands, stores `G3` of the
    arrays at the global row: the block's logits at its row `p` are the array's at row `n · 5000 + p`. -/
theorem block_value (A : FVec Ideal S100000x128 .f32) (b : FVec Ideal S1x128 .f32) (W : FVec Ideal S128x16 .f32)
    (cb : FVec Ideal S1x16 .f32) (x0 : FVec Ideal S5000x128 .f32) (x1 : FVec Ideal S1x128 .f32)
    (x2 : FVec Ideal S128x16 .f32) (x3 : FVec Ideal S1x16 .f32) (n : ℕ)
    (h0 : ∀ (p : Fin 5000) (k : Fin 128) (r : Fin 100000), r.val = n * 5000 + p.val → x0 (ix2 p k) = A (ix2 r k))
    (h1 : x1 = b) (h2 : x2 = W) (h3 : x3 = cb)
    (j : S5000x16.Idx) (i : S100000x16.Idx) (hi0 : (i 0).val = n * 5000 + (j 0).val) (hi1 : (i 1).val = (j 1).val) :
    k3_pay1 (F := Ideal) x0 x1 x2 x3 j = G3 A b W cb i := by
  subst h1 h2 h3
  obtain ⟨p, q, rfl⟩ : ∃ (p : Fin 5000) (q : Fin 16), j = ix2 p q := ⟨j 0, j 1, eq_ix2 j⟩
  obtain ⟨r, q', rfl⟩ : ∃ (r : Fin 100000) (q' : Fin 16), i = ix2 r q' := ⟨i 0, i 1, eq_ix2 i⟩
  obtain rfl : q' = q := Fin.ext hi1
  have hL : blkLogit x0 x1 x2 x3 p = logitK A x1 x2 x3 r := funext fun j' => by
    unfold blkLogit logitK
    refine congrArg (· + x3 (ix2 0 j')) (Finset.sum_congr rfl fun k _ => ?_)
    rw [h0 p k r hi0]
  rw [pay_apply, hL]
  rfl

/-! ## From blocks to the array -/

theorem hz : (![0, 0] : Fin 2 → Nat) = fun _ => 0 := funext fun a => by fin_cases a <;> rfl

/-- The windows' index maps over the twenty points: the row-blocked windows sit at block (t, 0), the whole ones at (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is block `t` of `G3` of the four input arrays as the kernel finds them. -/
theorem flushed_eq (c : Dev nD) (t : Fin cfg3.N) :
    (dat3 (F := Ideal) V c).flushed 4 t = ((cfg3.win 4).blk t).view.read (Elt Ideal)
      (G3 (V c main_v68) (V c main_v69) (V c main_arg8) (V c main_v70)) := by
  show (cfg3.win 4).cut (grid3.coords t) ((dat3 V c).after 4 t) = _
  rw [after3_4]
  unfold out3_4
  rw [View.canon_unit_zero hz]
  simp only [View.ld_unit_zero (S := S5000x128) hz, View.ld_unit_zero (S := S1x128) hz, View.ld_unit_zero (S := S128x16) hz,
    View.ld_unit_zero (S := S1x16) hz]
  obtain ⟨e00, e01, e10, e11, e20, e21, e30, e31, e40, e41⟩ := idx_facts t
  funext j
  show k3_pay1 (F := Ideal) (iblk3 V c 0 t) (iblk3 V c 1 t) (iblk3 V c 2 t) (iblk3 V c 3 t) j
      = G3 (V c main_v68) (V c main_v69) (V c main_arg8) (V c main_v70) (((cfg3.win 4).blk t).view.emb j)
  refine block_value (V c main_v68) (V c main_v69) (V c main_arg8) (V c main_v70) (iblk3 V c 0 t) (iblk3 V c 1 t)
    (iblk3 V c 2 t) (iblk3 V c 3 t) t.val ?_ ?_ ?_ ?_ j (((cfg3.win 4).blk t).view.emb j) ?_ ?_
  · intro p k r hr
    show V c main_v68 (((cfg3.win 0).blk t).view.emb (ix2 p k)) = V c main_v68 (ix2 r k)
    refine congrArg (V c main_v68) (funext fun a => Fin.ext ?_)
    match a with
    | ⟨0, _⟩ => show win3_0.index t (0 : Fin 2) * 5000 + 1 * p.val = r.val; omega
    | ⟨1, _⟩ => show win3_0.index t (1 : Fin 2) * 128 + 1 * k.val = k.val; omega
  · funext y
    show V c main_v69 (((cfg3.win 1).blk t).view.emb y) = V c main_v69 y
    refine congrArg (V c main_v69) (funext fun a => Fin.ext ?_)
    match a with
    | ⟨0, _⟩ => show win3_1.index t (0 : Fin 2) * 1 + 1 * (y 0).val = (y 0).val; omega
    | ⟨1, _⟩ => show win3_1.index t (1 : Fin 2) * 128 + 1 * (y 1).val = (y 1).val; omega
  · funext y
    show V c main_arg8 (((cfg3.win 2).blk t).view.emb y) = V c main_arg8 y
    refine congrArg (V c main_arg8) (funext fun a => Fin.ext ?_)
    match a with
    | ⟨0, _⟩ => show win3_2.index t (0 : Fin 2) * 128 + 1 * (y 0).val = (y 0).val; omega
    | ⟨1, _⟩ => show win3_2.index t (1 : Fin 2) * 16 + 1 * (y 1).val = (y 1).val; omega
  · funext y
    show V c main_v70 (((cfg3.win 3).blk t).view.emb y) = V c main_v70 y
    refine congrArg (V c main_v70) (funext fun a => Fin.ext ?_)
    match a with
    | ⟨0, _⟩ => show win3_3.index t (0 : Fin 2) * 1 + 1 * (y 0).val = (y 0).val; omega
    | ⟨1, _⟩ => show win3_3.index t (1 : Fin 2) * 16 + 1 * (y 1).val = (y 1).val; omega
  · show win3_4.index t (0 : Fin 2) * 5000 + 1 * (j 0).val = t.val * 5000 + (j 0).val; omega
  · show win3_4.index t (1 : Fin 2) * 16 + 1 * (j 1).val = (j 1).val; omega

/-- An index of the output array is in point `t`'s block iff each coordinate is in the block's range on its axis. -/
theorem mem_blk (t : Fin cfg3.N) (i : S100000x16.Idx) :
    i ∈ ((cfg3.win 4).blk t).view.set ↔ ∀ a : Fin 2, win3_4.index t a * S5000x16.size a ≤ (i a).val
      ∧ (i a).val < win3_4.index t a * S5000x16.size a + S5000x16.size a := by
  show i ∈ ((View.whole main_v71).slice (win3_4.rect t)).set ↔ _
  rw [View.set_slice_whole, Rect.mem_set_unit]
  exact Iff.rfl

/-- The twenty blocks of 5000 rows fill the array: row `r` is in the block of point `r / 5000`. -/
theorem cover (i : S100000x16.Idx) :
    ∃ t : Fin cfg3.N, (cfg3.win 4).flush t = true ∧ i ∈ ((cfg3.win 4).blk t).view.set := by
  have hi0 : (i 0).val < 100000 := (i 0).isLt
  have hi1 : (i 1).val < 16 := (i 1).isLt
  have hN : cfg3.N = 20 := N_3
  refine ⟨⟨(i 0).val / 5000, by omega⟩, flush3_4 _, ?_⟩
  obtain ⟨e00, e01, e10, e11, e20, e21, e30, e31, e40, e41⟩ := idx_facts ⟨(i 0).val / 5000, by omega⟩
  rw [mem_blk]
  intro a
  match a with
  | ⟨0, _⟩ =>
    show win3_4.index ⟨(i 0).val / 5000, _⟩ (0 : Fin 2) * 5000 ≤ (i 0).val
      ∧ (i 0).val < win3_4.index ⟨(i 0).val / 5000, _⟩ (0 : Fin 2) * 5000 + 5000
    rw [e40]
    show (i 0).val / 5000 * 5000 ≤ (i 0).val ∧ (i 0).val < (i 0).val / 5000 * 5000 + 5000
    omega
  | ⟨1, _⟩ =>
    show win3_4.index ⟨(i 0).val / 5000, _⟩ (1 : Fin 2) * 16 ≤ (i 1).val
      ∧ (i 1).val < win3_4.index ⟨(i 0).val / 5000, _⟩ (1 : Fin 2) * 16 + 16
    rw [e41]
    omega

/-- After the twenty grid points the output array holds G3 of the four input arrays as the kernel found them. -/
theorem final3 (c : Dev nD) :
    (dat3 (F := Ideal) V c).arrAt 4 cfg3.N = G3 (V c main_v68) (V c main_v69) (V c main_arg8) (V c main_v70) :=
  (dat3 (F := Ideal) V c).arrAt_eq_of_cover 4 (G3 (V c main_v68) (V c main_v69) (V c main_arg8) (V c main_v70))
    (fun t _ => flushed_eq V c t) (fun i => cover i)

end Cert.KReg3

end
-- ==== Proof.KHost.lean ====
/-
  The idealized kernel program's result buffer after the run, as the composition `kerOut` of the launch arguments:
  the host stretches between the kernels are read operation by operation, each kernel by its whole-array function,
  and a buffer that nothing writes in between keeps its contents from one segment boundary to the next.
-/
import proofs.«145280_j30794915512600_1_alg».proof.Proof.Gen.KernelIdeal.Frame
import proofs.«145280_j30794915512600_1_alg».proof.Proof.KSpec
import proofs.«145280_j30794915512600_1_alg».proof.Proof.KReg0
import proofs.«145280_j30794915512600_1_alg».proof.Proof.KReg1
import proofs.«145280_j30794915512600_1_alg».proof.Proof.KReg2
import proofs.«145280_j30794915512600_1_alg».proof.Proof.KReg3
import Idealize.ShloMosaic.Lib.StableHlo.Run

set_option maxRecDepth 16384

noncomputable section

namespace Cert.KHost

open Cert.KernelIdeal Cert.KernelIdeal.Gen Cert.KSpec
open Idealize.ShloMosaic Idealize.ShloMosaic.TcCoe Idealize.SL.Sem

variable (m : (ℓ : Loc nD τ sig) → Buf (Elt Ideal) ℓ) (ρ : Dev nD → PrngReg)

/-! ## What each host stretch writes

One list of references per stretch, holding every reference one of its operations writes: a reference outside the
list keeps its contents across the stretch. -/

/-- The references the first host stretch writes. -/
abbrev wr0 : List (Ref sig .tc) :=
  [main_v0, main_v1, main_v2, main_v3, main_v4, main_v5, main_v6, main_cst, main_v7, main_cst_0, main_v8, main_v9,
   main_v10, main_v11, main_c, main_v12, main_v13, main_c_1, main_v14, main_v15, main_v16, main_v17, main_v18,
   main_c_2, main_v19, main_v20, main_c_3, main_v21, main_v22, main_v23, main_v24, main_v25, main_v26, main_v27]
/-- The references the second host stretch writes. -/
abbrev wr1 : List (Ref sig .tc) :=
  [main_c_4, main_v29, main_v30, main_c_5, main_v31, main_v32, main_v33, main_v34, main_v35, main_v36, main_v37,
   main_cst_6, main_v38, main_v39, main_v40, main_v41]
/-- The references the third host stretch writes. -/
abbrev wr2 : List (Ref sig .tc) :=
  [main_c_7, main_v43, main_v44, main_c_8, main_v45, main_v46, main_v47, main_v48, main_v49, main_v50, main_v51,
   main_cst_9, main_v52, main_v53, main_v54, main_v55]
/-- The references the fourth host stretch writes. -/
abbrev wr3 : List (Ref sig .tc) :=
  [main_c_10, main_v57, main_v58, main_c_11, main_v59, main_v60, main_v61, main_v62, main_v63, main_v64, main_v65,
   main_cst_12, main_v66, main_v67, main_v68, main_v69, main_v70]

theorem hostOps0_writes :
    (hostOps0 : List (HloOp τ sig (Elt Ideal))).Forall fun op => op.writes ⊆ (wr0.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
theorem hostOps1_writes :
    (hostOps1 : List (HloOp τ sig (Elt Ideal))).Forall fun op => op.writes ⊆ (wr1.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
theorem hostOps2_writes :
    (hostOps2 : List (HloOp τ sig (Elt Ideal))).Forall fun op => op.writes ⊆ (wr2.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
theorem hostOps3_writes :
    (hostOps3 : List (HloOp τ sig (Elt Ideal))).Forall fun op => op.writes ⊆ (wr3.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

section Boundaries

variable (c : Dev nD)

/-! ## A buffer nothing writes keeps its contents across a boundary

Across a host stretch: the reference is outside the stretch's list.  Across a kernel: the reference is none of the
kernel's arrays. -/

theorem W1_kept (r : Ref sig .tc) (h : r ∉ wr0) :
    W1 (F := Ideal) m ρ c (Proc.devRef .tc r) = m ((c.tc : Thread nD τ).loc r) :=
  StableHlo.after_of_writes_sub hostOps0 _ hostOps0_writes h
theorem W3_kept (r : Ref sig .tc) (h : r ∉ wr1) :
    W3 (F := Ideal) m ρ c (Proc.devRef .tc r) = W2 m ρ c (Proc.devRef .tc r) :=
  StableHlo.after_of_writes_sub hostOps1 _ hostOps1_writes h
theorem W5_kept (r : Ref sig .tc) (h : r ∉ wr2) :
    W5 (F := Ideal) m ρ c (Proc.devRef .tc r) = W4 m ρ c (Proc.devRef .tc r) :=
  StableHlo.after_of_writes_sub hostOps2 _ hostOps2_writes h
theorem W7_kept (r : Ref sig .tc) (h : r ∉ wr3) :
    W7 (F := Ideal) m ρ c (Proc.devRef .tc r) = W6 m ρ c (Proc.devRef .tc r) :=
  StableHlo.after_of_writes_sub hostOps3 _ hostOps3_writes h

/-! ## The first host stretch: edge lists and normalisation -/

/-- The sources' list. -/
theorem W1_v3 :
    W1 (F := Ideal) m ρ c (Proc.devRef .tc main_v3) = srcK (m ((c.tc : Thread nD τ).loc main_arg1)) := by
  show StableHlo.after hostOps0 (W0 m ρ c) (Proc.devRef .tc main_v3) = _
  after_results
  rfl
/-- The destinations' list. -/
theorem W1_v6 :
    W1 (F := Ideal) m ρ c (Proc.devRef .tc main_v6) = dstK (m ((c.tc : Thread nD τ).loc main_arg1)) := by
  show StableHlo.after hostOps0 (W0 m ρ c) (Proc.devRef .tc main_v6) = _
  after_results
  rfl
/-- The normalisation, as a one-column matrix. -/
theorem W1_v27 :
    W1 (F := Ideal) m ρ c (Proc.devRef .tc main_v27)
      = broadcastInDim S1700000x1 ![0] bcast_S1700000_S1700000x1_0
          (nrm1K (F := Ideal) (m ((c.tc : Thread nD τ).loc main_arg1))) := by
  show StableHlo.after hostOps0 (W0 m ρ c) (Proc.devRef .tc main_v27) = _
  after_results_simp
  rfl

/-! ## The first kernel -/

/-- The first kernel's arrays are its two arguments and `main_v28`: every other buffer keeps its contents. -/
theorem W2_kept (r : Ref sig .tc) (h : ∀ w, Pipeline.arrRef spec0 w ≠ r) :
    W2 (F := Ideal) m ρ c (Proc.devRef .tc r) = W1 m ρ c (Proc.devRef .tc r) := W2_of_ne m ρ c r h

/-- The first kernel leaves the product of the features and the first weight matrix. -/
theorem W2_v28 :
    W2 (F := Ideal) m ρ c (Proc.devRef .tc main_v28)
      = G0 (m ((c.tc : Thread nD τ).loc main_arg0)) (m ((c.tc : Thread nD τ).loc main_arg2)) :=
  (W2_arr m ρ c 2).trans ((Cert.KReg0.final0 (V1 m ρ) c).trans (by
    show G0 (W1 m ρ c (Proc.devRef .tc main_arg0)) (W1 m ρ c (Proc.devRef .tc main_arg2)) = _
    rw [W1_kept m ρ c main_arg0 (by decide), W1_kept m ρ c main_arg2 (by decide)]))

theorem W2_v3 : W2 (F := Ideal) m ρ c (Proc.devRef .tc main_v3) = srcK (m ((c.tc : Thread nD τ).loc main_arg1)) :=
  (W2_kept m ρ c main_v3 (by decide)).trans (W1_v3 m ρ c)
theorem W2_v6 : W2 (F := Ideal) m ρ c (Proc.devRef .tc main_v6) = dstK (m ((c.tc : Thread nD τ).loc main_arg1)) :=
  (W2_kept m ρ c main_v6 (by decide)).trans (W1_v6 m ρ c)
theorem W2_v27 :
    W2 (F := Ideal) m ρ c (Proc.devRef .tc main_v27)
      = broadcastInDim S1700000x1 ![0] bcast_S1700000_S1700000x1_0
          (nrm1K (F := Ideal) (m ((c.tc : Thread nD τ).loc main_arg1))) :=
  (W2_kept m ρ c main_v27 (by decide)).trans (W1_v27 m ρ c)
/-- An argument the first kernel does not take is, at its exit, as launched. -/
theorem W2_arg (r : Ref sig .tc) (h0 : r ∉ wr0) (h : ∀ w, Pipeline.arrRef spec0 w ≠ r) :
    W2 (F := Ideal) m ρ c (Proc.devRef .tc r) = m ((c.tc : Thread nD τ).loc r) :=
  (W2_kept m ρ c r h).trans (W1_kept m ρ c r h0)

/-! ## The second host stretch: the first aggregation and the first bias as a one-row matrix -/

theorem W3_v40 :
    W3 (F := Ideal) m ρ c (Proc.devRef .tc main_v40)
      = aggK (F := Ideal) (m ((c.tc : Thread nD τ).loc main_arg1)) (W2 m ρ c (Proc.devRef .tc main_v28)) := by
  show StableHlo.after hostOps1 (W2 m ρ c) (Proc.devRef .tc main_v40) = _
  after_results_simp
  rw [W2_v3, W2_v6, W2_v27]
  rfl
theorem W3_v41 :
    W3 (F := Ideal) m ρ c (Proc.devRef .tc main_v41)
      = shapeCast S1x128 (m ((c.tc : Thread nD τ).loc main_arg3)) shapeCasts_S128_S1x128 := by
  show StableHlo.after hostOps1 (W2 m ρ c) (Proc.devRef .tc main_v41) = _
  after_results_simp
  rw [W2_arg m ρ c main_arg3 (by decide) (by decide)]
  rfl

theorem W3_arg4 : W3 (F := Ideal) m ρ c (Proc.devRef .tc main_arg4) = m ((c.tc : Thread nD τ).loc main_arg4) :=
  (W3_kept m ρ c main_arg4 (by decide)).trans (W2_arg m ρ c main_arg4 (by decide) (by decide))

/-! ## The second kernel -/

/-- The second kernel leaves bias, ELU and product of what the second host stretch handed it. -/
theorem W4_v42 :
    W4 (F := Ideal) m ρ c (Proc.devRef .tc main_v42)
      = G1 (W3 m ρ c (Proc.devRef .tc main_v40)) (W3 m ρ c (Proc.devRef .tc main_v41))
          (W3 m ρ c (Proc.devRef .tc main_arg4)) :=
  (W4_arr m ρ c 3).trans (Cert.KReg1.final1 (V3 m ρ) c)

/-- A buffer that neither the second host stretch nor the second kernel writes: from the first kernel's exit to the
    second's. -/
theorem W4_from2 (r : Ref sig .tc) (h1 : r ∉ wr1) (h2 : ∀ w, Pipeline.arrRef spec1 w ≠ r) :
    W4 (F := Ideal) m ρ c (Proc.devRef .tc r) = W2 m ρ c (Proc.devRef .tc r) :=
  (W4_of_ne m ρ c r h2).trans (W3_kept m ρ c r h1)

theorem W4_v3 : W4 (F := Ideal) m ρ c (Proc.devRef .tc main_v3) = srcK (m ((c.tc : Thread nD τ).loc main_arg1)) :=
  (W4_from2 m ρ c main_v3 (by decide) (by decide)).trans (W2_v3 m ρ c)
theorem W4_v6 : W4 (F := Ideal) m ρ c (Proc.devRef .tc main_v6) = dstK (m ((c.tc : Thread nD τ).loc main_arg1)) :=
  (W4_from2 m ρ c main_v6 (by decide) (by decide)).trans (W2_v6 m ρ c)
theorem W4_v27 :
    W4 (F := Ideal) m ρ c (Proc.devRef .tc main_v27)
      = broadcastInDim S1700000x1 ![0] bcast_S1700000_S1700000x1_0 (nrm1K (F := Ideal) (m ((c.tc : Thread nD τ).loc main_arg1))) :=
  (W4_from2 m ρ c main_v27 (by decide) (by decide)).trans (W2_v27 m ρ c)
/-- An argument neither of the first two kernels takes is, at the second's exit, as launched. -/
theorem W4_arg (r : Ref sig .tc) (h0 : r ∉ wr0) (h : ∀ w, Pipeline.arrRef spec0 w ≠ r) (h1 : r ∉ wr1)
    (h2 : ∀ w, Pipeline.arrRef spec1 w ≠ r) :
    W4 (F := Ideal) m ρ c (Proc.devRef .tc r) = m ((c.tc : Thread nD τ).loc r) :=
  (W4_from2 m ρ c r h1 h2).trans (W2_arg m ρ c r h0 h)

/-! ## The third host stretch: the second aggregation and the second bias as a one-row matrix -/

theorem W5_v54 :
    W5 (F := Ideal) m ρ c (Proc.devRef .tc main_v54)
      = aggK (F := Ideal) (m ((c.tc : Thread nD τ).loc main_arg1)) (W4 m ρ c (Proc.devRef .tc main_v42)) := by
  show StableHlo.after hostOps2 (W4 m ρ c) (Proc.devRef .tc main_v54) = _
  after_results_simp
  rw [W4_v3, W4_v6, W4_v27]
  rfl
theorem W5_v55 :
    W5 (F := Ideal) m ρ c (Proc.devRef .tc main_v55) = shapeCast S1x128 (m ((c.tc : Thread nD τ).loc main_arg5)) shapeCasts_S128_S1x128 := by
  show StableHlo.after hostOps2 (W4 m ρ c) (Proc.devRef .tc main_v55) = _
  after_results_simp
  rw [W4_arg m ρ c main_arg5 (by decide) (by decide) (by decide) (by decide)]
  rfl
theorem W5_arg6 : W5 (F := Ideal) m ρ c (Proc.devRef .tc main_arg6) = m ((c.tc : Thread nD τ).loc main_arg6) :=
  (W5_kept m ρ c main_arg6 (by decide)).trans (W4_arg m ρ c main_arg6 (by decide) (by decide) (by decide) (by decide))

/-! ## The third kernel -/

/-- The third kernel leaves bias, ELU and product of what the third host stretch handed it. -/
theorem W6_v56 :
    W6 (F := Ideal) m ρ c (Proc.devRef .tc main_v56)
      = G1 (W5 m ρ c (Proc.devRef .tc main_v54)) (W5 m ρ c (Proc.devRef .tc main_v55))
          (W5 m ρ c (Proc.devRef .tc main_arg6)) :=
  (W6_arr m ρ c 3).trans (Cert.KReg2.final2 (V5 m ρ) c)

/-- A buffer that neither the third host stretch nor the third kernel writes: from the second kernel's exit to the
    third's. -/
theorem W6_from4 (r : Ref sig .tc) (h3 : r ∉ wr2) (h4 : ∀ w, Pipeline.arrRef spec2 w ≠ r) :
    W6 (F := Ideal) m ρ c (Proc.devRef .tc r) = W4 m ρ c (Proc.devRef .tc r) :=
  (W6_of_ne m ρ c r h4).trans (W5_kept m ρ c r h3)

theorem W6_v3 : W6 (F := Ideal) m ρ c (Proc.devRef .tc main_v3) = srcK (m ((c.tc : Thread nD τ).loc main_arg1)) :=
  (W6_from4 m ρ c main_v3 (by decide) (by decide)).trans (W4_v3 m ρ c)
theorem W6_v6 : W6 (F := Ideal) m ρ c (Proc.devRef .tc main_v6) = dstK (m ((c.tc : Thread nD τ).loc main_arg1)) :=
  (W6_from4 m ρ c main_v6 (by decide) (by decide)).trans (W4_v6 m ρ c)
theorem W6_v27 :
    W6 (F := Ideal) m ρ c (Proc.devRef .tc main_v27)
      = broadcastInDim S1700000x1 ![0] bcast_S1700000_S1700000x1_0 (nrm1K (F := Ideal) (m ((c.tc : Thread nD τ).loc main_arg1))) :=
  (W6_from4 m ρ c main_v27 (by decide) (by decide)).trans (W4_v27 m ρ c)
/-- An argument none of the first three kernels takes is, at the third's exit, as launched. -/
theorem W6_arg (r : Ref sig .tc) (h0 : r ∉ wr0) (h : ∀ w, Pipeline.arrRef spec0 w ≠ r) (h1 : r ∉ wr1)
    (h2 : ∀ w, Pipeline.arrRef spec1 w ≠ r) (h3 : r ∉ wr2) (h4 : ∀ w, Pipeline.arrRef spec2 w ≠ r) :
    W6 (F := Ideal) m ρ c (Proc.devRef .tc r) = m ((c.tc : Thread nD τ).loc r) :=
  (W6_from4 m ρ c r h3 h4).trans (W4_arg m ρ c r h0 h h1 h2)

/-! ## The fourth host stretch: the third aggregation and the last two biases as one-row matrices -/

theorem W7_v68 :
    W7 (F := Ideal) m ρ c (Proc.devRef .tc main_v68)
      = aggK (F := Ideal) (m ((c.tc : Thread nD τ).loc main_arg1)) (W6 m ρ c (Proc.devRef .tc main_v56)) := by
  show StableHlo.after hostOps3 (W6 m ρ c) (Proc.devRef .tc main_v68) = _
  after_results_simp
  rw [W6_v3, W6_v6, W6_v27]
  rfl
theorem W7_v69 :
    W7 (F := Ideal) m ρ c (Proc.devRef .tc main_v69) = shapeCast S1x128 (m ((c.tc : Thread nD τ).loc main_arg7)) shapeCasts_S128_S1x128 := by
  show StableHlo.after hostOps3 (W6 m ρ c) (Proc.devRef .tc main_v69) = _
  after_results_simp
  rw [W6_arg m ρ c main_arg7 (by decide) (by decide) (by decide) (by decide) (by decide) (by decide)]
  rfl
theorem W7_v70 :
    W7 (F := Ideal) m ρ c (Proc.devRef .tc main_v70) = shapeCast S1x16 (m ((c.tc : Thread nD τ).loc main_arg9)) shapeCasts_S16_S1x16 := by
  show StableHlo.after hostOps3 (W6 m ρ c) (Proc.devRef .tc main_v70) = _
  after_results_simp
  rw [W6_arg m ρ c main_arg9 (by decide) (by decide) (by decide) (by decide) (by decide) (by decide)]
  rfl
theorem W7_arg8 : W7 (F := Ideal) m ρ c (Proc.devRef .tc main_arg8) = m ((c.tc : Thread nD τ).loc main_arg8) :=
  (W7_kept m ρ c main_arg8 (by decide)).trans
    (W6_arg m ρ c main_arg8 (by decide) (by decide) (by decide) (by decide) (by decide) (by decide))

/-! ## The fourth kernel -/

/-- The fourth kernel leaves bias, ELU, product, bias and log-softmax of what the fourth host stretch handed it. -/
theorem W8_v71 :
    W8 (F := Ideal) m ρ c (Proc.devRef .tc main_v71)
      = G3 (W7 m ρ c (Proc.devRef .tc main_v68)) (W7 m ρ c (Proc.devRef .tc main_v69))
          (W7 m ρ c (Proc.devRef .tc main_arg8)) (W7 m ρ c (Proc.devRef .tc main_v70)) :=
  (W8_arr m ρ c 4).trans (Cert.KReg3.final3 (V7 m ρ) c)

end Boundaries

/-- At the last segment boundary the result buffer holds `kerOut` of the launch arguments. -/
theorem W8_out (c : Dev nD) :
    W8 (F := Ideal) m ρ c (Proc.devRef .tc main_v71)
      = kerOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  rw [W8_v71, W7_v68, W7_v69, W7_v70, W7_arg8, W6_v56, W5_v54, W5_v55, W5_arg6, W4_v42, W3_v40, W3_v41, W3_arg4,
    W2_v28]
  rfl

end Cert.KHost

end
-- ==== Proof.RefSpec.lean ====
/-
  The idealized reference's value, named stage by stage.

  The reference builds the same edge lists, degrees and normalisation on the host, and per layer computes
  (aggregate (h · W)) + b followed by ELU; then a linear layer and a log-softmax.  Its ELU is
  a if a > 0 else 1 · expm1 (a' ) with a' = 0 if a > 0 else a; its log-softmax is (z - max) - log Σ exp (z - max).
-/
import proofs.«145280_j30794915512600_1_alg».proof.Proof.Gen.ReferenceIdeal
import Idealize.ShloMosaic.PureOps.Ideal

noncomputable section

namespace Cert.RefSpec

open Cert.ReferenceIdeal Cert.ReferenceIdeal.Facts₀ Idealize.ShloMosaic

variable {F : FTy → Type} [FloatOps F]

/-- Row 0 of the edge table followed by 0 … N-1: every edge's source, then one self loop per node. -/
def srcT (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- Row 1 of the edge table followed by 0 … N-1: every edge's destination, then the self loops'. -/
def dstT (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- A list of node numbers as gather start indices: a negative number counts from the end (N is added to it). -/
def nidxT (s : IVec S1700000 32) : IVec S1700000x1 32 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- A node's degree: the number of list entries (edges and self loops) whose destination it is. -/
def degT (ei : IVec S2x1600000 32) : FVec F S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (dstT ei))
    (broadcastInDim S1700000 ![] bcast_S_S1700000 (constant S_ .f32 0x3F800000#32))

/-- An edge's normalisation: deg(src)^(-1/2) · deg(dst)^(-1/2). -/
def nrm1T (ei : IVec S2x1600000 32) : FVec F S1700000 .f32 :=
  mulf (Host.gather gather_S100000_S1700000x1_S1700000_n_0_n_n_0_1_1 (Host.rsqrt (degT ei)) (nidxT (srcT ei)))
    (Host.gather gather_S100000_S1700000x1_S1700000_n_0_n_n_0_1_1 (Host.rsqrt (degT ei)) (nidxT (dstT ei)))

/-- One aggregation: row i of the result is the sum, over the list entries whose destination is i, of the source
    node's row of `h` times the entry's normalisation. -/
def aggT (ei : IVec S2x1600000 32) (h : FVec F S100000x128 .f32) : FVec F S100000x128 .f32 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 (dstT ei))
    (mulf (Host.gather gather_S100000x128_S1700000x1_S1700000x128_1_0_n_n_0_1_1128 h (nidxT (srcT ei)))
      (broadcastInDim S1700000x128 ![0, 1] bcast_S1700000x1_S1700000x128_0_1
        (broadcastInDim S1700000x1 ![0] bcast_S1700000_S1700000x1_0 (nrm1T ei))))

/-- The all-zero matrix the ELU compares with and substitutes. -/
def zerosT : FVec F S100000x128 .f32 :=
  broadcastInDim S100000x128 ![] bcast_S_S100000x128 (constant S_ .f32 0x00000000#32)

/-- ELU as jax.nn.elu computes it: a where a > 0, elsewhere 1 · expm1 (0 where a > 0, a elsewhere). -/
def eluT (a : FVec F S100000x128 .f32) : FVec F S100000x128 .f32 :=
  select (cmpf .ogt a zerosT) a
    (mulf (broadcastInDim S100000x128 ![] bcast_S_S100000x128 (constant S_ .f32 0x3F800000#32))
      (Host.expm1 (select (cmpf .ogt a zerosT) zerosT a)))

/-- A bias vector added to every row of a matrix of 128 columns. -/
def bias128T (b : FVec F S128 .f32) : FVec F S100000x128 .f32 :=
  broadcastInDim S100000x128 ![0, 1] bcast_S1x128_S100000x128_0_1 (broadcastInDim S1x128 ![1] bcast_S128_S1x128_1 b)

/-- A bias vector added to every row of a matrix of 16 columns. -/
def bias16T (b : FVec F S16 .f32) : FVec F S100000x16 .f32 :=
  broadcastInDim S100000x16 ![0, 1] bcast_S1x16_S100000x16_0_1 (broadcastInDim S1x16 ![1] bcast_S16_S1x16_1 b)

/-- The matrix product of the hidden width. -/
def mmT (h : FVec F S100000x128 .f32) (W : FVec F S128x128 .f32) : FVec F S100000x128 .f32 :=
  Host.dotGeneral dot_S100000x128_S128x128_S100000x128_1_0_0_1_n_n none h W

/-- A hidden layer's product after the previous aggregation: ELU (a + b) · W. -/
def layerT (a : FVec F S100000x128 .f32) (b : FVec F S128 .f32) (W : FVec F S128x128 .f32) :
    FVec F S100000x128 .f32 :=
  mmT (eluT (addf a (bias128T b))) W

/-- The classifier's logits: ELU (a + b) · W + c. -/
def logitsT (a : FVec F S100000x128 .f32) (b : FVec F S128 .f32) (W : FVec F S128x16 .f32) (c : FVec F S16 .f32) :
    FVec F S100000x16 .f32 :=
  addf (Host.dotGeneral dot_S100000x128_S128x16_S100000x16_1_0_0_1_n_n none (eluT (addf a (bias128T b))) W) (bias16T c)

/-- Each row's maximum (from -∞, and once more against -∞). -/
def rmaxT (z : FVec F S100000x16 .f32) : FVec F S100000 .f32 :=
  maximumf (broadcastInDim S100000 ![] bcast_S_S100000 (constant S_ .f32 0xFF800000#32))
    (Host.reduce FloatOps.maximumf z (constant S_ .f32 0xFF800000#32) reducesTo_S100000x16_S100000_d1 h_S_)

/-- The logits with their row's maximum subtracted. -/
def shiftT (z : FVec F S100000x16 .f32) : FVec F S100000x16 .f32 :=
  subf z (broadcastInDim S100000x16 ![0, 1] bcast_S100000x1_S100000x16_0_1
    (broadcastInDim S100000x1 ![0] bcast_S100000_S100000x1_0 (rmaxT z)))

/-- jax.nn.log_softmax along each row: (z - max) - log Σ exp (z - max). -/
def lsmT (z : FVec F S100000x16 .f32) : FVec F S100000x16 .f32 :=
  subf (shiftT z) (broadcastInDim S100000x16 ![0, 1] bcast_S100000x1_S100000x16_0_1
    (Host.log (broadcastInDim S100000x1 ![0] bcast_S100000_S100000x1_0
      (Host.reduceAdd (Host.exp (shiftT z)) (constant S_ .f32 0x00000000#32) reducesTo_S100000x16_S100000_d1 h_S_))))

/-- The whole reference. -/
def refOut (x : FVec F S100000x128 .f32) (ei : IVec S2x1600000 32) (W1 : FVec F S128x128 .f32)
    (b1 : FVec F S128 .f32) (W2 : FVec F S128x128 .f32) (b2 : FVec F S128 .f32)
    (W3 : FVec F S128x128 .f32) (b3 : FVec F S128 .f32) (Wfc : FVec F S128x16 .f32)
    (bfc : FVec F S16 .f32) : FVec F S100000x16 .f32 :=
  lsmT (logitsT (aggT ei (layerT (aggT ei (layerT (aggT ei (mmT x W1)) b1 W2)) b2 W3)) b3 Wfc bfc)

end Cert.RefSpec

end
-- ==== Proof.RefOps.lean ====
/-
  The idealized reference's @main as one straight line of host operations: the outlined ELU, its two selects and the
  log-softmax unfolded at their calls.  The line is cut in six stretches — the two edge lists; the degrees and the
  edges' normalisation; the three hidden layers, each a product, its aggregation, the bias and the ELU; the classifier
  with the log-softmax.  Every operation touches TensorCore references only and determines its results, and the
  contents after two lists run in turn are the second list's fold over the first's.
-/
import proofs.«145280_j30794915512600_1_alg».proof.Proof.Gen.ReferenceIdeal
import proofs.«145280_j30794915512600_1_alg».proof.Proof.RefSpec
import Idealize.ShloMosaic.Lib.StableHlo.Run

noncomputable section

namespace Cert.RefRun

open Cert.ReferenceIdeal Cert.ReferenceIdeal.Gen Cert.RefSpec
open Idealize.ShloMosaic Idealize.ShloMosaic.TcCoe Idealize.SL.Sem Idealize.ShloMosaic.StableHlo

variable {F : FTy → Type} [FloatOps F]

/-! ## The operations -/

/-- The two edge lists with their self loops: @main's first 7 operations. -/
def opsA0 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The degrees and the edges' normalisation, from the two lists: the next 26 operations. -/
def opsA1 : List (HloOp τ sig (Elt F)) :=
  [ nullary main_cst (constant S_ .f32 0x3F800000#32),
    unary main_cst main_v7 (broadcastInDim S1700000 ![] bcast_S_S1700000),
    nullary main_cst_0 (constant S_ .f32 0x00000000#32),
    unary main_cst_0 main_v8 (broadcastInDim S100000 ![] bcast_S_S100000),
    unary main_v6 main_v9 (broadcastInDim S1700000x1 ![0] bcast_S1700000_S1700000x1_0),
    ternary main_v8 main_v9 main_v7 main_v10 (fun x i u => Host.scatterAdd scatter_S100000_S1700000x1_S1700000_n_0_0_1 x i u),
    unary main_v10 main_v11 Host.rsqrt,
    nullary main_c (constantI S_ 32 0#32),
    unary main_c main_v12 (broadcastInDim S1700000 ![] bcast_S_S1700000),
    binary main_v3 main_v12 main_v13 (cmpi .slt),
    nullary main_c_1 (constantI S_ 32 100000#32),
    unary main_c_1 main_v14 (broadcastInDim S1700000 ![] bcast_S_S1700000),
    binary main_v3 main_v14 main_v15 addi,
    ternary main_v13 main_v15 main_v3 main_v16 select,
    unary main_v16 main_v17 (broadcastInDim S1700000x1 ![0] bcast_S1700000_S1700000x1_0),
    binary main_v11 main_v17 main_v18 (fun x i => Host.gather gather_S100000_S1700000x1_S1700000_n_0_n_n_0_1_1 x i),
    nullary main_c_2 (constantI S_ 32 0#32),
    unary main_c_2 main_v19 (broadcastInDim S1700000 ![] bcast_S_S1700000),
    binary main_v6 main_v19 main_v20 (cmpi .slt),
    nullary main_c_3 (constantI S_ 32 100000#32),
    unary main_c_3 main_v21 (broadcastInDim S1700000 ![] bcast_S_S1700000),
    binary main_v6 main_v21 main_v22 addi,
    ternary main_v20 main_v22 main_v6 main_v23 select,
    unary main_v23 main_v24 (broadcastInDim S1700000x1 ![0] bcast_S1700000_S1700000x1_0),
    binary main_v11 main_v24 main_v25 (fun x i => Host.gather gather_S100000_S1700000x1_S1700000_n_0_n_n_0_1_1 x i),
    binary main_v18 main_v25 main_v26 mulf ]

/-- @elu's 15 operations over its argument's reference and one call's record: its own eleven, with @_where's three
    (the scalar zero passed on, broadcast, selected against the argument) after the seventh and @_where_0's select last. -/
def eluOps (a : TRef sig ⟨S100000x128, .f32⟩) (φ : fn_elu.Bufs) : List (HloOp τ sig (Elt F)) :=
  [ TRef.nullary φ.cst (constant S_ .f32 0x00000000#32),
    TRef.unary φ.cst φ.v0 (broadcastInDim S100000x128 ![] bcast_S_S100000x128),
    TRef.binary a φ.v0 φ.v1 (cmpf .ogt),
    TRef.nullary φ.cst_0 (constant S_ .f32 0x00000000#32),
    TRef.unary φ.cst_0 φ.v2 (broadcastInDim S100000x128 ![] bcast_S_S100000x128),
    TRef.binary a φ.v2 φ.v3 (cmpf .ogt),
    TRef.nullary φ.cst_1 (constant S_ .f32 0x00000000#32),
    TRef.unary φ.cst_1 φ.call0.v0 id,
    TRef.unary φ.call0.v0 φ.call0.v1 (broadcastInDim S100000x128 ![] bcast_S_S100000x128),
    TRef.ternary φ.v3 φ.call0.v1 a φ.call0.v2 select,
    TRef.unary φ.call0.v2 φ.v5 Host.expm1,
    TRef.nullary φ.cst_2 (constant S_ .f32 0x3F800000#32),
    TRef.unary φ.cst_2 φ.v6 (broadcastInDim S100000x128 ![] bcast_S_S100000x128),
    TRef.binary φ.v6 φ.v5 φ.v7 mulf,
    TRef.ternary φ.v1 a φ.v7 φ.call1.v0 select ]

/-- The first hidden layer: x · W1, its aggregation, the bias, and the ELU at call 0 (35 operations). -/
def opsB1 : List (HloOp τ sig (Elt F)) :=
  [ binary main_arg0 main_arg2 main_v27 (fun l r => Host.dotGeneral dot_S100000x128_S128x128_S100000x128_1_0_0_1_n_n none l r),
    nullary main_c_4 (constantI S_ 32 0#32),
    unary main_c_4 main_v28 (broadcastInDim S1700000 ![] bcast_S_S1700000),
    binary main_v3 main_v28 main_v29 (cmpi .slt),
    nullary main_c_5 (constantI S_ 32 100000#32),
    unary main_c_5 main_v30 (broadcastInDim S1700000 ![] bcast_S_S1700000),
    binary main_v3 main_v30 main_v31 addi,
    ternary main_v29 main_v31 main_v3 main_v32 select,
    unary main_v32 main_v33 (broadcastInDim S1700000x1 ![0] bcast_S1700000_S1700000x1_0),
    binary main_v27 main_v33 main_v34 (fun x i => Host.gather gather_S100000x128_S1700000x1_S1700000x128_1_0_n_n_0_1_1128 x i),
    unary main_v26 main_v35 (broadcastInDim S1700000x1 ![0] bcast_S1700000_S1700000x1_0),
    unary main_v35 main_v36 (broadcastInDim S1700000x128 ![0, 1] bcast_S1700000x1_S1700000x128_0_1),
    binary main_v34 main_v36 main_v37 mulf,
    nullary main_cst_6 (constant S_ .f32 0x00000000#32),
    unary main_cst_6 main_v38 (broadcastInDim S100000x128 ![] bcast_S_S100000x128),
    unary main_v6 main_v39 (broadcastInDim S1700000x1 ![0] bcast_S1700000_S1700000x1_0),
    ternary main_v38 main_v39 main_v37 main_v40 (fun x i u => Host.scatterAdd scatter_S100000x128_S1700000x1_S1700000x128_1_0_0_1 x i u),
    unary main_arg3 main_v41 (broadcastInDim S1x128 ![1] bcast_S128_S1x128_1),
    unary main_v41 main_v42 (broadcastInDim S100000x128 ![0, 1] bcast_S1x128_S100000x128_0_1),
    binary main_v40 main_v42 main_v43 addf ]
  ++ eluOps (.of main_v43) main_call0

/-- The second hidden layer: h · W2, its aggregation, the bias, and the ELU at call 1 (35 operations). -/
def opsB2 : List (HloOp τ sig (Elt F)) :=
  [ binary main_v44 main_arg4 main_v45 (fun l r => Host.dotGeneral dot_S100000x128_S128x128_S100000x128_1_0_0_1_n_n none l r),
    nullary main_c_7 (constantI S_ 32 0#32),
    unary main_c_7 main_v46 (broadcastInDim S1700000 ![] bcast_S_S1700000),
    binary main_v3 main_v46 main_v47 (cmpi .slt),
    nullary main_c_8 (constantI S_ 32 100000#32),
    unary main_c_8 main_v48 (broadcastInDim S1700000 ![] bcast_S_S1700000),
    binary main_v3 main_v48 main_v49 addi,
    ternary main_v47 main_v49 main_v3 main_v50 select,
    unary main_v50 main_v51 (broadcastInDim S1700000x1 ![0] bcast_S1700000_S1700000x1_0),
    binary main_v45 main_v51 main_v52 (fun x i => Host.gather gather_S100000x128_S1700000x1_S1700000x128_1_0_n_n_0_1_1128 x i),
    unary main_v26 main_v53 (broadcastInDim S1700000x1 ![0] bcast_S1700000_S1700000x1_0),
    unary main_v53 main_v54 (broadcastInDim S1700000x128 ![0, 1] bcast_S1700000x1_S1700000x128_0_1),
    binary main_v52 main_v54 main_v55 mulf,
    nullary main_cst_9 (constant S_ .f32 0x00000000#32),
    unary main_cst_9 main_v56 (broadcastInDim S100000x128 ![] bcast_S_S100000x128),
    unary main_v6 main_v57 (broadcastInDim S1700000x1 ![0] bcast_S1700000_S1700000x1_0),
    ternary main_v56 main_v57 main_v55 main_v58 (fun x i u => Host.scatterAdd scatter_S100000x128_S1700000x1_S1700000x128_1_0_0_1 x i u),
    unary main_arg5 main_v59 (broadcastInDim S1x128 ![1] bcast_S128_S1x128_1),
    unary main_v59 main_v60 (broadcastInDim S100000x128 ![0, 1] bcast_S1x128_S100000x128_0_1),
    binary main_v58 main_v60 main_v61 addf ]
  ++ eluOps (.of main_v61) main_call1

/-- The third hidden layer: h · W3, its aggregation, the bias, and the ELU at call 2 (35 operations). -/
def opsB3 : List (HloOp τ sig (Elt F)) :=
  [ binary main_v62 main_arg6 main_v63 (fun l r => Host.dotGeneral dot_S100000x128_S128x128_S100000x128_1_0_0_1_n_n none l r),
    nullary main_c_10 (constantI S_ 32 0#32),
    unary main_c_10 main_v64 (broadcastInDim S1700000 ![] bcast_S_S1700000),
    binary main_v3 main_v64 main_v65 (cmpi .slt),
    nullary main_c_11 (constantI S_ 32 100000#32),
    unary main_c_11 main_v66 (broadcastInDim S1700000 ![] bcast_S_S1700000),
    binary main_v3 main_v66 main_v67 addi,
    ternary main_v65 main_v67 main_v3 main_v68 select,
    unary main_v68 main_v69 (broadcastInDim S1700000x1 ![0] bcast_S1700000_S1700000x1_0),
    binary main_v63 main_v69 main_v70 (fun x i => Host.gather gather_S100000x128_S1700000x1_S1700000x128_1_0_n_n_0_1_1128 x i),
    unary main_v26 main_v71 (broadcastInDim S1700000x1 ![0] bcast_S1700000_S1700000x1_0),
    unary main_v71 main_v72 (broadcastInDim S1700000x128 ![0, 1] bcast_S1700000x1_S1700000x128_0_1),
    binary main_v70 main_v72 main_v73 mulf,
    nullary main_cst_12 (constant S_ .f32 0x00000000#32),
    unary main_cst_12 main_v74 (broadcastInDim S100000x128 ![] bcast_S_S100000x128),
    unary main_v6 main_v75 (broadcastInDim S1700000x1 ![0] bcast_S1700000_S1700000x1_0),
    ternary main_v74 main_v75 main_v73 main_v76 (fun x i u => Host.scatterAdd scatter_S100000x128_S1700000x1_S1700000x128_1_0_0_1 x i u),
    unary main_arg7 main_v77 (broadcastInDim S1x128 ![1] bcast_S128_S1x128_1),
    unary main_v77 main_v78 (broadcastInDim S100000x128 ![0, 1] bcast_S1x128_S100000x128_0_1),
    binary main_v76 main_v78 main_v79 addf ]
  ++ eluOps (.of main_v79) main_call2

/-- @log_softmax's 15 operations over its argument's reference and one call's record. -/
def lsmOps (a : TRef sig ⟨S100000x16, .f32⟩) (φ : fn_log_softmax.Bufs) : List (HloOp τ sig (Elt F)) :=
  [ TRef.nullary φ.cst (constant S_ .f32 0xFF800000#32),
    TRef.binary a φ.cst φ.v0 (fun x v => Host.reduce FloatOps.maximumf x v reducesTo_S100000x16_S100000_d1 h_S_),
    TRef.nullary φ.cst_0 (constant S_ .f32 0xFF800000#32),
    TRef.unary φ.cst_0 φ.v1 (broadcastInDim S100000 ![] bcast_S_S100000),
    TRef.binary φ.v1 φ.v0 φ.v2 maximumf,
    TRef.unary φ.v2 φ.v3 (broadcastInDim S100000x1 ![0] bcast_S100000_S100000x1_0),
    TRef.unary φ.v3 φ.v4 (broadcastInDim S100000x16 ![0, 1] bcast_S100000x1_S100000x16_0_1),
    TRef.binary a φ.v4 φ.v5 subf,
    TRef.unary φ.v5 φ.v6 Host.exp,
    TRef.nullary φ.cst_1 (constant S_ .f32 0x00000000#32),
    TRef.binary φ.v6 φ.cst_1 φ.v7 (fun x v => Host.reduceAdd x v reducesTo_S100000x16_S100000_d1 h_S_),
    TRef.unary φ.v7 φ.v8 (broadcastInDim S100000x1 ![0] bcast_S100000_S100000x1_0),
    TRef.unary φ.v8 φ.v9 Host.log,
    TRef.unary φ.v9 φ.v10 (broadcastInDim S100000x16 ![0, 1] bcast_S100000x1_S100000x16_0_1),
    TRef.binary φ.v5 φ.v10 φ.v11 subf ]

/-- The classifier: h · Wfc + bfc, and the log-softmax at call 3 (19 operations). -/
def opsC : List (HloOp τ sig (Elt F)) :=
  [ binary main_v80 main_arg8 main_v81 (fun l r => Host.dotGeneral dot_S100000x128_S128x16_S100000x16_1_0_0_1_n_n none l r),
    unary main_arg9 main_v82 (broadcastInDim S1x16 ![1] bcast_S16_S1x16_1),
    unary main_v82 main_v83 (broadcastInDim S100000x16 ![0, 1] bcast_S1x16_S100000x16_0_1),
    binary main_v81 main_v83 main_v84 addf ]
  ++ lsmOps (.of main_v84) main_call3

/-- @main's 157 operations, in order, the calls unfolded: the six stretches one after the other. -/
def ops : List (HloOp τ sig (Elt F)) :=
  opsA0 ++ (opsA1 ++ (opsB1 ++ (opsB2 ++ (opsB3 ++ opsC))))

-- one hundred and fifty-seven binds re-associated: the rewrite under the chain recurses once per statement
set_option maxRecDepth 8192 in
set_option maxHeartbeats 4000000 in
/-- @main is that straight line: its two windows, the functions' definitions unfolded at their calls and the records
    at their fields, are one chain of `hlo` steps once sequencing is reassociated. -/
theorem main_eq (c : Dev nD) : main (F := F) c = seq ops := by
  simp only [main, main_part0, main_part1, fn_elu.body, fn_where.body, fn_where_0.body, fn_log_softmax.body,
    ops, opsA0, opsA1, opsB1, opsB2, opsB3, opsC, eluOps, lsmOps, List.cons_append, List.nil_append,
    seq, bind_assoc, pure_bind]
  rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore references only. -/
theorem ops_sub : (ops : List (HloOp τ sig (Elt F))).Forall fun op => op.bufs ⊆ tcRefs τ sig := by
  simp only [ops, opsA0, opsA1, opsB1, opsB2, opsB3, opsC, eluOps, lsmOps, List.cons_append, List.nil_append,
    List.Forall, nullary_bufs_sub, unary_bufs_sub, binary_bufs_sub, ternary_bufs_sub, reshape_bufs_sub, and_self]

set_option maxRecDepth 8192 in
/-- Every operation determines its results. -/
theorem ops_fresh : (ops : List (HloOp τ sig (Elt F))).Forall fun op => op.fresh = ∅ := by
  simp only [ops, opsA0, opsA1, opsB1, opsB2, opsB3, opsC, eluOps, lsmOps, List.cons_append, List.nil_append,
    List.Forall]
  repeat' apply And.intro
  all_goals rfl

/-! ## Stretches in turn, and what a stretch writes -/

/-- The fold over two lists run in turn is the second's over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- What one call of @elu writes: its record's references, the nested calls' among them, in order. -/
abbrev eluW (φ : fn_elu.Bufs) : List (Ref sig .tc) :=
  [φ.cst.ref, φ.v0.ref, φ.v1.ref, φ.cst_0.ref, φ.v2.ref, φ.v3.ref, φ.cst_1.ref, φ.call0.v0.ref, φ.call0.v1.ref,
    φ.call0.v2.ref, φ.v5.ref, φ.cst_2.ref, φ.v6.ref, φ.v7.ref, φ.call1.v0.ref]

/-- Each operation of a literal list writes a reference of a literal list: the list's conjunction unfolded, each
    operation's one written buffer read off, its reference found in the list. -/
macro "writes_in_list" : tactic =>
  `(tactic| (simp only [List.cons_append, List.nil_append, List.Forall, nullary_writes, unary_writes, binary_writes,
      ternary_writes, reshape_writes, Finset.singleton_subset_iff, List.mem_toFinset]
             repeat' apply And.intro
             all_goals exact List.mem_map_of_mem (by decide)))

end Cert.RefRun

end
-- ==== Proof.RefStages.lean ====
/-
  The reference's stages as functions of the two edge lists and of the edges' normalisation, once these are values of
  their own: the degrees from a destination list, the normalisation from both lists, one aggregation, one hidden
  layer.  The stages named over the edge table are these at the table's two lists, and the whole reference is three
  hidden layers, the classifier and the log-softmax over them.
-/
import proofs.«145280_j30794915512600_1_alg».proof.Proof.Gen.ReferenceIdeal
import proofs.«145280_j30794915512600_1_alg».proof.Proof.RefSpec

noncomputable section

namespace Cert.RefRun

open Cert.ReferenceIdeal Cert.ReferenceIdeal.Gen Cert.RefSpec
open Idealize.ShloMosaic Idealize.ShloMosaic.TcCoe Idealize.SL.Sem Idealize.ShloMosaic.StableHlo

variable {F : FTy → Type} [FloatOps F]

/-- The degrees from a destination list. -/
def degG (d : IVec S1700000 32) : FVec F S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 d)
    (broadcastInDim S1700000 ![] bcast_S_S1700000 (constant S_ .f32 0x3F800000#32))

/-- The edges' normalisation from a source and a destination list. -/
def nrmG (s d : IVec S1700000 32) : FVec F S1700000 .f32 :=
  mulf (Host.gather gather_S100000_S1700000x1_S1700000_n_0_n_n_0_1_1 (Host.rsqrt (degG d)) (nidxT s))
    (Host.gather gather_S100000_S1700000x1_S1700000_n_0_n_n_0_1_1 (Host.rsqrt (degG d)) (nidxT d))

/-- One aggregation over given lists and a given normalisation. -/
def aggG (s d : IVec S1700000 32) (n : FVec F S1700000 .f32) (h : FVec F S100000x128 .f32) : FVec F S100000x128 .f32 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 d)
    (mulf (Host.gather gather_S100000x128_S1700000x1_S1700000x128_1_0_n_n_0_1_1128 h (nidxT s))
      (broadcastInDim S1700000x128 ![0, 1] bcast_S1700000x1_S1700000x128_0_1
        (broadcastInDim S1700000x1 ![0] bcast_S1700000_S1700000x1_0 n)))

/-- A hidden layer's activation, ELU (aggregate (h · W) + b), over given lists and a given normalisation. -/
def hidG (s d : IVec S1700000 32) (n : FVec F S1700000 .f32) (h : FVec F S100000x128 .f32) (W : FVec F S128x128 .f32)
    (b : FVec F S128 .f32) : FVec F S100000x128 .f32 :=
  eluT (addf (aggG s d n (mmT h W)) (bias128T b))

/-- `RefSpec`'s normalisation is the one over the edge table's two lists. -/
theorem nrm1T_eq (ei : IVec S2x1600000 32) : nrm1T (F := F) ei = nrmG (srcT ei) (dstT ei) := rfl

/-- `RefSpec`'s aggregation is the one over the edge table's two lists and their normalisation. -/
theorem aggT_eq (ei : IVec S2x1600000 32) (h : FVec F S100000x128 .f32) :
    aggT ei h = aggG (srcT ei) (dstT ei) (nrmG (srcT ei) (dstT ei)) h := by
  unfold aggT aggG
  rw [nrm1T_eq]

/-- The whole reference over the stages above: three hidden layers, the classifier, the log-softmax. -/
theorem refOut_eq (x : FVec F S100000x128 .f32) (ei : IVec S2x1600000 32) (W1 : FVec F S128x128 .f32)
    (b1 : FVec F S128 .f32) (W2 : FVec F S128x128 .f32) (b2 : FVec F S128 .f32)
    (W3 : FVec F S128x128 .f32) (b3 : FVec F S128 .f32) (Wfc : FVec F S128x16 .f32) (bfc : FVec F S16 .f32) :
    refOut x ei W1 b1 W2 b2 W3 b3 Wfc bfc
      = lsmT (addf (Host.dotGeneral dot_S100000x128_S128x16_S100000x16_1_0_0_1_n_n none
          (hidG (srcT ei) (dstT ei) (nrmG (srcT ei) (dstT ei))
            (hidG (srcT ei) (dstT ei) (nrmG (srcT ei) (dstT ei))
              (hidG (srcT ei) (dstT ei) (nrmG (srcT ei) (dstT ei)) x W1 b1) W2 b2) W3 b3) Wfc) (bias16T bfc)) := by
  simp only [refOut, logitsT, layerT, hidG, aggT_eq]

end Cert.RefRun

end
-- ==== Proof.RefA.lean ====
/-
  The first two stretches of the reference's line.  The first leaves the source list and the destination list (row 0
  and row 1 of the edge table, each followed by one self loop per node) in their buffers; the second leaves the edges'
  normalisation deg(src)^(-1/2) · deg(dst)^(-1/2), computed from those two lists.
-/
import proofs.«145280_j30794915512600_1_alg».proof.Proof.RefOps
import proofs.«145280_j30794915512600_1_alg».proof.Proof.RefStages

noncomputable section

namespace Cert.RefRun

open Cert.ReferenceIdeal Cert.ReferenceIdeal.Gen Cert.RefSpec
open Idealize.ShloMosaic Idealize.ShloMosaic.TcCoe Idealize.SL.Sem Idealize.ShloMosaic.StableHlo

variable {F : FTy → Type} [FloatOps F]

/-! ## What the stretches compute

Over any contents `W` of the buffers before the stretch: the fold is unrolled, each operation's result read at its own
result buffer and passed over at any other, and what is left is the stage's definition applied to `W` at the buffers
the stretch reads. -/

theorem A0_src (W : Valuation τ sig (Elt F)) :
    after opsA0 W (main_v3 : DevRef τ sig) = srcT (W (main_arg1 : DevRef τ sig)) := by
  simp only [opsA0]
  after_results
  rfl

theorem A0_dst (W : Valuation τ sig (Elt F)) :
    after opsA0 W (main_v6 : DevRef τ sig) = dstT (W (main_arg1 : DevRef τ sig)) := by
  simp only [opsA0]
  after_results
  rfl

attribute [local irreducible] Host.gather Host.scatterAdd Host.reduce Host.reduceAdd in
theorem A1_nrm (W : Valuation τ sig (Elt F)) :
    after opsA1 W (main_v26 : DevRef τ sig) = nrmG (W (main_v3 : DevRef τ sig)) (W (main_v6 : DevRef τ sig)) := by
  simp only [opsA1]
  after_results_simp
  rfl

/-! ## What the stretches leave alone

The references each stretch writes, as a list; a reference not in the list keeps its contents over the stretch. -/

abbrev wA0 : List (Ref sig .tc) := [main_v0, main_v1, main_v2, main_v3, main_v4, main_v5, main_v6]
abbrev wA1 : List (Ref sig .tc) :=
  [main_cst, main_v7, main_cst_0, main_v8, main_v9, main_v10, main_v11, main_c, main_v12, main_v13, main_c_1, main_v14,
    main_v15, main_v16, main_v17, main_v18, main_c_2, main_v19, main_v20, main_c_3, main_v21, main_v22, main_v23,
    main_v24, main_v25, main_v26]

theorem A0_writes : (opsA0 : List (HloOp τ sig (Elt F))).Forall fun op =>
    op.writes ⊆ (wA0.map (Proc.devRef (τ := τ) .tc)).toFinset := by
  unfold opsA0; writes_in_list
theorem A1_writes : (opsA1 : List (HloOp τ sig (Elt F))).Forall fun op =>
    op.writes ⊆ (wA1.map (Proc.devRef (τ := τ) .tc)).toFinset := by
  unfold opsA1; writes_in_list

theorem A0_frame (W : Valuation τ sig (Elt F)) {r : Ref sig .tc} (h : r ∉ wA0) :
    after opsA0 W (no_index (Proc.devRef .tc r)) = W (Proc.devRef .tc r) := after_of_writes_sub opsA0 W A0_writes h
theorem A1_frame (W : Valuation τ sig (Elt F)) {r : Ref sig .tc} (h : r ∉ wA1) :
    after opsA1 W (no_index (Proc.devRef .tc r)) = W (Proc.devRef .tc r) := after_of_writes_sub opsA1 W A1_writes h

end Cert.RefRun

end
-- ==== Proof.RefB1.lean ====
/-
  The third stretch of the reference's line, the first hidden layer: x · W1, gathered along the source list, scaled by
  the normalisation, summed into the destination rows, the bias added, and the ELU.
-/
import proofs.«145280_j30794915512600_1_alg».proof.Proof.RefOps
import proofs.«145280_j30794915512600_1_alg».proof.Proof.RefStages

noncomputable section

namespace Cert.RefRun

open Cert.ReferenceIdeal Cert.ReferenceIdeal.Gen Cert.RefSpec
open Idealize.ShloMosaic Idealize.ShloMosaic.TcCoe Idealize.SL.Sem Idealize.ShloMosaic.StableHlo

variable {F : FTy → Type} [FloatOps F]

/-! ## What the stretch computes

Over any contents `W` of the buffers before the stretch: the fold is unrolled, each operation's result read at its own
result buffer and passed over at any other, and what is left is the stage's definition applied to `W` at the buffers
the stretch reads. -/

attribute [local irreducible] Host.gather Host.scatterAdd Host.reduce Host.reduceAdd in
theorem B1_out (W : Valuation τ sig (Elt F)) :
    after opsB1 W (main_v44 : DevRef τ sig)
      = hidG (W (main_v3 : DevRef τ sig)) (W (main_v6 : DevRef τ sig)) (W (main_v26 : DevRef τ sig))
          (W (main_arg0 : DevRef τ sig)) (W (main_arg2 : DevRef τ sig)) (W (main_arg3 : DevRef τ sig)) := by
  simp only [opsB1, eluOps, List.cons_append, List.nil_append]
  after_results_simp
  rfl

/-! ## What the stretch leaves alone

The references the stretch writes, as a list; a reference not in the list keeps its contents over the stretch. -/

abbrev wB1 : List (Ref sig .tc) :=
  [main_v27, main_c_4, main_v28, main_v29, main_c_5, main_v30, main_v31, main_v32, main_v33, main_v34, main_v35,
    main_v36, main_v37, main_cst_6, main_v38, main_v39, main_v40, main_v41, main_v42, main_v43] ++ eluW main_call0

theorem B1_writes : (opsB1 : List (HloOp τ sig (Elt F))).Forall fun op =>
    op.writes ⊆ (wB1.map (Proc.devRef (τ := τ) .tc)).toFinset := by
  unfold opsB1 eluOps; writes_in_list

theorem B1_frame (W : Valuation τ sig (Elt F)) {r : Ref sig .tc} (h : r ∉ wB1) :
    after opsB1 W (no_index (Proc.devRef .tc r)) = W (Proc.devRef .tc r) := after_of_writes_sub opsB1 W B1_writes h

end Cert.RefRun

end
-- ==== Proof.RefB2.lean ====
/-
  The fourth stretch of the reference's line, the second hidden layer: the first layer's activation times W2, its
  aggregation over the same lists and normalisation, the bias, and the ELU.
-/
import proofs.«145280_j30794915512600_1_alg».proof.Proof.RefOps
import proofs.«145280_j30794915512600_1_alg».proof.Proof.RefStages

noncomputable section

namespace Cert.RefRun

open Cert.ReferenceIdeal Cert.ReferenceIdeal.Gen Cert.RefSpec
open Idealize.ShloMosaic Idealize.ShloMosaic.TcCoe Idealize.SL.Sem Idealize.ShloMosaic.StableHlo

variable {F : FTy → Type} [FloatOps F]

/-! ## What the stretch computes

Over any contents `W` of the buffers before the stretch: the fold is unrolled, each operation's result read at its own
result buffer and passed over at any other, and what is left is the stage's definition applied to `W` at the buffers
the stretch reads. -/

attribute [local irreducible] Host.gather Host.scatterAdd Host.reduce Host.reduceAdd in
theorem B2_out (W : Valuation τ sig (Elt F)) :
    after opsB2 W (main_v62 : DevRef τ sig)
      = hidG (W (main_v3 : DevRef τ sig)) (W (main_v6 : DevRef τ sig)) (W (main_v26 : DevRef τ sig))
          (W (main_v44 : DevRef τ sig)) (W (main_arg4 : DevRef τ sig)) (W (main_arg5 : DevRef τ sig)) := by
  simp only [opsB2, eluOps, List.cons_append, List.nil_append]
  after_results_simp
  rfl

/-! ## What the stretch leaves alone

The references the stretch writes, as a list; a reference not in the list keeps its contents over the stretch. -/

abbrev wB2 : List (Ref sig .tc) :=
  [main_v45, main_c_7, main_v46, main_v47, main_c_8, main_v48, main_v49, main_v50, main_v51, main_v52, main_v53,
    main_v54, main_v55, main_cst_9, main_v56, main_v57, main_v58, main_v59, main_v60, main_v61] ++ eluW main_call1

theorem B2_writes : (opsB2 : List (HloOp τ sig (Elt F))).Forall fun op =>
    op.writes ⊆ (wB2.map (Proc.devRef (τ := τ) .tc)).toFinset := by
  unfold opsB2 eluOps; writes_in_list

theorem B2_frame (W : Valuation τ sig (Elt F)) {r : Ref sig .tc} (h : r ∉ wB2) :
    after opsB2 W (no_index (Proc.devRef .tc r)) = W (Proc.devRef .tc r) := after_of_writes_sub opsB2 W B2_writes h

end Cert.RefRun

end
-- ==== Proof.RefB3.lean ====
/-
  The fifth stretch of the reference's line, the third hidden layer: the second layer's activation times W3, its
  aggregation over the same lists and normalisation, the bias, and the ELU.
-/
import proofs.«145280_j30794915512600_1_alg».proof.Proof.RefOps
import proofs.«145280_j30794915512600_1_alg».proof.Proof.RefStages

noncomputable section

namespace Cert.RefRun

open Cert.ReferenceIdeal Cert.ReferenceIdeal.Gen Cert.RefSpec
open Idealize.ShloMosaic Idealize.ShloMosaic.TcCoe Idealize.SL.Sem Idealize.ShloMosaic.StableHlo

variable {F : FTy → Type} [FloatOps F]

/-! ## What the stretch computes

Over any contents `W` of the buffers before the stretch: the fold is unrolled, each operation's result read at its own
result buffer and passed over at any other, and what is left is the stage's definition applied to `W` at the buffers
the stretch reads. -/

attribute [local irreducible] Host.gather Host.scatterAdd Host.reduce Host.reduceAdd in
theorem B3_out (W : Valuation τ sig (Elt F)) :
    after opsB3 W (main_v80 : DevRef τ sig)
      = hidG (W (main_v3 : DevRef τ sig)) (W (main_v6 : DevRef τ sig)) (W (main_v26 : DevRef τ sig))
          (W (main_v62 : DevRef τ sig)) (W (main_arg6 : DevRef τ sig)) (W (main_arg7 : DevRef τ sig)) := by
  simp only [opsB3, eluOps, List.cons_append, List.nil_append]
  after_results_simp
  rfl

/-! ## What the stretch leaves alone

The references the stretch writes, as a list; a reference not in the list keeps its contents over the stretch. -/

abbrev wB3 : List (Ref sig .tc) :=
  [main_v63, main_c_10, main_v64, main_v65, main_c_11, main_v66, main_v67, main_v68, main_v69, main_v70, main_v71,
    main_v72, main_v73, main_cst_12, main_v74, main_v75, main_v76, main_v77, main_v78, main_v79] ++ eluW main_call2

theorem B3_writes : (opsB3 : List (HloOp τ sig (Elt F))).Forall fun op =>
    op.writes ⊆ (wB3.map (Proc.devRef (τ := τ) .tc)).toFinset := by
  unfold opsB3 eluOps; writes_in_list

theorem B3_frame (W : Valuation τ sig (Elt F)) {r : Ref sig .tc} (h : r ∉ wB3) :
    after opsB3 W (no_index (Proc.devRef .tc r)) = W (Proc.devRef .tc r) := after_of_writes_sub opsB3 W B3_writes h

end Cert.RefRun

end
-- ==== Proof.RefC.lean ====
/-
  The last stretch of the reference's line, the classifier: the third layer's activation times Wfc plus bfc, and the
  log-softmax of each row, (z - max) - log Σ exp (z - max).
-/
import proofs.«145280_j30794915512600_1_alg».proof.Proof.RefOps
import proofs.«145280_j30794915512600_1_alg».proof.Proof.RefStages

noncomputable section

namespace Cert.RefRun

open Cert.ReferenceIdeal Cert.ReferenceIdeal.Gen Cert.RefSpec
open Idealize.ShloMosaic Idealize.ShloMosaic.TcCoe Idealize.SL.Sem Idealize.ShloMosaic.StableHlo

variable {F : FTy → Type} [FloatOps F]

/-! ## What the stretch computes

Over any contents `W` of the buffers before the stretch: the fold is unrolled, each operation's result read at its own
result buffer and passed over at any other, and what is left is the stage's definition applied to `W` at the buffers
the stretch reads.  The log-softmax's operations are stated over typed references; at the call's literal references
the transports between a buffer's own type and the value's type are the identity, and they are removed before the two
sides are compared. -/

/-- A value moved to a reference's own buffer type and back is the value. -/
theorem ofBuf_toBuf {T : BufTy} (x : TRef sig T) (v : T.Contents (Elt F)) : x.ofBuf (x.toBuf v) = v := by
  obtain ⟨r, h, _, _⟩ := x
  subst h
  rfl

/-- At the logits' literal buffer the transport to the value's type is the identity. -/
theorem ofBuf_v84 (h1 : (main_v84 : Ref sig .tc).ty = ⟨S100000x16, .f32⟩) (h2 : (main_v84 : Ref sig .tc).space ≠ .host)
    (h3 : (main_v84 : Ref sig .tc).isScoped = false) (v : (main_v84 : Ref sig .tc).ty.Contents (Elt F)) :
    (TRef.of main_v84 h1 h2 h3).ofBuf v = v := rfl

/-- At the result's literal buffer the transport from the value's type is the identity. -/
theorem toBuf_v85 (h1 : (main_v85 : Ref sig .tc).ty = ⟨S100000x16, .f32⟩) (h2 : (main_v85 : Ref sig .tc).space ≠ .host)
    (h3 : (main_v85 : Ref sig .tc).isScoped = false) (v : FVec F S100000x16 .f32) :
    (TRef.of (T := ⟨S100000x16, .f32⟩) main_v85 h1 h2 h3).toBuf (Val := Elt F) v = v := rfl

/-- The classifier's own four operations: the product, the bias broadcast to every row, the sum. -/
def opsC0 : List (HloOp τ sig (Elt F)) :=
  [ binary main_v80 main_arg8 main_v81 (fun l r => Host.dotGeneral dot_S100000x128_S128x16_S100000x16_1_0_0_1_n_n none l r),
    unary main_arg9 main_v82 (broadcastInDim S1x16 ![1] bcast_S16_S1x16_1),
    unary main_v82 main_v83 (broadcastInDim S100000x16 ![0, 1] bcast_S1x16_S100000x16_0_1),
    binary main_v81 main_v83 main_v84 addf ]

/-- The stretch is those four followed by the log-softmax at call 3. -/
theorem opsC_eq : (opsC : List (HloOp τ sig (Elt F))) = opsC0 ++ lsmOps (.of main_v84) main_call3 := rfl

attribute [local irreducible] Host.gather Host.scatterAdd Host.reduce Host.reduceAdd in
/-- The logits: h · Wfc + bfc. -/
theorem C0_out (W : Valuation τ sig (Elt F)) :
    after opsC0 W (main_v84 : DevRef τ sig)
      = addf (Host.dotGeneral dot_S100000x128_S128x16_S100000x16_1_0_0_1_n_n none
          (W (main_v80 : DevRef τ sig)) (W (main_arg8 : DevRef τ sig))) (bias16T (W (main_arg9 : DevRef τ sig))) := by
  simp only [opsC0]
  after_results_simp
  rfl

attribute [local irreducible] Host.gather Host.scatterAdd Host.reduce Host.reduceAdd in
/-- The log-softmax of whatever the logits' buffer holds. -/
theorem lsm_out (W : Valuation τ sig (Elt F)) :
    after (lsmOps (.of main_v84) main_call3) W (main_v85 : DevRef τ sig) = lsmT (W (main_v84 : DevRef τ sig)) := by
  simp only [lsmOps]
  after_results_simp
  simp only [ofBuf_toBuf, ofBuf_v84, toBuf_v85, lsmT, shiftT, rmaxT]

theorem C_out (W : Valuation τ sig (Elt F)) :
    after opsC W (main_v85 : DevRef τ sig)
      = lsmT (addf (Host.dotGeneral dot_S100000x128_S128x16_S100000x16_1_0_0_1_n_n none
          (W (main_v80 : DevRef τ sig)) (W (main_arg8 : DevRef τ sig))) (bias16T (W (main_arg9 : DevRef τ sig)))) := by
  rw [opsC_eq, after_app, lsm_out, C0_out]

/-! ## What the stretch leaves alone

The references the stretch writes, as a list; a reference not in the list keeps its contents over the stretch. -/

abbrev wC : List (Ref sig .tc) :=
  [main_v81, main_v82, main_v83, main_v84, main_call3_cst, main_call3_v0, main_call3_cst_0, main_call3_v1,
    main_call3_v2, main_call3_v3, main_call3_v4, main_call3_v5, main_call3_v6, main_call3_cst_1, main_call3_v7,
    main_call3_v8, main_call3_v9, main_call3_v10, main_v85]

theorem C_writes : (opsC : List (HloOp τ sig (Elt F))).Forall fun op =>
    op.writes ⊆ (wC.map (Proc.devRef (τ := τ) .tc)).toFinset := by
  unfold opsC lsmOps; writes_in_list

theorem C_frame (W : Valuation τ sig (Elt F)) {r : Ref sig .tc} (h : r ∉ wC) :
    after opsC W (no_index (Proc.devRef .tc r)) = W (Proc.devRef .tc r) := after_of_writes_sub opsC W C_writes h

end Cert.RefRun

end
-- ==== Proof.RefRun.lean ====
/-
  The idealized reference's run, read back: its @main is one straight line of host operations, so every weakly fair
  execution terminates with each buffer at the operations' composed value of the launch arguments; the result
  buffer's value is `refOut`.

  The six stretches compose: the value of each stretch's last buffer is a stage applied to the values the stretch
  reads, a buffer a stretch does not write keeps its contents, and so the result buffer after the whole line is the
  stages composed over the launch arguments, which no stretch writes.
-/
import proofs.«145280_j30794915512600_1_alg».proof.Proof.RefOps
import proofs.«145280_j30794915512600_1_alg».proof.Proof.RefStages
import proofs.«145280_j30794915512600_1_alg».proof.Proof.RefA
import proofs.«145280_j30794915512600_1_alg».proof.Proof.RefB1
import proofs.«145280_j30794915512600_1_alg».proof.Proof.RefB2
import proofs.«145280_j30794915512600_1_alg».proof.Proof.RefB3
import proofs.«145280_j30794915512600_1_alg».proof.Proof.RefC

noncomputable section

namespace Cert.RefRun

open Cert.ReferenceIdeal Cert.ReferenceIdeal.Gen Cert.RefSpec
open Idealize.ShloMosaic Idealize.ShloMosaic.TcCoe Idealize.SL.Sem Idealize.ShloMosaic.StableHlo

variable {F : FTy → Type} [FloatOps F]

/-! ## The line's results -/

/-- The result buffer after the whole line: the stretches composed, each stretch's value read at the contents the
    earlier ones leave, the buffers in between passed over the stretches that do not write them. -/
theorem out_eq (V : Valuation τ sig (Elt F)) :
    after ops V (main_v85 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  rw [refOut_eq]
  simp only [ops, after_app]
  rw [C_out, B3_out, B2_out, B1_out]
  simp (disch := decide) only [B3_frame, B2_frame, B1_frame]
  rw [A1_nrm]
  simp (disch := decide) only [A1_frame]
  rw [A0_src, A0_dst]
  simp (disch := decide) only [A0_frame]

/-- An argument's buffer after the whole line: no stretch writes it. -/
theorem arg_eq (V : Valuation τ sig (Elt F)) {r : Ref sig .tc}
    (h0 : r ∉ wA0) (h1 : r ∉ wA1) (h2 : r ∉ wB1) (h3 : r ∉ wB2) (h4 : r ∉ wB3) (h5 : r ∉ wC) :
    after ops V (Proc.devRef .tc r) = V (Proc.devRef .tc r) := by
  simp only [ops, after_app]
  rw [C_frame _ h5, B3_frame _ h4, B2_frame _ h3, B1_frame _ h2, A1_frame _ h1, A0_frame _ h0]

/-- From any memory with zero counters every weakly fair execution of the reference terminates, the result buffer at
    `refOut` of the launch arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v85) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v85).trans (out_eq _),
      (h c main_arg0).trans (arg_eq _ (by decide) (by decide) (by decide) (by decide) (by decide) (by decide)),
      (h c main_arg1).trans (arg_eq _ (by decide) (by decide) (by decide) (by decide) (by decide) (by decide)),
      (h c main_arg2).trans (arg_eq _ (by decide) (by decide) (by decide) (by decide) (by decide) (by decide)),
      (h c main_arg3).trans (arg_eq _ (by decide) (by decide) (by decide) (by decide) (by decide) (by decide)),
      (h c main_arg4).trans (arg_eq _ (by decide) (by decide) (by decide) (by decide) (by decide) (by decide)),
      (h c main_arg5).trans (arg_eq _ (by decide) (by decide) (by decide) (by decide) (by decide) (by decide)),
      (h c main_arg6).trans (arg_eq _ (by decide) (by decide) (by decide) (by decide) (by decide) (by decide)),
      (h c main_arg7).trans (arg_eq _ (by decide) (by decide) (by decide) (by decide) (by decide) (by decide)),
      (h c main_arg8).trans (arg_eq _ (by decide) (by decide) (by decide) (by decide) (by decide) (by decide)),
      (h c main_arg9).trans (arg_eq _ (by decide) (by decide) (by decide) (by decide) (by decide) (by decide))⟩)
    (run_seq scopedRefs_eq scopedSems_eq defs main (fun _ => ops) main_eq (fun _ => ops_sub) m ρ
      (fun _ => List.forall_iff_forall_mem.1 ops_fresh))

end Cert.RefRun

end
-- ==== Proof.Reals.lean ====
/-
  "Every entry is a real number": the property of an array of extended reals under which the algebra of this
  certificate is the algebra of the real numbers.
-/
import Idealize.ShloMosaic.PureOps.Ideal

noncomputable section

namespace Cert.Reals

open Idealize.ShloMosaic

/-- Every entry of the array is (the image of) a real number: neither +∞ nor -∞. -/
def AllReal {s : Shape} (x : s.Idx → EReal) : Prop := ∀ i, ∃ r : ℝ, x i = (r : EReal)

end Cert.Reals

end
-- ==== Proof.RealChain.lean ====
/-
  The values the reference computes are real numbers when its float inputs are.

  The degree of a node counts the list entries whose destination it is, and the self loop of node i is such an entry,
  so every degree is a real number ≥ 1 and its reciprocal square root is a real number; an edge's normalisation is a
  product of two of those.  A gather picks entries of its operand, a broadcast repeats them, a scatter-add adds
  finitely many of them to a zero: each keeps "every entry is real".  So do a matrix product with a real matrix, a
  real bias, and ELU (exp of a real number is real).
-/
import proofs.«145280_j30794915512600_1_alg».proof.Proof.RefSpec
import proofs.«145280_j30794915512600_1_alg».proof.Proof.Reals
import Idealize.ShloMosaic.PureOps.Ideal.Laws
import Idealize.ShloMosaic.Lib.ValueIdx
import Idealize.ShloMosaic.Lib.StableHlo.Predicate
import Idealize.ShloMosaic.Lib.Pipeline.Value

noncomputable section

namespace Cert.RealChain

open Cert.ReferenceIdeal Cert.RefSpec Cert.Reals
open Idealize.ShloMosaic Idealize.ShloMosaic.ValueIdx

/-- A finite sum of real numbers is a real number. -/
theorem exists_real_sum {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := hf a (Finset.mem_insert_self a s)
    obtain ⟨q, hq⟩ := ih (fun i hi => hf i (Finset.mem_insert_of_mem hi))
    exact ⟨r + q, by rw [Finset.sum_insert ha, hr, hq, EReal.coe_add]⟩

section Generic
variable {s t si u : Shape} {φ : FTy} {w : Nat}

theorem real_gather (d : GatherDims s si t) {x : FVec Ideal s φ} (idx : IVec si w) (hx : AllReal x) :
    AllReal (Host.gather d x idx) := fun j => hx _

theorem real_bcast (dims : Fin s.rank → Fin t.rank) (h : s.BroadcastsInDim t dims) {x : FVec Ideal s φ}
    (hx : AllReal x) : AllReal (broadcastInDim t dims h x) := fun j => hx _

theorem real_mulf {a b : FVec Ideal s φ} (ha : AllReal a) (hb : AllReal b) : AllReal (mulf a b) := fun i => by
  obtain ⟨p, hp⟩ := ha i
  obtain ⟨q, hq⟩ := hb i
  exact ⟨p * q, by rw [mulf_apply, hp, hq, EReal.coe_mul]⟩

theorem real_addf {a b : FVec Ideal s φ} (ha : AllReal a) (hb : AllReal b) : AllReal (addf a b) := fun i => by
  obtain ⟨p, hp⟩ := ha i
  obtain ⟨q, hq⟩ := hb i
  exact ⟨p + q, by rw [addf_apply, hp, hq, EReal.coe_add]⟩

theorem real_select (c : IVec s 1) {a b : FVec Ideal s φ} (ha : AllReal a) (hb : AllReal b) :
    AllReal (select c a b) := fun i => by
  rw [select_apply]
  unfold Scalar.select
  split
  · exact ha i
  · exact hb i

theorem real_scatterAdd (d : ScatterDims s si u) {x : FVec Ideal s φ} (idx : IVec si w) {upd : FVec Ideal u φ}
    (hx : AllReal x) (hu : AllReal upd) : AllReal (Host.scatterAdd d x idx upd) := fun i => by
  obtain ⟨p, hp⟩ := hx i
  obtain ⟨q, hq⟩ := exists_real_sum (Finset.univ.filter (fun j => d.resultIdx? j idx = some i)) upd (fun j _ => hu j)
  refine ⟨p + q, ?_⟩
  show x i + ∑ j ∈ Finset.univ.filter (fun j => d.resultIdx? j idx = some i), upd j = _
  rw [hp, hq, EReal.coe_add]

theorem real_expm1 {a : FVec Ideal s φ} (ha : AllReal a) : AllReal (Host.expm1 a) := fun i => by
  obtain ⟨p, hp⟩ := ha i
  refine ⟨Real.exp p - 1, ?_⟩
  show Ideal.exp (a i) - 1 = _
  rw [hp, Ideal.exp_coe, EReal.coe_sub, EReal.coe_one]

end Generic

/-- The zero word is the real number 0. -/
theorem real_zero (s : Shape) : AllReal (constant (F := Ideal) s .f32 0x00000000#32) := fun i =>
  ⟨0, by rw [constant_apply, Ideal.ofBits_zero_f32, EReal.coe_zero]⟩

/-- The word 0x3F800000 is the real number 1. -/
theorem ofBits_one_f32 : Ideal.ofBits .f32 0x3F800000#32 = ((1 : ℝ) : EReal) := by
  have e1 : (BitVec.extractLsb' 23 8 1065353216#32).toNat = 127 := by decide
  have e2 : (BitVec.extractLsb' 0 23 1065353216#32).toNat = 0 := by decide
  have e3 : (BitVec.extractLsb' (8 + 23) 1 1065353216#32 == 1#1) = false := by decide
  simp only [Ideal.ofBits, Ideal.ieee, e1, e2, e3]
  norm_num

theorem real_one (s : Shape) : AllReal (constant (F := Ideal) s .f32 0x3F800000#32) := fun i =>
  ⟨1, by rw [constant_apply, ofBits_one_f32]⟩

section Degree

/-- A sum of ones over a finite set is the set's size. -/
theorem sum_ones {ι : Type} (s : Finset ι) (f : ι → EReal) (hf : ∀ i ∈ s, f i = ((1 : ℝ) : EReal)) :
    ∑ i ∈ s, f i = ((s.card : ℝ) : EReal) := by
  classical
  induction s using Finset.induction_on with
  | empty => simp
  | insert a s ha ih =>
    rw [Finset.sum_insert ha, hf a (Finset.mem_insert_self a s), ih (fun i hi => hf i (Finset.mem_insert_of_mem hi)),
      Finset.card_insert_of_notMem ha, ← EReal.coe_add]
    congr 1
    push_cast
    ring

/-- The window of list entry `j` starts, on the operand's one axis, at the signed value of the `j`-th index. -/
theorem deg_start_eq (h : S1700000.BroadcastsInDim S1700000x1 (![0] : Fin 1 → Fin S1700000x1.rank)) (v : IVec S1700000 32)
    (j : S1700000.Idx) (a : Fin S100000.rank) :
    scatter_S100000_S1700000x1_S1700000_n_0_0_1.start j (broadcastInDim S1700000x1 ![0] h v) a = (v j).toInt := by
  have ha : a = 0 := Subsingleton.elim _ _
  subst ha
  unfold ScatterDims.start
  rw [dif_pos (show (0 : Fin S100000.rank) ∈ scatter_S100000_S1700000x1_S1700000_n_0_0_1.scatterDimsToOperandDims by decide)]
  congr 1
  simp only [broadcastInDim]
  congr 1
  funext b
  have hb : b = 0 := Subsingleton.elim _ _
  subst hb
  apply Fin.ext
  rw [dif_neg (show ¬ S1700000.size 0 = 1 by decide)]
  rfl

/-- The one operand axis is inserted: the window has no extent along it. -/
theorem deg_window_eq (j : S1700000.Idx) (a : Fin S100000.rank) :
    scatter_S100000_S1700000x1_S1700000_n_0_0_1.window j a = 0 := by
  have ha : a = 0 := Subsingleton.elim _ _
  subst ha
  unfold ScatterDims.window
  rw [dif_neg (show ¬ (0 : Fin S100000.rank) ∈ scatter_S100000_S1700000x1_S1700000_n_0_0_1.sKept by decide)]

/-- A list entry whose index reads, signed, the number of node `i` is added to node `i`. -/
theorem resultIdx_of_toInt (h : S1700000.BroadcastsInDim S1700000x1 (![0] : Fin 1 → Fin S1700000x1.rank))
    (v : IVec S1700000 32) (j : S1700000.Idx) (i : S100000.Idx) (hv : (v j).toInt = ((i 0).val : Int)) :
    scatter_S100000_S1700000x1_S1700000_n_0_0_1.resultIdx? j (broadcastInDim S1700000x1 ![0] h v) = some i := by
  have hlt : (i 0).val < 100000 := (i 0).isLt
  have H : ∀ a, 0 ≤ scatter_S100000_S1700000x1_S1700000_n_0_0_1.start j (broadcastInDim S1700000x1 ![0] h v) a
        + scatter_S100000_S1700000x1_S1700000_n_0_0_1.window j a
      ∧ scatter_S100000_S1700000x1_S1700000_n_0_0_1.start j (broadcastInDim S1700000x1 ![0] h v) a
        + scatter_S100000_S1700000x1_S1700000_n_0_0_1.window j a < S100000.size a := by
    intro a
    rw [deg_start_eq, deg_window_eq, hv]
    have ha : a = 0 := Subsingleton.elim _ _
    subst ha
    show 0 ≤ ((i 0).val : Int) + ((0 : Nat) : Int) ∧ ((i 0).val : Int) + ((0 : Nat) : Int) < ((100000 : Nat) : Int)
    omega
  unfold ScatterDims.resultIdx?
  rw [dif_pos H]
  congr 1
  funext a
  apply Fin.ext
  show (scatter_S100000_S1700000x1_S1700000_n_0_0_1.start j (broadcastInDim S1700000x1 ![0] h v) a
    + scatter_S100000_S1700000x1_S1700000_n_0_0_1.window j a).toNat = (i a).val
  rw [deg_start_eq, deg_window_eq, hv]
  have ha : a = 0 := Subsingleton.elim _ _
  subst ha
  simp

end Degree

section ScatterOnes
variable {s si u : Shape} {w : Nat}

/-- A scatter-add of ones onto a zero is, at an element that some update lands on, a positive real number:
    the number of updates that land on it. -/
theorem scatterAdd_ones_pos (d : ScatterDims s si u) (x : FVec Ideal s .f32) (idx : IVec si w) (upd : FVec Ideal u .f32)
    (i : s.Idx) (hx : x i = 0) (hu : ∀ j, upd j = ((1 : ℝ) : EReal)) (j₀ : u.Idx) (hj : d.resultIdx? j₀ idx = some i) :
    ∃ r : ℝ, 0 < r ∧ Host.scatterAdd d x idx upd i = (r : EReal) := by
  refine ⟨((Finset.univ.filter (fun j => d.resultIdx? j idx = some i)).card : ℝ), ?_, ?_⟩
  · have : 0 < (Finset.univ.filter (fun j => d.resultIdx? j idx = some i)).card :=
      Finset.card_pos.2 ⟨j₀, Finset.mem_filter.2 ⟨Finset.mem_univ _, hj⟩⟩
    exact_mod_cast this
  · show x i + ∑ j ∈ Finset.univ.filter (fun j => d.resultIdx? j idx = some i), upd j = _
    rw [hx, zero_add]
    exact sum_ones _ _ (fun j _ => hu j)

end ScatterOnes

section Rsqrt
variable {s : Shape} {φ : FTy}

/-- The reciprocal square root of a positive real number is a real number. -/
theorem rsqrt_real_of_pos (x : FVec Ideal s φ) (i : s.Idx) (r : ℝ) (hr : 0 < r) (he : x i = (r : EReal)) :
    Host.rsqrt x i = (((Real.sqrt r)⁻¹ : ℝ) : EReal) := by
  show Ideal.rsqrt (x i) = _
  rw [he, Ideal.rsqrt_coe, if_neg (not_lt.2 hr.le), if_neg hr.ne']

end Rsqrt

section Degree2
/-- Where node `i`'s self loop stands in the list: after the 1,600,000 edges. -/
def loopPos (i : S100000.Idx) : S1700000.Idx :=
  ix1 ⟨1600000 + (i 0).val, by have : (i 0).val < 100000 := (i 0).isLt; omega⟩

/-- The destination of node `i`'s self loop is `i`. -/
theorem dstT_loop (ei : IVec S2x1600000 32) (i : S100000.Idx) : dstT ei (loopPos i) = BitVec.ofNat 32 (i 0).val := by
  unfold dstT
  rw [concatenate_pair_apply_right (s₁ := S1600000) (s₂ := S100000) (0 : Fin S1700000.rank) _ _ _ (loopPos i) rfl rfl i ?_ ?_]
  · rfl
  · intro b hb; exact absurd (Subsingleton.elim _ _) hb
  · exact Nat.add_comm _ _

end Degree2

section Degree3
/-- Every degree is a positive real number: it counts list entries, the node's own self loop among them. -/
theorem deg_pos (ei : IVec S2x1600000 32) (i : S100000.Idx) :
    ∃ r : ℝ, 0 < r ∧ degT (F := Ideal) ei i = (r : EReal) := by
  have hlt : (i 0).val < 100000 := (i 0).isLt
  unfold degT
  refine scatterAdd_ones_pos _ _ _ _ i ?_ (fun j => ofBits_one_f32) (loopPos i) ?_
  · exact Ideal.ofBits_zero_f32
  · refine resultIdx_of_toInt _ _ _ _ ?_
    rw [dstT_loop, StableHlo.Predicate.toInt_ofNat_small _ (by omega)]

/-- The reciprocal square root of every degree is a real number. -/
theorem real_rsqrt_deg (ei : IVec S2x1600000 32) : AllReal (Host.rsqrt (degT (F := Ideal) ei)) := fun i => by
  obtain ⟨r, hr, he⟩ := deg_pos ei i
  exact ⟨(Real.sqrt r)⁻¹, rsqrt_real_of_pos _ i r hr he⟩

end Degree3

section Stages

theorem real_dot {sl sr so : Shape} {φ₁ φ₂ : FTy} (d : DotDims sl sr so) {l : FVec Ideal sl φ₁} {r : FVec Ideal sr φ₂}
    (hl : AllReal l) (hr : AllReal r) : AllReal (Host.dotGeneral (F := Ideal) d none l r) := fun j => by
  simp only [Host.dotGeneral]
  rw [Ideal.dotGeneral_apply]
  refine exists_real_sum _ _ (fun k _ => ?_)
  obtain ⟨p, hp⟩ := hl (d.lhsIdx j k)
  obtain ⟨q, hq⟩ := hr (d.rhsIdx j k)
  exact ⟨p * q, by rw [hp, hq, EReal.coe_mul]⟩

theorem real_zerosT : AllReal (zerosT (F := Ideal)) := real_bcast _ _ (real_zero _)

theorem real_elu {a : FVec Ideal S100000x128 .f32} (ha : AllReal a) : AllReal (eluT (F := Ideal) a) := by
  unfold eluT
  exact real_select _ ha (real_mulf (real_bcast _ _ (real_one _)) (real_expm1 (real_select _ real_zerosT ha)))

theorem real_bias128 {b : FVec Ideal S128 .f32} (hb : AllReal b) : AllReal (bias128T (F := Ideal) b) :=
  real_bcast _ _ (real_bcast _ _ hb)

theorem real_bias16 {b : FVec Ideal S16 .f32} (hb : AllReal b) : AllReal (bias16T (F := Ideal) b) :=
  real_bcast _ _ (real_bcast _ _ hb)

/-- Every edge's normalisation is a real number (every degree is at least 1: the node's own self loop). -/
theorem real_nrm1 (ei : IVec S2x1600000 32) : AllReal (nrm1T (F := Ideal) ei) := by
  unfold nrm1T
  exact real_mulf (real_gather _ _ (real_rsqrt_deg ei)) (real_gather _ _ (real_rsqrt_deg ei))

/-- Aggregating a matrix of real numbers gives a matrix of real numbers. -/
theorem real_agg (ei : IVec S2x1600000 32) {h : FVec Ideal S100000x128 .f32} (hh : AllReal h) :
    AllReal (aggT (F := Ideal) ei h) := by
  unfold aggT
  exact real_scatterAdd _ _ (real_bcast _ _ (real_zero _))
    (real_mulf (real_gather _ _ hh) (real_bcast _ _ (real_bcast _ _ (real_nrm1 ei))))

/-- The product of two matrices of real numbers is a matrix of real numbers. -/
theorem real_mm {h : FVec Ideal S100000x128 .f32} {W : FVec Ideal S128x128 .f32} (hh : AllReal h) (hW : AllReal W) :
    AllReal (mmT (F := Ideal) h W) := by
  unfold mmT
  exact real_dot _ hh hW

/-- A hidden layer's product of real numbers is a matrix of real numbers. -/
theorem real_layer {a : FVec Ideal S100000x128 .f32} {b : FVec Ideal S128 .f32} {W : FVec Ideal S128x128 .f32}
    (ha : AllReal a) (hb : AllReal b) (hW : AllReal W) : AllReal (layerT (F := Ideal) a b W) := by
  unfold layerT
  exact real_mm (real_elu (real_addf ha (real_bias128 hb))) hW

/-- The classifier's logits of real numbers are real numbers. -/
theorem real_logits {a : FVec Ideal S100000x128 .f32} {b : FVec Ideal S128 .f32} {W : FVec Ideal S128x16 .f32}
    {c : FVec Ideal S16 .f32} (ha : AllReal a) (hb : AllReal b) (hW : AllReal W) (hc : AllReal c) :
    AllReal (logitsT (F := Ideal) a b W c) := by
  unfold logitsT
  exact real_addf (real_dot _ (real_elu (real_addf ha (real_bias128 hb))) hW) (real_bias16 hc)

end Stages

end Cert.RealChain

end
-- ==== Proof.BridgeDot.lean ====
/-
  The kernels' whole-array functions are the reference's layers.

  A block-wise matrix product and jnp's whole-array `dot_general` are the same sum over the contracted axis; the
  kernel's ELU, a if a > 0 else exp a - 1, is jax.nn.elu's, a if a > 0 else 1 · expm1 (0 if a > 0 else a), at every
  extended real, because expm1 a is exp a - 1 there; and a bias reshaped to one row and read at column k is the bias
  broadcast over the rows, read at (r, k).
-/
import proofs.«145280_j30794915512600_1_alg».proof.Proof.KSpec
import proofs.«145280_j30794915512600_1_alg».proof.Proof.RefSpec
import Idealize.ShloMosaic.PureOps.Ideal.Laws
import Idealize.ShloMosaic.Lib.ValueIdx
import Idealize.ShloMosaic.Lib.ValueLayout
import Idealize.ShloMosaic.Lib.Pipeline.Value

noncomputable section

namespace Cert.BridgeDot

open Idealize.ShloMosaic Idealize.ShloMosaic.ValueIdx

/-! ## The ELU -/

/-- The word 0x3F800000 is the real number 1. -/
theorem one_word : Ideal.ofBits .f32 0x3F800000#32 = 1 := by
  simp [Ideal.ofBits, Ideal.ieee, -EReal.coe_mul]; norm_num

/-- The all-zero matrix at an entry is the zero word's value. -/
theorem zerosT_apply (i : Cert.ReferenceIdeal.S100000x128.Idx) :
    Cert.RefSpec.zerosT (F := Ideal) i = Ideal.ofBits .f32 0x00000000#32 := rfl

/-- The reference's ELU at an entry is the kernels' scalar ELU of that entry. -/
theorem eluT_apply (a : FVec Ideal Cert.ReferenceIdeal.S100000x128 .f32) (i : Cert.ReferenceIdeal.S100000x128.Idx) :
    Cert.RefSpec.eluT (F := Ideal) a i = Cert.KSpec.eluS (a i) := by
  unfold Cert.RefSpec.eluT Cert.KSpec.eluS
  rw [select_apply, cmpf_apply, zerosT_apply]
  by_cases h : FloatOps.cmpf (F := Ideal) (φ := .f32) .ogt (a i) (Ideal.ofBits .f32 0x00000000#32) = 1#1
  · -- a i > 0: both sides are a i
    rw [h, select_one, select_one]
  · -- otherwise: 1 · expm1 (a i) = 1 · (exp (a i) - 1) = exp (a i) - 1
    rw [eq_zero_of_ne_one h, select_zero, select_zero, mulf_apply]
    have hb : broadcastInDim Cert.ReferenceIdeal.S100000x128 ![] Cert.ReferenceIdeal.Facts₀.bcast_S_S100000x128
        (constant (F := Ideal) Cert.ReferenceIdeal.S_ .f32 0x3F800000#32) i = Ideal.ofBits .f32 0x3F800000#32 := rfl
    have he : Host.expm1 (select (cmpf .ogt a (Cert.RefSpec.zerosT (F := Ideal))) (Cert.RefSpec.zerosT (F := Ideal)) a) i
        = Ideal.exp (a i) - 1 := by
      show Ideal.exp (select (cmpf .ogt a (Cert.RefSpec.zerosT (F := Ideal))) (Cert.RefSpec.zerosT (F := Ideal)) a i) - 1 = _
      rw [select_apply, cmpf_apply, zerosT_apply, eq_zero_of_ne_one h, select_zero]
    rw [hb, he, one_word, one_mul]

/-! ## The hidden-width product: where its dimension numbers read the operands -/

theorem lhs_mm_0 (j : Cert.ReferenceIdeal.S100000x128.Idx)
    (k : Cert.ReferenceIdeal.dot_S100000x128_S128x128_S100000x128_1_0_0_1_n_n.contr.Idx) :
    (Cert.ReferenceIdeal.dot_S100000x128_S128x128_S100000x128_1_0_0_1_n_n.lhsIdx j k 0).val = (j 0).val := rfl

theorem lhs_mm_1 (j : Cert.ReferenceIdeal.S100000x128.Idx)
    (k : Cert.ReferenceIdeal.dot_S100000x128_S128x128_S100000x128_1_0_0_1_n_n.contr.Idx) :
    (Cert.ReferenceIdeal.dot_S100000x128_S128x128_S100000x128_1_0_0_1_n_n.lhsIdx j k 1).val = (k ⟨0, by decide⟩).val :=
  Cert.ReferenceIdeal.dot_S100000x128_S128x128_S100000x128_1_0_0_1_n_n.lhsIdx_val_of_single rfl j k

theorem rhs_mm_0 (j : Cert.ReferenceIdeal.S100000x128.Idx)
    (k : Cert.ReferenceIdeal.dot_S100000x128_S128x128_S100000x128_1_0_0_1_n_n.contr.Idx) :
    (Cert.ReferenceIdeal.dot_S100000x128_S128x128_S100000x128_1_0_0_1_n_n.rhsIdx j k 0).val = (k ⟨0, by decide⟩).val :=
  Cert.ReferenceIdeal.dot_S100000x128_S128x128_S100000x128_1_0_0_1_n_n.rhsIdx_val_of_single rfl j k

theorem rhs_mm_1 (j : Cert.ReferenceIdeal.S100000x128.Idx)
    (k : Cert.ReferenceIdeal.dot_S100000x128_S128x128_S100000x128_1_0_0_1_n_n.contr.Idx) :
    (Cert.ReferenceIdeal.dot_S100000x128_S128x128_S100000x128_1_0_0_1_n_n.rhsIdx j k 1).val = (j 1).val := rfl

/-- The reference's hidden-width product at (p, q) is the sum over the contracted coordinate. -/
theorem mmT_apply (h : FVec Ideal Cert.ReferenceIdeal.S100000x128 .f32) (W : FVec Ideal Cert.ReferenceIdeal.S128x128 .f32)
    (p : Fin 100000) (q : Fin 128) :
    Cert.RefSpec.mmT (F := Ideal) h W (ix2 p q) = ∑ k : Fin 128, h (ix2 p k) * W (ix2 k q) := by
  unfold Cert.RefSpec.mmT
  show FloatOps.dotGeneral _ none _ h W (ix2 p q) = _
  rw [Ideal.dotGeneral_apply,
    ← Equiv.sum_comp (contrEquiv1 Cert.ReferenceIdeal.dot_S100000x128_S128x128_S100000x128_1_0_0_1_n_n 128 rfl rfl).symm]
  refine Finset.sum_congr rfl fun c _ => ?_
  have hc := contrEquiv1_symm_val Cert.ReferenceIdeal.dot_S100000x128_S128x128_S100000x128_1_0_0_1_n_n 128 rfl rfl c
  have l2 : Cert.ReferenceIdeal.dot_S100000x128_S128x128_S100000x128_1_0_0_1_n_n.lhsIdx (ix2 p q)
      ((contrEquiv1 _ 128 rfl rfl).symm c) = ix2 p c := by
    funext ax; apply Fin.ext
    match ax with
    | ⟨0, _⟩ => exact lhs_mm_0 _ _
    | ⟨1, _⟩ => exact (lhs_mm_1 _ _).trans hc
  have r2 : Cert.ReferenceIdeal.dot_S100000x128_S128x128_S100000x128_1_0_0_1_n_n.rhsIdx (ix2 p q)
      ((contrEquiv1 _ 128 rfl rfl).symm c) = ix2 c q := by
    funext ax; apply Fin.ext
    match ax with
    | ⟨0, _⟩ => exact (rhs_mm_0 _ _).trans hc
    | ⟨1, _⟩ => exact rhs_mm_1 _ _
  rw [l2, r2]

/-! ## The classifier's product: the same reading at sixteen columns -/

theorem lhs_fc_0 (j : Cert.ReferenceIdeal.S100000x16.Idx)
    (k : Cert.ReferenceIdeal.dot_S100000x128_S128x16_S100000x16_1_0_0_1_n_n.contr.Idx) :
    (Cert.ReferenceIdeal.dot_S100000x128_S128x16_S100000x16_1_0_0_1_n_n.lhsIdx j k 0).val = (j 0).val := rfl

theorem lhs_fc_1 (j : Cert.ReferenceIdeal.S100000x16.Idx)
    (k : Cert.ReferenceIdeal.dot_S100000x128_S128x16_S100000x16_1_0_0_1_n_n.contr.Idx) :
    (Cert.ReferenceIdeal.dot_S100000x128_S128x16_S100000x16_1_0_0_1_n_n.lhsIdx j k 1).val = (k ⟨0, by decide⟩).val :=
  Cert.ReferenceIdeal.dot_S100000x128_S128x16_S100000x16_1_0_0_1_n_n.lhsIdx_val_of_single rfl j k

theorem rhs_fc_0 (j : Cert.ReferenceIdeal.S100000x16.Idx)
    (k : Cert.ReferenceIdeal.dot_S100000x128_S128x16_S100000x16_1_0_0_1_n_n.contr.Idx) :
    (Cert.ReferenceIdeal.dot_S100000x128_S128x16_S100000x16_1_0_0_1_n_n.rhsIdx j k 0).val = (k ⟨0, by decide⟩).val :=
  Cert.ReferenceIdeal.dot_S100000x128_S128x16_S100000x16_1_0_0_1_n_n.rhsIdx_val_of_single rfl j k

theorem rhs_fc_1 (j : Cert.ReferenceIdeal.S100000x16.Idx)
    (k : Cert.ReferenceIdeal.dot_S100000x128_S128x16_S100000x16_1_0_0_1_n_n.contr.Idx) :
    (Cert.ReferenceIdeal.dot_S100000x128_S128x16_S100000x16_1_0_0_1_n_n.rhsIdx j k 1).val = (j 1).val := rfl

/-- The reference's classifier product at (r, j) is the sum over the contracted coordinate. -/
theorem fcT_apply (h : FVec Ideal Cert.ReferenceIdeal.S100000x128 .f32) (W : FVec Ideal Cert.ReferenceIdeal.S128x16 .f32)
    (r : Fin 100000) (j : Fin 16) :
    Host.dotGeneral (F := Ideal) Cert.ReferenceIdeal.dot_S100000x128_S128x16_S100000x16_1_0_0_1_n_n none h W (ix2 r j)
      = ∑ k : Fin 128, h (ix2 r k) * W (ix2 k j) := by
  show FloatOps.dotGeneral _ none _ h W (ix2 r j) = _
  rw [Ideal.dotGeneral_apply,
    ← Equiv.sum_comp (contrEquiv1 Cert.ReferenceIdeal.dot_S100000x128_S128x16_S100000x16_1_0_0_1_n_n 128 rfl rfl).symm]
  refine Finset.sum_congr rfl fun c _ => ?_
  have hc := contrEquiv1_symm_val Cert.ReferenceIdeal.dot_S100000x128_S128x16_S100000x16_1_0_0_1_n_n 128 rfl rfl c
  have l2 : Cert.ReferenceIdeal.dot_S100000x128_S128x16_S100000x16_1_0_0_1_n_n.lhsIdx (ix2 r j)
      ((contrEquiv1 _ 128 rfl rfl).symm c) = ix2 r c := by
    funext ax; apply Fin.ext
    match ax with
    | ⟨0, _⟩ => exact lhs_fc_0 _ _
    | ⟨1, _⟩ => exact (lhs_fc_1 _ _).trans hc
  have r2 : Cert.ReferenceIdeal.dot_S100000x128_S128x16_S100000x16_1_0_0_1_n_n.rhsIdx (ix2 r j)
      ((contrEquiv1 _ 128 rfl rfl).symm c) = ix2 c j := by
    funext ax; apply Fin.ext
    match ax with
    | ⟨0, _⟩ => exact (rhs_fc_0 _ _).trans hc
    | ⟨1, _⟩ => exact rhs_fc_1 _ _
  rw [l2, r2]

/-! ## The biases: a vector broadcast over the rows is read at its column -/

/-- The hidden bias broadcast over the rows, read at (p, k), is the bias at k. -/
theorem bias128T_apply (b : FVec Ideal Cert.ReferenceIdeal.S128 .f32) (p : Fin 100000) (k : Fin 128) :
    Cert.RefSpec.bias128T (F := Ideal) b (ix2 p k) = b (ix1 k) := by
  unfold Cert.RefSpec.bias128T
  refine (broadcastInDim_apply _ _ _ (ix2 p k) (ix2 (0 : Fin 1) k) fun ax => ?_).trans
    (broadcastInDim_apply _ _ b (ix2 (0 : Fin 1) k) (ix1 k) fun ax => ?_)
  · match ax with
    | ⟨0, _⟩ => rfl
    | ⟨1, _⟩ => rfl
  · match ax with
    | ⟨0, _⟩ => rfl

/-- The classifier's bias broadcast over the rows, read at (r, j), is the bias at j. -/
theorem bias16T_apply (c : FVec Ideal Cert.ReferenceIdeal.S16 .f32) (r : Fin 100000) (j : Fin 16) :
    Cert.RefSpec.bias16T (F := Ideal) c (ix2 r j) = c (ix1 j) := by
  unfold Cert.RefSpec.bias16T
  refine (broadcastInDim_apply _ _ _ (ix2 r j) (ix2 (0 : Fin 1) j) fun ax => ?_).trans
    (broadcastInDim_apply _ _ c (ix2 (0 : Fin 1) j) (ix1 j) fun ax => ?_)
  · match ax with
    | ⟨0, _⟩ => rfl
    | ⟨1, _⟩ => rfl
  · match ax with
    | ⟨0, _⟩ => rfl

/-! ## The four statements -/

/-- Kernel 0's whole-array function is the reference's first matrix product. -/
theorem G0_eq (x : FVec Ideal Cert.KernelIdeal.S100000x128 .f32) (W : FVec Ideal Cert.KernelIdeal.S128x128 .f32) :
    Cert.KSpec.G0 x W = Cert.RefSpec.mmT (F := Ideal) x W := by
  funext i
  obtain ⟨p, q, rfl⟩ : ∃ (p : Fin 100000) (q : Fin 128), i = ix2 p q := ⟨i 0, i 1, eq_ix2 i⟩
  rw [mmT_apply]
  rfl

/-- Kernels 1 and 2's whole-array function, at a bias reshaped to one row, is the reference's hidden layer. -/
theorem G1_eq (a : FVec Ideal Cert.KernelIdeal.S100000x128 .f32) (b : FVec Ideal Cert.KernelIdeal.S128 .f32)
    (W : FVec Ideal Cert.KernelIdeal.S128x128 .f32) :
    Cert.KSpec.G1 a (shapeCast Cert.KernelIdeal.S1x128 b Cert.KernelIdeal.Facts₀.shapeCasts_S128_S1x128) W
      = Cert.RefSpec.layerT (F := Ideal) a b W := by
  funext i
  obtain ⟨p, q, rfl⟩ : ∃ (p : Fin 100000) (q : Fin 128), i = ix2 p q := ⟨i 0, i 1, eq_ix2 i⟩
  unfold Cert.RefSpec.layerT
  rw [mmT_apply]
  show ∑ k : Fin 128, Cert.KSpec.eluS (a (ix2 p k)
      + shapeCast Cert.KernelIdeal.S1x128 b Cert.KernelIdeal.Facts₀.shapeCasts_S128_S1x128 (ix2 (0 : Fin 1) k)) * W (ix2 k q) = _
  refine Finset.sum_congr rfl fun k _ => ?_
  rw [eluT_apply, addf_apply, bias128T_apply, shapeCast_a_1a_apply]

/-- Kernel 3's logits, at biases reshaped to one row, are the reference's logits, entry by entry. -/
theorem logit_eq (a : FVec Ideal Cert.KernelIdeal.S100000x128 .f32) (b : FVec Ideal Cert.KernelIdeal.S128 .f32)
    (W : FVec Ideal Cert.KernelIdeal.S128x16 .f32) (c : FVec Ideal Cert.KernelIdeal.S16 .f32) (r : Fin 100000) (j : Fin 16) :
    Cert.KSpec.logitK a (shapeCast Cert.KernelIdeal.S1x128 b Cert.KernelIdeal.Facts₀.shapeCasts_S128_S1x128) W
        (shapeCast Cert.KernelIdeal.S1x16 c Cert.KernelIdeal.Facts₀.shapeCasts_S16_S1x16) r j
      = Cert.RefSpec.logitsT (F := Ideal) a b W c (ix2 r j) := by
  unfold Cert.RefSpec.logitsT Cert.KSpec.logitK
  rw [addf_apply, fcT_apply, bias16T_apply, shapeCast_a_1a_apply]
  congr 1
  refine Finset.sum_congr rfl fun k _ => ?_
  rw [eluT_apply, addf_apply, bias128T_apply, shapeCast_a_1a_apply]

end Cert.BridgeDot

end
-- ==== Proof.BridgeLsm.lean ====
/-
  The two log-softmaxes agree on rows of real numbers.

  The kernel computes z - (m + log Σ exp (z - m)), jax.nn.log_softmax (z - m) - log Σ exp (z - m), with m the row's
  maximum.  When the row z consists of real numbers, m is one of them, so -(m + L) = -m - L whatever the extended real
  L is, and the two groupings are equal by associativity of addition.  (Both maxima are the maximum of the same
  sixteen numbers taken from -∞; the reference takes it against -∞ once more, which changes nothing.)
-/
import proofs.«145280_j30794915512600_1_alg».proof.Proof.KSpec
import proofs.«145280_j30794915512600_1_alg».proof.Proof.RefSpec
import proofs.«145280_j30794915512600_1_alg».proof.Proof.Reals
import Idealize.ShloMosaic.PureOps.Ideal.Laws
import Idealize.ShloMosaic.Lib.ValueIdx
import Idealize.ShloMosaic.Lib.ValueLayout
import Idealize.ShloMosaic.Lib.Pipeline.Value

noncomputable section

namespace Cert.BridgeLsm

open Idealize.ShloMosaic Idealize.ShloMosaic.ValueIdx Cert.Reals

/-- The word 0xFF800000 denotes -∞. -/
theorem negInf_eq : Ideal.ofBits .f32 0xFF800000#32 = (⊥ : EReal) := by
  simp [Ideal.ofBits, Ideal.ieee]

/-! ## One row of sixteen real numbers -/

/-- The maximum of sixteen real numbers, taken from -∞, is a real number: it lies above the first of them and
    below +∞. -/
theorem rowMaxK_real (w : Fin 16 → EReal) (hw : ∀ j, ∃ x : ℝ, w j = (x : EReal)) :
    ∃ μ : ℝ, Cert.KSpec.rowMaxK w = (μ : EReal) := by
  have hlt : Cert.KSpec.rowMaxK w < ⊤ := by
    unfold Cert.KSpec.rowMaxK
    rw [Finset.fold_max_lt, negInf_eq]
    refine ⟨bot_lt_top, fun j _ => ?_⟩
    obtain ⟨x, hx⟩ := hw j
    rw [hx]; exact EReal.coe_lt_top x
  have hgt : ⊥ < Cert.KSpec.rowMaxK w := by
    unfold Cert.KSpec.rowMaxK
    rw [Finset.lt_fold_max]
    refine Or.inr ⟨0, Finset.mem_univ _, ?_⟩
    obtain ⟨x, hx⟩ := hw 0
    rw [hx]; exact EReal.bot_lt_coe x
  exact ⟨(Cert.KSpec.rowMaxK w).toReal, (EReal.coe_toReal hlt.ne hgt.ne').symm⟩

/-- With m a real number, subtracting m and then L is subtracting m + L, whatever the extended real L:
    -(m + L) = -m - L because m is neither infinity, and the rest is associativity of addition. -/
theorem sub_sub_eq_sub_add_of_real (a L : EReal) (μ : ℝ) : a - (μ : EReal) - L = a - ((μ : EReal) + L) := by
  rw [sub_eq_add_neg a ((μ : EReal) + L), EReal.neg_add (Or.inl (EReal.coe_ne_bot μ)) (Or.inl (EReal.coe_ne_top μ)),
    sub_eq_add_neg (-(μ : EReal)) L, sub_eq_add_neg (a - (μ : EReal)) L, sub_eq_add_neg a (μ : EReal), add_assoc]

/-! ## The reference's stages read at an index -/

section Reads

open Cert.ReferenceIdeal Cert.ReferenceIdeal.Facts₀

/-- The row index r with column k put back is (r, k). -/
theorem lift_row (h : S100000x16.Reduces [1] S100000) (r : Fin 100000) (k : Fin (S100000x16.size 1)) :
    h.lift (ix1 r) k = ix2 r (⟨k.val, k.isLt⟩ : Fin 16) := by
  funext c; apply Fin.ext
  fin_cases c <;> rfl

/-- A vector of row values spread over the sixteen columns (first made a column, then broadcast along the rows)
    reads, at (r, j), the value of row r. -/
theorem spread_apply (v : FVec Ideal S100000 .f32) (r : Fin 100000) (j : Fin 16) :
    broadcastInDim S100000x16 ![0, 1] bcast_S100000x1_S100000x16_0_1
      (broadcastInDim S100000x1 ![0] bcast_S100000_S100000x1_0 v) (ix2 r j) = v (ix1 r) := by
  refine (broadcastInDim_apply ![0, 1] bcast_S100000x1_S100000x16_0_1 _ (ix2 r j) (ix2 r (0 : Fin 1)) ?_).trans ?_
  · intro a
    fin_cases a
    · show r.val = if (100000 : ℕ) = 1 then 0 else r.val
      rw [if_neg (by decide)]
    · show (0 : ℕ) = if (1 : ℕ) = 1 then 0 else _
      rw [if_pos rfl]
  · refine broadcastInDim_apply ![0] bcast_S100000_S100000x1_0 v (ix2 r (0 : Fin 1)) (ix1 r) ?_
    intro a
    fin_cases a
    show r.val = if (100000 : ℕ) = 1 then 0 else r.val
    rw [if_neg (by decide)]

/-- The same with a logarithm taken on the column in between. -/
theorem spread_log_apply (v : FVec Ideal S100000 .f32) (r : Fin 100000) (j : Fin 16) :
    broadcastInDim S100000x16 ![0, 1] bcast_S100000x1_S100000x16_0_1
      (Host.log (broadcastInDim S100000x1 ![0] bcast_S100000_S100000x1_0 v)) (ix2 r j) = Ideal.log (v (ix1 r)) := by
  refine (broadcastInDim_apply ![0, 1] bcast_S100000x1_S100000x16_0_1 _ (ix2 r j) (ix2 r (0 : Fin 1)) ?_).trans ?_
  · intro a
    fin_cases a
    · show r.val = if (100000 : ℕ) = 1 then 0 else r.val
      rw [if_neg (by decide)]
    · show (0 : ℕ) = if (1 : ℕ) = 1 then 0 else _
      rw [if_pos rfl]
  · show Ideal.log (broadcastInDim S100000x1 ![0] bcast_S100000_S100000x1_0 v (ix2 r (0 : Fin 1))) = _
    refine congrArg Ideal.log (broadcastInDim_apply ![0] bcast_S100000_S100000x1_0 v (ix2 r (0 : Fin 1)) (ix1 r) ?_)
    intro a
    fin_cases a
    show r.val = if (100000 : ℕ) = 1 then 0 else r.val
    rw [if_neg (by decide)]

/-- The reference's row maximum is the maximum of the row's sixteen entries from -∞: its reduction is that fold, and
    the further maximum against -∞ changes nothing. -/
theorem rmaxT_apply (z : FVec Ideal S100000x16 .f32) (r : Fin 100000) :
    Cert.RefSpec.rmaxT (F := Ideal) z (ix1 r) = Cert.KSpec.rowMaxK (fun j' => z (ix2 r j')) := by
  have h : S100000x16.Reduces [1] S100000 :=
    ⟨reducesTo_S100000x16_S100000_d1.1, Nat.one_pos, reducesTo_S100000x16_S100000_d1.2⟩
  unfold Cert.RefSpec.rmaxT
  rw [maximumf_apply,
    broadcastInDim_apply ![] bcast_S_S100000 (constant (F := Ideal) S_ .f32 0xFF800000#32) (ix1 r) ix0 (fun a => a.elim0),
    constant_apply, Host.reduce_eq_fold_single FloatOps.maximumf z _ reducesTo_S100000x16_S100000_d1 h h_S_,
    constant_apply, negInf_eq]
  rw [max_eq_right bot_le]
  unfold Cert.KSpec.rowMaxK
  rw [negInf_eq]
  have hf : (z ∘ h.lift (ix1 r)) = fun k : Fin 16 => z (ix2 r k) := funext fun k => congrArg z (lift_row h r k)
  exact congrArg (fun f => Finset.fold max (⊥ : EReal) f (Finset.univ : Finset (Fin 16))) hf

/-- The shifted logits at (r, j): the entry minus its row's maximum. -/
theorem shiftT_apply (z : FVec Ideal S100000x16 .f32) (r : Fin 100000) (j : Fin 16) :
    Cert.RefSpec.shiftT (F := Ideal) z (ix2 r j) = z (ix2 r j) - Cert.KSpec.rowMaxK (fun j' => z (ix2 r j')) := by
  unfold Cert.RefSpec.shiftT
  rw [subf_apply, spread_apply, rmaxT_apply]

/-- The reference's sum of exponentials for row r: the sum over the row of exp (entry - maximum). -/
theorem sumExp_apply (z : FVec Ideal S100000x16 .f32) (r : Fin 100000) :
    Host.reduceAdd (Host.exp (Cert.RefSpec.shiftT (F := Ideal) z)) (constant (F := Ideal) S_ .f32 0x00000000#32)
        reducesTo_S100000x16_S100000_d1 h_S_ (ix1 r)
      = ∑ j' : Fin 16, Ideal.exp (z (ix2 r j') - Cert.KSpec.rowMaxK (fun j'' => z (ix2 r j''))) := by
  have h : S100000x16.Reduces [1] S100000 :=
    ⟨reducesTo_S100000x16_S100000_d1.1, Nat.one_pos, reducesTo_S100000x16_S100000_d1.2⟩
  refine (Ideal.hostReduceAdd_single reducesTo_S100000x16_S100000_d1 h _ _ (ix1 r)).trans ?_
  rw [constant_apply, Ideal.ofBits_zero_f32, zero_add]
  refine Finset.sum_congr rfl fun k _ => ?_
  rw [lift_row h r k]
  exact congrArg Ideal.exp (shiftT_apply z r k)

end Reads

/-- On a matrix of real logits the reference's log-softmax, at an entry, is the kernel's grouping of the same row:
    z - (max + log Σ exp (z - max)), the maximum and the sum taken over the entry's row. -/
theorem lsmT_apply (z : FVec Ideal Cert.ReferenceIdeal.S100000x16 .f32) (hz : AllReal z) (r : Fin 100000) (j : Fin 16) :
    Cert.RefSpec.lsmT (F := Ideal) z (ix2 r j)
      = z (ix2 r j) - (Cert.KSpec.rowMaxK (fun j' => z (ix2 r j'))
          + Ideal.log (∑ j' : Fin 16, Ideal.exp (z (ix2 r j') - Cert.KSpec.rowMaxK (fun j'' => z (ix2 r j''))))) := by
  obtain ⟨μ, hμ⟩ := rowMaxK_real (fun j' => z (ix2 r j')) (fun j' => hz (ix2 r j'))
  unfold Cert.RefSpec.lsmT
  rw [subf_apply, spread_log_apply, shiftT_apply, sumExp_apply, hμ]
  exact sub_sub_eq_sub_add_of_real _ _ μ

end Cert.BridgeLsm

end
-- ==== Proof.Bridge.lean ====
/-
  The idealized kernel program and the idealized reference compute the same function of real inputs.

  The host side (edge lists, degrees, normalisation, aggregation) is the same composition of the same operations in
  both programs.  Kernel 0 is the reference's first matrix product, kernels 1 and 2 its hidden layers, and kernel 3
  its logits followed by a log-softmax grouped as z - (max + log Σ exp (z - max)), which is the reference's
  (z - max) - log Σ exp (z - max) when the logits are real numbers — and they are, because every stage maps matrices
  of real numbers to matrices of real numbers.
-/
import proofs.«145280_j30794915512600_1_alg».proof.Proof.KSpec
import proofs.«145280_j30794915512600_1_alg».proof.Proof.RefSpec
import proofs.«145280_j30794915512600_1_alg».proof.Proof.Reals
import proofs.«145280_j30794915512600_1_alg».proof.Proof.RealChain
import proofs.«145280_j30794915512600_1_alg».proof.Proof.BridgeDot
import proofs.«145280_j30794915512600_1_alg».proof.Proof.BridgeLsm

noncomputable section

namespace Cert.Bridge

open Idealize.ShloMosaic Idealize.ShloMosaic.ValueIdx Cert.Reals

/-- The aggregation is one and the same composition of host operations in the two programs. -/
theorem aggK_eq (ei : IVec Cert.KernelIdeal.S2x1600000 32) (h : FVec Ideal Cert.KernelIdeal.S100000x128 .f32) :
    Cert.KSpec.aggK (F := Ideal) ei h = Cert.RefSpec.aggT (F := Ideal) ei h := rfl

/-- Kernel 3 on a real aggregated matrix, real biases and a real weight matrix is the reference's log-softmax of its
    logits. -/
theorem G3_eq (a : FVec Ideal Cert.KernelIdeal.S100000x128 .f32) (b : FVec Ideal Cert.KernelIdeal.S128 .f32)
    (W : FVec Ideal Cert.KernelIdeal.S128x16 .f32) (c : FVec Ideal Cert.KernelIdeal.S16 .f32)
    (ha : AllReal a) (hb : AllReal b) (hW : AllReal W) (hc : AllReal c) :
    Cert.KSpec.G3 a (shapeCast Cert.KernelIdeal.S1x128 b Cert.KernelIdeal.Facts₀.shapeCasts_S128_S1x128) W
        (shapeCast Cert.KernelIdeal.S1x16 c Cert.KernelIdeal.Facts₀.shapeCasts_S16_S1x16)
      = Cert.RefSpec.lsmT (Cert.RefSpec.logitsT (F := Ideal) a b W c) := by
  funext i
  obtain ⟨r, j, rfl⟩ : ∃ (r : Fin 100000) (j : Fin 16), i = ix2 r j := ⟨i 0, i 1, eq_ix2 i⟩
  rw [Cert.BridgeLsm.lsmT_apply _ (Cert.RealChain.real_logits ha hb hW hc) r j]
  have e : Cert.KSpec.logitK a (shapeCast Cert.KernelIdeal.S1x128 b Cert.KernelIdeal.Facts₀.shapeCasts_S128_S1x128) W
        (shapeCast Cert.KernelIdeal.S1x16 c Cert.KernelIdeal.Facts₀.shapeCasts_S16_S1x16) r
      = fun j' => Cert.RefSpec.logitsT (F := Ideal) a b W c (ix2 r j') :=
    funext fun j' => Cert.BridgeDot.logit_eq a b W c r j'
  show Cert.KSpec.logitK a _ W _ r j - (Cert.KSpec.rowMaxK (Cert.KSpec.logitK a _ W _ r)
      + Ideal.log (∑ j' : Fin 16, Ideal.exp (Cert.KSpec.logitK a _ W _ r j' - Cert.KSpec.rowMaxK (Cert.KSpec.logitK a _ W _ r)))) = _
  rw [e]

/-- On real inputs the kernel program's value is the reference's. -/
theorem out_eq (x : FVec Ideal Cert.KernelIdeal.S100000x128 .f32) (ei : IVec Cert.KernelIdeal.S2x1600000 32)
    (W1 : FVec Ideal Cert.KernelIdeal.S128x128 .f32) (b1 : FVec Ideal Cert.KernelIdeal.S128 .f32)
    (W2 : FVec Ideal Cert.KernelIdeal.S128x128 .f32) (b2 : FVec Ideal Cert.KernelIdeal.S128 .f32)
    (W3 : FVec Ideal Cert.KernelIdeal.S128x128 .f32) (b3 : FVec Ideal Cert.KernelIdeal.S128 .f32)
    (Wfc : FVec Ideal Cert.KernelIdeal.S128x16 .f32) (bfc : FVec Ideal Cert.KernelIdeal.S16 .f32)
    (hx : AllReal x) (hW1 : AllReal W1) (hb1 : AllReal b1) (hW2 : AllReal W2) (hb2 : AllReal b2)
    (hW3 : AllReal W3) (hb3 : AllReal b3) (hWfc : AllReal Wfc) (hbfc : AllReal bfc) :
    Cert.KSpec.kerOut x ei W1 b1 W2 b2 W3 b3 Wfc bfc
      = Cert.RefSpec.refOut (F := Ideal) x ei W1 b1 W2 b2 W3 b3 Wfc bfc := by
  unfold Cert.KSpec.kerOut Cert.RefSpec.refOut
  rw [Cert.BridgeDot.G0_eq, aggK_eq, Cert.BridgeDot.G1_eq, aggK_eq, Cert.BridgeDot.G1_eq, aggK_eq]
  exact G3_eq _ b3 Wfc bfc
    (Cert.RealChain.real_agg ei (Cert.RealChain.real_layer
      (Cert.RealChain.real_agg ei (Cert.RealChain.real_layer
        (Cert.RealChain.real_agg ei (Cert.RealChain.real_mm hx hW1)) hb1 hW2)) hb2 hW3)) hb3 hWfc hbfc

end Cert.Bridge

end
-- ==== Proof.LibFinite.lean ====
/-
  A finiteness precondition, read at an entry.

  `jnp.all(jnp.abs(a) < inf)` is printed as the reduction by `and` (into a result of one index) of the comparison of
  `|a|` with the broadcast word `0x7F800000` of `+∞`. On the extended reals `|a i| < ⊤` says exactly that `a i` is a
  real number: `|⊤| = |⊥| = ⊤`.
-/
import Idealize.ShloMosaic.PureOps.Ideal
import Idealize.ShloMosaic.PureOps.Ideal.Laws
import Idealize.ShloMosaic.Lib.ReduceAll
import Idealize.ShloMosaic.Lib.ValueIdx

noncomputable section

namespace Cert.LibFinite

open Idealize.ShloMosaic

instance : Subsingleton (⟨0, ![]⟩ : Shape).Idx := ⟨fun a b => funext fun d => d.elim0⟩

/-- An extended real whose absolute value compares below the word of `+∞` is a real number. -/
theorem real_of_abs_lt_inf (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  induction x using EReal.rec with
  | bot =>
    exfalso
    have h' : Ideal.cmp .olt (max (⊥ : EReal) (-⊥)) (Ideal.ofBits .f32 0x7F800000#32) = 1#1 := h
    revert h'; simp [Ideal.cmp, Ideal.ofBits, Ideal.ieee]
  | coe r => exact ⟨r, rfl⟩
  | top =>
    exfalso
    have h' : Ideal.cmp .olt (max (⊤ : EReal) (-⊤)) (Ideal.ofBits .f32 0x7F800000#32) = 1#1 := h
    revert h'; simp [Ideal.cmp, Ideal.ofBits, Ideal.ieee]

/-- `jnp.all(|a| < inf)`, as printed, gives a real number at every entry of `a`. -/
theorem real_of_all {S : Shape} {axes : List (Fin S.rank)} (a : FVec Ideal S .f32)
    (hb : (⟨0, ![]⟩ : Shape).BroadcastsInDim S (![] : Fin 0 → Fin S.rank))
    (hr : S.ReducesTo axes (⟨0, ![]⟩ : Shape)) (hu : 0 < (⟨0, ![]⟩ : Shape).numel)
    (init : (⟨0, ![]⟩ : Shape).Idx → BitVec 1)
    (e : Host.reduce IntOp.andi
        (cmpf .olt (Host.absf a) (broadcastInDim S ![] hb (constant (F := Ideal) (⟨0, ![]⟩ : Shape) .f32 0x7F800000#32)))
        init hr hu ValueIdx.ix0 = 1#1)
    (i : S.Idx) : ∃ r : ℝ, a i = (r : EReal) :=
  real_of_abs_lt_inf (a i) (Host.reduce_andi_all _ init hr hu ValueIdx.ix0 e i)

end Cert.LibFinite

end
-- ==== Proof.Finite.lean ====
/-
  The precondition says that every float input consists of real numbers.

  `finite_inputs` is the conjunction, over the nine float arguments a, of "every |a i| is below +∞", each a reduction
  by `and` into one bit; the conjunction is 1 exactly when every conjunct is, and an extended real whose absolute
  value is below +∞ is a real number.
-/
import proofs.«145280_j30794915512600_1_alg».proof.Proof.Gen.Pre_finite_inputs
import proofs.«145280_j30794915512600_1_alg».proof.Proof.LibFinite
import proofs.«145280_j30794915512600_1_alg».proof.Proof.Reals
import Idealize.ShloMosaic.Lib.Affine

noncomputable section

namespace Cert.Finite

open Idealize.ShloMosaic Cert.Reals Cert.Pre_finite_inputs Cert.Pre_finite_inputs.Facts

/-- If `finite_inputs` of ten arrays is all ones, each of the nine float arrays consists of real numbers. -/
theorem reals_of_fn (a0 : FVec Ideal S100000x128 .f32) (a1 : IVec S2x1600000 32) (a2 : FVec Ideal S128x128 .f32)
    (a3 : FVec Ideal S128 .f32) (a4 : FVec Ideal S128x128 .f32) (a5 : FVec Ideal S128 .f32)
    (a6 : FVec Ideal S128x128 .f32) (a7 : FVec Ideal S128 .f32) (a8 : FVec Ideal S128x16 .f32)
    (a9 : FVec Ideal S16 .f32)
    (h : Cert.Pre_finite_inputs.fn (F := Ideal) a0 a1 a2 a3 a4 a5 a6 a7 a8 a9 = fun _ => 1#1) :
    AllReal a0 ∧ AllReal a2 ∧ AllReal a3 ∧ AllReal a4 ∧ AllReal a5 ∧ AllReal a6 ∧ AllReal a7 ∧ AllReal a8
      ∧ AllReal a9 := by
  have h0 := congrFun h ValueIdx.ix0
  dsimp only [Cert.Pre_finite_inputs.fn, Cert.Pre_finite_inputs.fn_part1, Cert.Pre_finite_inputs.fn_part2, andi] at h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨Cert.LibFinite.real_of_all a0 _ _ _ _ e0, Cert.LibFinite.real_of_all a2 _ _ _ _ e2,
    Cert.LibFinite.real_of_all a3 _ _ _ _ e3, Cert.LibFinite.real_of_all a4 _ _ _ _ e4,
    Cert.LibFinite.real_of_all a5 _ _ _ _ e5, Cert.LibFinite.real_of_all a6 _ _ _ _ e6,
    Cert.LibFinite.real_of_all a7 _ _ _ _ e7, Cert.LibFinite.real_of_all a8 _ _ _ _ e8,
    Cert.LibFinite.real_of_all a9 _ _ _ _ e9⟩

end Cert.Finite

end
-- ==== Proof.lean ====
/-
  The certificate of a three-layer graph convolution with a linear classifier and a log-softmax: its kernel program
  (four row-blocked kernels between host-side gathers and scatter-adds) against a plain reference.

  Frames: the two kernel programs terminate with their arguments unchanged by the generated frame modules; the
  reference is a straight line of host operations, run operation by operation.  The idealization rewrote nothing.
  Value: at the ideal instance the kernel program's result buffer ends at `kerOut` of the arguments (each kernel's
  output array is one whole-array function of its input arrays; the host stretches are read operation by operation),
  the reference's at `refOut`, and on inputs of real numbers — which the precondition gives — the two are equal:
  same host-side edge lists, degrees, normalisation and aggregation; a block-wise matrix product is the whole one; the
  two spellings of ELU agree at every extended real; and the two groupings of the log-softmax agree where the logits
  are real numbers.
-/
import proofs.«145280_j30794915512600_1_alg».proof.Defs
import proofs.«145280_j30794915512600_1_alg».proof.Proof.Gen.Kernel
import proofs.«145280_j30794915512600_1_alg».proof.Proof.Gen.Kernel.Skeleton
import proofs.«145280_j30794915512600_1_alg».proof.Proof.Gen.Kernel.Launch
import proofs.«145280_j30794915512600_1_alg».proof.Proof.Gen.Kernel.Points
import proofs.«145280_j30794915512600_1_alg».proof.Proof.Gen.Kernel.Frame
import proofs.«145280_j30794915512600_1_alg».proof.Proof.Gen.KernelIdeal
import proofs.«145280_j30794915512600_1_alg».proof.Proof.Gen.KernelIdeal.Skeleton
import proofs.«145280_j30794915512600_1_alg».proof.Proof.Gen.KernelIdeal.Launch
import proofs.«145280_j30794915512600_1_alg».proof.Proof.Gen.KernelIdeal.Points
import proofs.«145280_j30794915512600_1_alg».proof.Proof.Gen.KernelIdeal.Frame
import proofs.«145280_j30794915512600_1_alg».proof.Proof.Gen.ReferenceIdeal
import proofs.«145280_j30794915512600_1_alg».proof.Proof.Gen.Pre_finite_inputs
import proofs.«145280_j30794915512600_1_alg».proof.Proof.KRun
import proofs.«145280_j30794915512600_1_alg».proof.Proof.KHost
import proofs.«145280_j30794915512600_1_alg».proof.Proof.RefRun
import proofs.«145280_j30794915512600_1_alg».proof.Proof.Bridge
import proofs.«145280_j30794915512600_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel program terminates, nothing faulting, its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.RefRun.run (F := Ideal) m ρ)

/-- Both idealized programs end with the same result: the kernel program's `kerOut` of the arguments, which on the
    real inputs the precondition admits is the reference's `refOut` of the same arguments. -/
theorem algebraic : Cert.algebraic_KernelIdeal_ReferenceIdeal := by
  intro m ρ m' ρ' hpre hagree
  refine ⟨fun c => Cert.KSpec.kerOut
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KHost.W8_out m ρ c), (h c).2⟩)
      (Cert.KernelIdeal.Run.run_main (F := Ideal) m ρ)
  · refine (θ_run Cert.ReferenceIdeal.defs _ _).mono (fun r h c => ⟨(h c).1.trans ?_, (h c).2⟩)
      (Cert.RefRun.run (F := Ideal) m' ρ')
    obtain ⟨r0, r2, r3, r4, r5, r6, r7, r8, r9⟩ := Cert.Finite.reals_of_fn _ _ _ _ _ _ _ _ _ _ (hpre c)
    obtain ⟨e0, e1, e2, e3, e4, e5, e6, e7, e8, e9⟩ := hagree c
    rw [e0, e1, e2, e3, e4, e5, e6, e7, e8, e9]
    exact (Cert.Bridge.out_eq _ _ _ _ _ _ _ _ _ _ r0 r2 r3 r4 r5 r6 r7 r8 r9).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
